-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S64x512 : Shape := ⟨2, ![64, 512]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_

variable [Facts]

def fn_part1 {F : FTy → Type} [FloatOps F] (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  main_v18

def fn {F : FTy → Type} [FloatOps F] (main_arg0 : FVec F S4x4096x512 .f32) (main_arg1 : FVec F S64x512 .f32) (main_arg2 : FVec F S64x512 .f32) (main_arg3 : FVec F S64x512 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S64x512 .f32 := Host.absf main_arg3
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_v13 main_v16
-- ==== Kernel.lean ====
abbrev S4x4096x512 : Shape := ⟨3, ![4, 4096, 512]⟩
abbrev S64x512 : Shape := ⟨2, ![64, 512]⟩
abbrev S_ : Shape := ⟨0, ![]⟩
abbrev S192x512 : Shape := ⟨2, ![192, 512]⟩
abbrev S4x4096x64 : Shape := ⟨3, ![4, 4096, 64]⟩
abbrev S1x2048x512 : Shape := ⟨3, ![1, 2048, 512]⟩
abbrev S1x2048x64 : Shape := ⟨3, ![1, 2048, 64]⟩
abbrev S2048x512 : Shape := ⟨2, ![2048, 512]⟩
abbrev S2048x192 : Shape := ⟨2, ![2048, 192]⟩
abbrev S2048x64 : Shape := ⟨2, ![2048, 64]⟩
abbrev S1x1024x64 : Shape := ⟨3, ![1, 1024, 64]⟩
abbrev S1024x1 : Shape := ⟨2, ![1024, 1]⟩
abbrev S1024x64 : Shape := ⟨2, ![1024, 64]⟩
abbrev S1024x2048 : Shape := ⟨2, ![1024, 2048]⟩
abbrev S1024 : Shape := ⟨1, ![1024]⟩

abbrev nBuf : Space → Nat
  | .hbm => 12
  | .vmem => 20
  | .smem => 0
  | _ => 0

abbrev bufTy : (tb : Table) → Fin (tcTables nBuf tb) → BufTy
  | .hbm, ⟨0, _⟩ => ⟨S4x4096x512, .f32⟩
  | .hbm, ⟨1, _⟩ => ⟨S64x512, .f32⟩
  | .hbm, ⟨2, _⟩ => ⟨S64x512, .f32⟩
  | .hbm, ⟨3, _⟩ => ⟨S64x512, .f32⟩
  | .hbm, ⟨4, _⟩ => ⟨S_, .f32⟩
  | .hbm, ⟨5, _⟩ => ⟨S64x512, .f32⟩
  | .hbm, ⟨6, _⟩ => ⟨S64x512, .f32⟩
  | .hbm, ⟨7, _⟩ => ⟨S192x512, .f32⟩
  | .hbm, ⟨8, _⟩ => ⟨S4x4096x64, .bf16⟩
  | .hbm, ⟨9, _⟩ => ⟨S4x4096x64, .bf16⟩
  | .hbm, ⟨10, _⟩ => ⟨S4x4096x64, .bf16⟩
  | .hbm, ⟨11, _⟩ => ⟨S4x4096x64, .f32⟩
  | .local _ .vmem, ⟨0, _⟩ => ⟨S1x2048x512, .f32⟩
  | .local _ .vmem, ⟨1, _⟩ => ⟨S1x2048x512, .f32⟩
  | .local _ .vmem, ⟨2, _⟩ => ⟨S192x512, .f32⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x2048x64, .bf16⟩
  | .local _ .vmem, ⟨7, _⟩ => ⟨S1x2048x64, .bf16⟩
  | .local _ .vmem, ⟨8, _⟩ => ⟨S1x2048x64, .bf16⟩
  | .local _ .vmem, ⟨9, _⟩ => ⟨S1x1024x64, .bf16⟩
  | .local _ .vmem, ⟨10, _⟩ => ⟨S1x1024x64, .bf16⟩
  | .local _ .vmem, ⟨11, _⟩ => ⟨S1x2048x64, .bf16⟩
  | .local _ .vmem, ⟨12, _⟩ => ⟨S1x2048x64, .bf16⟩
  | .local _ .vmem, ⟨13, _⟩ => ⟨S1x2048x64, .bf16⟩
  | .local _ .vmem, ⟨14, _⟩ => ⟨S1x2048x64, .bf16⟩
  | .local _ .vmem, ⟨15, _⟩ => ⟨S1x1024x64, .f32⟩
  | .local _ .vmem, ⟨16, _⟩ => ⟨S1x1024x64, .f32⟩
  | .local _ .vmem, ⟨17, _⟩ => ⟨S1024x1, .f32⟩
  | .local _ .vmem, ⟨18, _⟩ => ⟨S1024x1, .f32⟩
  | .local _ .vmem, ⟨19, _⟩ => ⟨S1024x64, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S192x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![4, 4, 2], ![false, false, false]⟩

def k1_cond2 (i : grid1.Coords) : BitVec 1 :=
  let arg2 : BitVec 32 := BitVec.ofNat 32 (i 2).val
  let c1_i32 : BitVec 32 := 1#32
  let v39 : BitVec 1 := Scalar.cmpi .eq arg2 c1_i32
  let v40 : BitVec 32 := Scalar.extui v39
  let c0_i32_24 : BitVec 32 := 0#32
  let v41 : BitVec 1 := Scalar.cmpi .ne v40 c0_i32_24
  v41

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bcast_S_S64x512 : S_.BroadcastsInDim S64x512 (![] : Fin 0 → Fin S64x512.rank)
  concatenates_S64x512_S64x512_S64x512_S192x512_d0 : Shape.Concatenates [S64x512, S64x512, S64x512] S192x512 0
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  bitsLt_bf16_f32 : FTy.bits .bf16 < FTy.bits .f32
  inb_S192x512_S192x512_0_0 : ∀ a, (![0, 0] : Fin 2 → Nat) a + S192x512.size a ≤ S192x512.size a
  h_S192x512 : 0 < S192x512.numel
  shapeCasts_S192x512_S192x512 : S192x512.ShapeCasts S192x512
  slices_S2048x192_o0_0_S2048x64 : S2048x192.Slices ![0, 0] S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  packedbf16_S1x2048x64_S1x2048x64_0_0_0 : (Rect.unit (s := S1x2048x64) ![0, 0, 0] S1x2048x64.size inb_S1x2048x64_S1x2048x64_0_0_0).PackedRows (EltTy.packing .bf16)
  slices_S2048x192_o0_64_S2048x64 : S2048x192.Slices ![0, 64] S2048x64
  slices_S2048x192_o0_128_S2048x64 : S2048x192.Slices ![0, 128] S2048x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1024x64 : S1024x64.ShapeCasts S1x1024x64
  dot_S2048x512_S192x512_S2048x192_1_1_0_0_n_n_wf : DotDims.WF S2048x512 S192x512 S2048x192 [1] [1] [0] [0] [] []
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S4x4096x512.size a
  hwx0_0 : ∀ i : grid0.Coords, EltTy.bits .f32 = 32 ∨ (Rect.block (s := S4x4096x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x512.size a ≤ S192x512.size a
  hwx0_1 : ∀ i : grid0.Coords, EltTy.bits .f32 = 32 ∨ (Rect.block (s := S192x512) S192x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S4x4096x64.size a
  hwx0_2 : ∀ i : grid0.Coords, EltTy.bits .bf16 = 32 ∨ (Rect.block (s := S4x4096x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S4x4096x64.size a
  hwx0_3 : ∀ i : grid0.Coords, EltTy.bits .bf16 = 32 ∨ (Rect.block (s := S4x4096x64) S1x2048x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x64.size a ≤ S4x4096x64.size a
  hwx0_4 : ∀ i : grid0.Coords, EltTy.bits .bf16 = 32 ∨ (Rect.block (s := S4x4096x64) S1x2048x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S4x4096x64.size a
  hwx1_0 : ∀ i : grid1.Coords, EltTy.bits .bf16 = 32 ∨ (Rect.block (s := S4x4096x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S4x4096x64.size a
  hwx1_1 : ∀ i : grid1.Coords, EltTy.bits .bf16 = 32 ∨ (Rect.block (s := S4x4096x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S4x4096x64.size a
  hwx1_2 : ∀ i : grid1.Coords, EltTy.bits .bf16 = 32 ∨ (Rect.block (s := S4x4096x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S4x4096x64.size a
  hwx1_3 : ∀ i : grid1.Coords, EltTy.bits .f32 = 32 ∨ (Rect.block (s := S4x4096x64) S1x1024x64.size (cc1_transform_3 i) (hinb1_3 i)).WholeWords (EltTy.packing .f32)

variable [Facts₀]

def dot_S2048x512_S192x512_S2048x192_1_1_0_0_n_n : DotDims S2048x512 S192x512 S2048x192 where
  lhsContracting := [1]
  rhsContracting := [1]
  lhsNonContracting := [0]
  rhsNonContracting := [0]
  lhsBatch := []
  rhsBatch := []
  wf := dot_S2048x512_S192x512_S2048x192_1_1_0_0_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x2048x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x2048x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_2) S1x2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3_0) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x4096x512 : Shape := ⟨3, ![4, 4096, 512]⟩
abbrev S64x512 : Shape := ⟨2, ![64, 512]⟩
abbrev S4x4096x64 : Shape := ⟨3, ![4, 4096, 64]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S64x512, .f32⟩
  | .hbm, ⟨2, _⟩ => ⟨S64x512, .f32⟩
  | .hbm, ⟨3, _⟩ => ⟨S64x512, .f32⟩
  | .hbm, ⟨4, _⟩ => ⟨S4x4096x64, .f32⟩
  | .hbm, ⟨5, _⟩ => ⟨S4x4096x64, .f32⟩
  | .hbm, ⟨6, _⟩ => ⟨S4x4096x64, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096, .f32⟩
  | .hbm, ⟨13, _⟩ => ⟨S_, .f32⟩
  | .hbm, ⟨14, _⟩ => ⟨S4x4096, .f32⟩
  | .hbm, ⟨15, _⟩ => ⟨S4x4096, .f32⟩
  | .hbm, ⟨16, _⟩ => ⟨S4x4096x1, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S4x4096x4096, .f32⟩
  | .hbm, ⟨24, _⟩ => ⟨S4x4096x4096, .f32⟩
  | .hbm, ⟨25, _⟩ => ⟨S4x4096x64, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x512_S64x512_S4x4096x64_2_1_01_0_n_n_wf : DotDims.WF S4x4096x512 S64x512 S4x4096x64 [2] [1] [0, 1] [0] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x512_S64x512_S4x4096x64_2_1_01_0_n_n : DotDims S4x4096x512 S64x512 S4x4096x64 where
  lhsContracting := [2]
  rhsContracting := [1]
  lhsNonContracting := [0, 1]
  rhsNonContracting := [0]
  lhsBatch := []
  rhsBatch := []
  wf := dot_S4x4096x512_S64x512_S4x4096x64_2_1_01_0_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.FrameB.Reg0.lean ====
/-
  Region 0 — the fused projection — at the contents V its arrays hold when the region is entered.
  At grid point t = (b, s) the body reads the x block (rows s·2048 … of batch b, all 512 features) and the whole
  192×512 weight matrix, contracts the features, and stores columns 0–63, 64–127 and 128–191 of the product into the
  point's blocks of the three projected arrays. Each output's staging buffer after the body is therefore the one
  stored rectangle's payload over the two input blocks; the inputs are left as found.
-/
import proofs.«402268_j81295140979317_3_alg».proof.Proof.Gen.Kernel.Launch
import proofs.«402268_j81295140979317_3_alg».proof.Proof.Gen.Kernel.Skeleton
import proofs.«402268_j81295140979317_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's rectangles: each access is of a whole buffer -/

abbrev r0_x : Rect S1x2048x512 := Rect.unit (s := S1x2048x512) ![0, 0, 0] S1x2048x512.size inb_S1x2048x512_S1x2048x512_0_0_0
abbrev r0_w : Rect S192x512 := Rect.unit (s := S192x512) ![0, 0] S192x512.size inb_S192x512_S192x512_0_0
abbrev r0_o : Rect S1x2048x64 := Rect.unit (s := S1x2048x64) ![0, 0, 0] S1x2048x64.size inb_S1x2048x64_S1x2048x64_0_0_0

/-! ## What the body leaves in each output window's buffer -/

/-- Columns 0–63 of the product (the scaled queries), -/
def out0_2 (x0 : Vec F S1x2048x512 .f32) (x1 : Vec F S192x512 .f32) : Vec F S1x2048x64 .bf16 :=
  View.canon [⟨r0_o, k0_pay2 (View.ld x0 r0_x) (View.ld x1 r0_w)⟩]
/-- columns 64–127 (the keys), -/
def out0_3 (x0 : Vec F S1x2048x512 .f32) (x1 : Vec F S192x512 .f32) : Vec F S1x2048x64 .bf16 :=
  View.canon [⟨r0_o, k0_pay3 (View.ld x0 r0_x) (View.ld x1 r0_w)⟩]
/-- columns 128–191 (the values). -/
def out0_4 (x0 : Vec F S1x2048x512 .f32) (x1 : Vec F S192x512 .f32) : Vec F S1x2048x64 .bf16 :=
  View.canon [⟨r0_o, k0_pay4 (View.ld x0 r0_x) (View.ld x1 r0_w)⟩]

/-- One whole-buffer store covers the buffer. -/
theorem cover0_o (p0 : Vec F S1x2048x64 .bf16) (y : S1x2048x64.Idx) :
    ∃ pc ∈ ([⟨r0_o, p0⟩] : List (View.Piece (Elt F) S1x2048x64 .bf16)), y ∈ pc.1.set :=
  View.cover_of_tiled [⟨r0_o, p0⟩] S1x2048x64.size (by rfl) y

/-! ## The body's triple -/

set_option maxHeartbeats 4000000 in
/-- On whole staging memrefs, the inputs' at contents x0, x1 and the outputs' at anything, the body runs to the
    continuation holding the inputs' as they were and each output's at its stored payload. -/
theorem sound_kernel0 (c : Dev nD) (E : Set ℕ) (i : grid0.Coords)
    (arg2 : Memref sig .tc .vmem S1x2048x512 .f32) (harg2 : arg2.IsWhole) (arg3 : Memref sig .tc .vmem S192x512 .f32) (harg3 : arg3.IsWhole)
    (arg4 : Memref sig .tc .vmem S1x2048x64 .bf16) (harg4 : arg4.IsWhole) (arg5 : Memref sig .tc .vmem S1x2048x64 .bf16) (harg5 : arg5.IsWhole)
    (arg6 : Memref sig .tc .vmem S1x2048x64 .bf16) (harg6 : arg6.IsWhole)
    (x0 : Vec F S1x2048x512 .f32) (x1 : Vec F S192x512 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__proj_kernel i arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_o _)
  isplitl [H3]
  · iexists _; isplitr
    swap; · iexact H3
    ipureintro
    exact View.read_writes_eq_canon _ _ _ (cover0_o _)
  iexists _; isplitr
  swap; · iexact H4
  ipureintro
  exact View.read_writes_eq_canon _ _ _ (cover0_o _)

/-! ## The pipeline's proof data -/

/-- Pipeline 0's proof data on core c: the arrays as the region finds them; after the body at point t each input's
    buffer at its block and each output's at its payload over the two input blocks; the class's invariant (the scoped
    rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and the
    core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.FrameB.Reg1a.lean ====
/-
  Region 1 — attention over key tiles — what its two control cases share, at the contents V its arrays hold when the
  region is entered. Grid point t = (b, qi, kv): the body resets the running maximum, sum and numerator when kv = 0
  (the even points), folds one tile of 2048 keys into them at every point, and at kv = 1 (the odd points) divides the
  numerator by the sum into the output block, which is idle — untouched and not written back — at the even points.
-/
import proofs.«402268_j81295140979317_3_alg».proof.Proof.Gen.Kernel.Launch
import proofs.«402268_j81295140979317_3_alg».proof.Proof.Gen.Kernel.Skeleton
import proofs.«402268_j81295140979317_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the query block is
    fetched at the even points only: its index does not move with kv). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, in closed form over the grid -/

/-- "kv = 0": the reset branch's condition, as the body's scalar chain computes it. -/
abbrev cond1_0 (i : grid1.Coords) : Prop := (Scalar.cmpi .ne (Scalar.extui (Scalar.cmpi .eq (BitVec.ofNat 32 (i 2).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)
/-- "kv = 1": the closing branch's condition. -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the even points the output window is idle and is not written back; at the odd points it is live. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem liveAt1_3_B : ∀ t : Fin cfg1.N, ¬cond1_0 (grid1.coords t) → cond1_1 (grid1.coords t) → cfg1.idle 3 (grid1.coords t) = false := by decide +kernel

/-! ## The memrefs the body is called with -/

abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .f32 := win1_3.stage (cfg1.slots t 3)
abbrev hs1_3 (t : Fin cfg1.N) : (ms1_3 t).IsWhole := hstage1_3 ((cfg1.slots t 3).cast nbuf1_3)
/-- The three scratch operands: the running maximum, the running sum, the running numerator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2
/-- Views through which the output block's and the scratches' contents are stated. -/
abbrev VO1_3 : View sig .tc .vmem S1x1024x64 .f32 := (Memref.whole cc1_stg3_0 : Memref sig .tc .vmem S1x1024x64 .f32).view
abbrev VS1_0 : View sig .tc .vmem S1024x1 .f32 := scM1_0.view
abbrev VS1_1 : View sig .tc .vmem S1024x1 .f32 := scM1_1.view
abbrev VS1_2 : View sig .tc .vmem S1024x64 .f32 := scM1_2.view

/-! ## The region's invariant: the scoped buffers no window of this region stages -/

/-- Region 0's nine staging buffers, each whole at some contents, beside T. -/
def restC0 (c : Dev nD) (T : sProp 𝕄) : sProp 𝕄 :=
  iprop((∃ d, owns (c : Thread nD τ) (Memref.whole cc0_stg0_0 : Memref sig .tc .vmem S1x2048x512 .f32) fullShare d)
    ∗ (∃ d, owns (c : Thread nD τ) (Memref.whole cc0_stg0_1 : Memref sig .tc .vmem S1x2048x512 .f32) fullShare d)
    ∗ (∃ d, owns (c : Thread nD τ) (Memref.whole cc0_stg1_0 : Memref sig .tc .vmem S192x512 .f32) fullShare d)
    ∗ (∃ d, owns (c : Thread nD τ) (Memref.whole cc0_stg2_0 : Memref sig .tc .vmem S1x2048x64 .bf16) fullShare d)
    ∗ (∃ d, owns (c : Thread nD τ) (Memref.whole cc0_stg2_1 : Memref sig .tc .vmem S1x2048x64 .bf16) fullShare d)
    ∗ (∃ d, owns (c : Thread nD τ) (Memref.whole cc0_stg3_0 : Memref sig .tc .vmem S1x2048x64 .bf16) fullShare d)
    ∗ (∃ d, owns (c : Thread nD τ) (Memref.whole cc0_stg3_1 : Memref sig .tc .vmem S1x2048x64 .bf16) fullShare d)
    ∗ (∃ d, owns (c : Thread nD τ) (Memref.whole cc0_stg4_0 : Memref sig .tc .vmem S1x2048x64 .bf16) fullShare d)
    ∗ (∃ d, owns (c : Thread nD τ) (Memref.whole cc0_stg4_1 : Memref sig .tc .vmem S1x2048x64 .bf16) fullShare d)
    ∗ T)

/-- The class's invariant with the scratch operands as memrefs owned at some contents: what the body obligation hands
    the body at the first point and takes back at the end. -/
theorem PhiA1_eq (c : Dev nD) :
    (Pipeline.ΦA spec1 c : sProp 𝕄)
      = iprop(restC0 c (iprop((∃ d, owns (c : Thread nD τ) scM1_0 fullShare d) ∗ (∃ d, owns (c : Thread nD τ) scM1_1 fullShare d)
          ∗ (∃ d, owns (c : Thread nD τ) scM1_2 fullShare d))) ∗ (∃ r, prngReg c r)) := by
  unfold Pipeline.ΦA restC0; rw [scopedRest1_eq]; simp only [scM1_0, scM1_1, scM1_2, owns_whole]; try rfl

end Cert.Kernel.Hand

end
-- ==== Proof.FrameB.Run1A.lean ====
/-
  Region 1's body at an EVEN point (kv = 0): the three scratches are reset (−∞, 0, 0), one tile of keys is folded in,
  and the output block is left untouched. The pieces each scratch ends with are whatever the symbolic run finds.
-/
import proofs.«402268_j81295140979317_3_alg».proof.Proof.FrameB.Reg1a

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- What the body's stores leave in each scratch, as pieces (last first), at an even point, WITH the proof that on whole
    memrefs — the three inputs' at their contents, the output's at contents handed back untouched, the scratches' at
    anything — the body runs to the continuation holding the inputs' and the output's as they were and each scratch with
    its pieces written. -/
noncomputable def kernelRun1_A (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x2048x64 .bf16) (x2 : Vec F S1x2048x64 .bf16) :
    Σ' (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.FrameB.Run1B.lean ====
/-
  Region 1's body at an ODD point (kv = 1): no reset; the second tile of keys is folded into the running maximum, sum
  and numerator the even point before it left, and the numerator over the sum is stored into the output block.
-/
import proofs.«402268_j81295140979317_3_alg».proof.Proof.FrameB.Run1A

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- What the body's stores leave in the output block and in each scratch, as pieces (last first), at an odd point, WITH
    the proof that on whole memrefs — the inputs' at their contents, the output's at anything, the scratches' at the
    contents xs0, xs1, xs2 the point before left — the body runs to the continuation holding the inputs' as they were
    and the output's and each scratch's with its pieces written. -/
noncomputable def kernelRun1_B (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x2048x64 .bf16) (x2 : Vec F S1x2048x64 .bf16)
    (xs0 : Vec F S1024x1 .f32) (xs1 : Vec F S1024x1 .f32) (xs2 : Vec F S1024x64 .f32) :
    Σ' (L3 : List (View.Piece (Elt F) S1x1024x64 .f32)) (LS0 : List (View.Piece (Elt F) S1024x1 .f32)) (LS1 : List (View.Piece (Elt F) S1024x1 .f32)), { LS2 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.FrameB.Reg1.lean ====
/-
  Region 1 — attention over key tiles: what the output block and the three scratches (running maximum, running sum,
  running numerator) hold after each grid point, the region's invariant carrying the scratches from point to point,
  the proof data and the body obligation.
  After an even point (kv = 0) the scratches hold the first tile folded into (−∞, 0, 0); after the odd point that
  follows they hold the second tile folded into those, and the output block holds numerator over sum.
-/
import proofs.«402268_j81295140979317_3_alg».proof.Proof.FrameB.Run1B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves: the run's pieces read back -/

/-- The idle output block at an even point: a placeholder nothing consults (the block is neither written back there
    nor read at the next point). -/
def out1_A_3 : Vec F S1x1024x64 .f32 := VO1_3.read (Elt F) VO1_3.junk

def sout1_A_0 (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x2048x64 .bf16) (x2 : Vec F S1x2048x64 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).1)
def sout1_A_1 (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x2048x64 .bf16) (x2 : Vec F S1x2048x64 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.1)
def sout1_A_2 (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x2048x64 .bf16) (x2 : Vec F S1x2048x64 .bf16) : Vec F S1024x64 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.1)

/-- Each scratch's pieces at an even point tile it, so they cover it. -/
theorem scover1_A_0 (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x2048x64 .bf16) (x2 : Vec F S1x2048x64 .bf16) (y : S1024x1.Idx) :
    ∃ pc ∈ (kernelRun1_A c i arg3 harg3 arg4 harg4 arg5 harg5 arg6 harg6 arg7 harg7 arg8 harg8 arg9 harg9 hc0 hc1 x0 x1 x2).1, y ∈ pc.1.set :=
  View.cover_of_tiledL (kernelRun1_A c i arg3 harg3 arg4 harg4 arg5 harg5 arg6 harg6 arg7 harg7 arg8 harg8 arg9 harg9 hc0 hc1 x0 x1 x2).1 S1024x1.size (by sl_kernel_rfl) y
theorem scover1_A_1 (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x2048x64 .bf16) (x2 : Vec F S1x2048x64 .bf16) (y : S1024x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1024x1.size (by sl_kernel_rfl) y
theorem scover1_A_2 (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x2048x64 .bf16) (x2 : Vec F S1x2048x64 .bf16) (y : S1024x64.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1024x64.size (by sl_kernel_rfl) y

def out1_B_3 (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x2048x64 .bf16) (x2 : Vec F S1x2048x64 .bf16)
    (xs0 : Vec F S1024x1 .f32) (xs1 : Vec F S1024x1 .f32) (xs2 : Vec F S1024x64 .f32) : Vec F S1x1024x64 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)
def sout1_B_0 (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x2048x64 .bf16) (x2 : Vec F S1x2048x64 .bf16)
    (xs0 : Vec F S1024x1 .f32) (xs1 : Vec F S1024x1 .f32) (xs2 : Vec F S1024x64 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)
def sout1_B_1 (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x2048x64 .bf16) (x2 : Vec F S1x2048x64 .bf16)
    (xs0 : Vec F S1024x1 .f32) (xs1 : Vec F S1024x1 .f32) (xs2 : Vec F S1024x64 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)
def sout1_B_2 (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x2048x64 .bf16) (x2 : Vec F S1x2048x64 .bf16)
    (xs0 : Vec F S1024x1 .f32) (xs1 : Vec F S1024x1 .f32) (xs2 : Vec F S1024x64 .f32) : Vec F S1024x64 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

theorem cover1_B_3 (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x2048x64 .bf16) (x2 : Vec F S1x2048x64 .bf16)
    (xs0 : Vec F S1024x1 .f32) (xs1 : Vec F S1024x1 .f32) (xs2 : Vec F S1024x64 .f32) (y : S1x1024x64.Idx) :
    ∃ pc ∈ (kernelRun1_B c i arg3 harg3 arg4 harg4 arg5 harg5 arg6 harg6 arg7 harg7 arg8 harg8 arg9 harg9 hc0 hc1 x0 x1 x2 xs0 xs1 xs2).1, y ∈ pc.1.set :=
  View.cover_of_tiledL (kernelRun1_B c i arg3 harg3 arg4 harg4 arg5 harg5 arg6 harg6 arg7 harg7 arg8 harg8 arg9 harg9 hc0 hc1 x0 x1 x2 xs0 xs1 xs2).1 S1x1024x64.size (by sl_kernel_rfl) y
theorem scover1_B_0 (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x2048x64 .bf16) (x2 : Vec F S1x2048x64 .bf16)
    (xs0 : Vec F S1024x1 .f32) (xs1 : Vec F S1024x1 .f32) (xs2 : Vec F S1024x64 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1024x1.size (by sl_kernel_rfl) y
theorem scover1_B_1 (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x2048x64 .bf16) (x2 : Vec F S1x2048x64 .bf16)
    (xs0 : Vec F S1024x1 .f32) (xs1 : Vec F S1024x1 .f32) (xs2 : Vec F S1024x64 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1024x1.size (by sl_kernel_rfl) y
theorem scover1_B_2 (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x2048x64 .bf16) (x2 : Vec F S1x2048x64 .bf16)
    (xs0 : Vec F S1024x1 .f32) (xs1 : Vec F S1024x1 .f32) (xs2 : Vec F S1024x64 .f32) (y : S1024x64.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1024x64.size (by sl_kernel_rfl) y

/-! ## What the output block and the scratches hold after each point -/

/-- The four contents after a point: the output block, then the running maximum, sum and numerator. -/
abbrev Outs1 (F : FTy → Type) [FloatOps F] : Type := Vec F S1x1024x64 .f32 × Vec F S1024x1 .f32 × Vec F S1024x1 .f32 × Vec F S1024x64 .f32

theorem hcA0 (t : Fin cfg1.N) (h0 : t.val % 2 = 0) : cond1_0 (grid1.coords t) := (hcond1_0 t).mpr h0
theorem hcA1 (t : Fin cfg1.N) (h0 : t.val % 2 = 0) : ¬cond1_1 (grid1.coords t) := fun h => by have := (hcond1_1 t).mp h; omega
theorem hcB0 (t : Fin cfg1.N) (h1 : t.val % 2 = 1) : ¬cond1_0 (grid1.coords t) := fun h => by have := (hcond1_0 t).mp h; omega
theorem hcB1 (t : Fin cfg1.N) (h1 : t.val % 2 = 1) : cond1_1 (grid1.coords t) := (hcond1_1 t).mpr h1

/-- An even point: the reset case at the point's memrefs and input blocks. -/
def caseA (c : Dev nD) (t : Fin cfg1.N) (h0 : t.val % 2 = 0) : Outs1 F :=
  (out1_A_3,
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcA0 t h0) (hcA1 t h0) (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcA0 t h0) (hcA1 t h0) (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcA0 t h0) (hcA1 t h0) (iblk1 V c 0 t) (iblk1 V c 1 t) (iblk1 V c 2 t))

/-- An odd point: the closing case over the scratches the point before left. -/
def caseB (c : Dev nD) (t : Fin cfg1.N) (h1 : t.val % 2 = 1) (xs0 : Vec F S1024x1 .f32) (xs1 : Vec F S1024x1 .f32) (xs2 : Vec F S1024x64 .f32) : Outs1 F :=
  (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcB0 t h1) (hcB1 t h1) (iblk1 V c 0 t) (iblk1 V c 1 t) (iblk1 V c 2 t) xs0 xs1 xs2,
   sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcB0 t h1) (hcB1 t h1) (iblk1 V c 0 t) (iblk1 V c 1 t) (iblk1 V c 2 t) xs0 xs1 xs2,
   sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcB0 t h1) (hcB1 t h1) (iblk1 V c 0 t) (iblk1 V c 1 t) (iblk1 V c 2 t) xs0 xs1 xs2,
   sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcB0 t h1) (hcB1 t h1) (iblk1 V c 0 t) (iblk1 V c 1 t) (iblk1 V c 2 t) xs0 xs1 xs2)

/-- THE ACCUMULATION: by recursion on the point — an even point resets, an odd point folds into what the point before
    left. -/
def outsAt1 (c : Dev nD) : (n : ℕ) → n < cfg1.N → Outs1 F
  | 0, hn => caseA V c ⟨0, hn⟩ (Nat.zero_mod 2)
  | n + 1, hn =>
    if h0 : (n + 1) % 2 = 0 then caseA V c ⟨n + 1, hn⟩ h0
    else caseB V c ⟨n + 1, hn⟩ (by dsimp only; omega) (outsAt1 c n (Nat.lt_of_succ_lt hn)).2.1 (outsAt1 c n (Nat.lt_of_succ_lt hn)).2.2.1 (outsAt1 c n (Nat.lt_of_succ_lt hn)).2.2.2

theorem outsAt1_A (c : Dev nD) (t : Fin cfg1.N) (h0 : t.val % 2 = 0) : outsAt1 V c t.val t.isLt = caseA V c t h0 := by
  obtain ⟨n, hn⟩ := t
  cases n with
  | zero => rfl
  | succ n => exact dif_pos h0

theorem outsAt1_B (c : Dev nD) (t : Fin cfg1.N) (h1 : t.val % 2 = 1) :
    outsAt1 V c t.val t.isLt = caseB V c t h1 (outsAt1 V c (t.val - 1) (Nat.lt_of_le_of_lt (Nat.sub_le _ _) t.isLt)).2.1
      (outsAt1 V c (t.val - 1) (Nat.lt_of_le_of_lt (Nat.sub_le _ _) t.isLt)).2.2.1
      (outsAt1 V c (t.val - 1) (Nat.lt_of_le_of_lt (Nat.sub_le _ _) t.isLt)).2.2.2 := by
  obtain ⟨n, hn⟩ := t
  cases n with
  | zero => exfalso; dsimp only at h1; omega
  | succ n => exact dif_neg (by dsimp only at h1 ⊢; omega)

/-! ## The region's invariant -/

/-- Before the first point the class's invariant (every scratch at anything); afterwards the scoped rest with each
    scratch at what the point before left in it, and the generator register at some state. -/
def PhiS1 (c : Dev nD) : (n : ℕ) → n ≤ cfg1.N → sProp 𝕄
  | 0, _ => Pipeline.ΦA spec1 c
  | n + 1, hn => iprop(restC0 c (iprop(owns (c : Thread nD τ) scM1_0 fullShare (outsAt1 V c n hn).2.1
      ∗ owns (c : Thread nD τ) scM1_1 fullShare (outsAt1 V c n hn).2.2.1
      ∗ owns (c : Thread nD τ) scM1_2 fullShare (outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(restC0 c (iprop(owns (c : Thread nD τ) scM1_0 fullShare (outsAt1 V c n hn).2.1
      ∗ owns (c : Thread nD τ) scM1_1 fullShare (outsAt1 V c n hn).2.2.1
      ∗ owns (c : Thread nD τ) scM1_2 fullShare (outsAt1 V c n hn).2.2.2)) ∗ (∃ r, prngReg c r)) := rfl

theorem PhiS1_pos (c : Dev nD) (n : ℕ) (h : n ≤ cfg1.N) (hz : n ≠ 0) :
    PhiS1 V c n h = iprop(restC0 c (iprop(owns (c : Thread nD τ) scM1_0 fullShare (outsAt1 V c (n - 1) (by omega)).2.1
      ∗ owns (c : Thread nD τ) scM1_1 fullShare (outsAt1 V c (n - 1) (by omega)).2.2.1
      ∗ owns (c : Thread nD τ) scM1_2 fullShare (outsAt1 V c (n - 1) (by omega)).2.2.2)) ∗ (∃ r, prngReg c r)) := by
  cases n with
  | zero => exact absurd rfl hz
  | succ n => rfl

/-- At any point the invariant gives back the class's: the scratches' named contents are forgotten. -/
theorem PhiS1_any (c : Dev nD) (n : ℕ) (h : n ≤ cfg1.N) : PhiS1 V c n h ⊢ Pipeline.ΦA spec1 c := by
  cases n with
  | zero => exact Idealize.SL.BI.Entails.refl _
  | succ n =>
    rw [PhiS1_succ, PhiA1_eq]; unfold restC0
    iintro ⟨⟨R1, R2, R3, R4, R5, R6, R7, R8, R9, HS0, HS1, HS2⟩, Hg⟩
    isplitr [Hg]
    swap; · iexact Hg
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [HS0]; · iexists _; iexact HS0
    isplitl [HS1]; · iexists _; iexact HS1
    iexists _; iexact HS2

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
/-- The body at any point: the inputs' memrefs hold their blocks; the parity of the point says which case it is in; the
    invariant hands the body the scratches (at anything at an even point, at what the point before left at an odd one)
    and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 32 := lt_of_lt_of_eq t.isLt (show cfg1.N = 32 from N_1)
  by_cases h0 : t.val % 2 = 0
  · rw [Dat.leavesExact_idle (dat1 V c) 3 t (idleAt1_3_A t (hcA0 t h0) (hcA1 t h0)) (noFlush1_3_A t (hcA0 t h0) (hcA1 t h0))]
    rw [outsAt1_A V c t h0]
    unfold caseA sout1_A_0 sout1_A_1 sout1_A_2; (try dsimp only)
    refine (sep_mono (PhiS1_any V c _ _) .rfl).trans ?_
    rw [PhiA1_eq]; unfold restC0
    iintro ⟨⟨⟨R1, R2, R3, R4, R5, R6, R7, R8, R9, HS0, HS1, HS2⟩, Hg⟩, Ho, ⟨%d0, H0⟩, ⟨%d1, H1⟩, ⟨%d2, H2⟩, ⟨%d3, H3⟩⟩
    iapply ((kernelRun1_A c (grid1.coords t) _ _ _ _ _ _ _ _ _ _ _ _ _ _ (hcA0 t h0) (hcA1 t h0) (iblk1 V c 0 t) (iblk1 V c 1 t) (iblk1 V c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    isplitl [R1 R2 R3 R4 R5 R6 R7 R8 R9 HS0 HS1 HS2 Hg]
    · isplitr [Hg]
      swap; · iexact Hg
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [HS0]
      · unfold owns; iexists _; isplitr
        swap; · iexact HS0
        ipureintro; exact View.read_writes_of_cover _ _ _ _ _ (scover1_A_0 c _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _)
      unfold owns; iexists _; isplitr
      swap; · iexact HS2
      ipureintro; exact View.read_writes_of_cover _ _ _ _ _ (scover1_A_2 c _ _ _ _ _ _ _ _ _ _ _ _ _ _ _ _ _ _ _ _)
    isplitl [Ho]; · iexact Ho
    isplitl [H0]; · iexact H0
    isplitl [H1]; · iexact H1
    isplitl [H2]; · iexact H2
    iexists _; iexact H3
  · have h1 : t.val % 2 = 1 := by omega
    have hz : t.val ≠ 0 := by omega
    rw [show (dat1 V c).leavesExact 3 t = owns (c : Thread nD τ) (ms1_3 t) fullShare ((dat1 V c).after 3 t) from by
      unfold Dat.leavesExact; rw [liveAt1_3_B t (hcB0 t h1) (hcB1 t h1)], after1_3]
    rw [outsAt1_B V c t h1]
    unfold caseB out1_B_3 sout1_B_0 sout1_B_1 sout1_B_2; (try dsimp only)
    rw [PhiS1_castSucc V c t, PhiS1_pos V c _ _ hz]; unfold restC0
    iintro ⟨⟨⟨R1, R2, R3, R4, R5, R6, R7, R8, R9, HS0, HS1, HS2⟩, Hg⟩, Ho, ⟨%d0, H0⟩, ⟨%d1, H1⟩, ⟨%d2, H2⟩, ⟨%d3, H3⟩⟩
    iapply ((kernelRun1_B c (grid1.coords t) _ _ _ _ _ _ _ _ _ _ _ _ _ _ (hcB0 t h1) (hcB1 t h1) (iblk1 V c 0 t) (iblk1 V c 1 t) (iblk1 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [R1 R2 R3 R4 R5 R6 R7 R8 R9 HS0 HS1 HS2 Hg]
    · isplitr [Hg]
      swap; · iexact Hg
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [HS0]
      · unfold owns; iexists _; isplitr
        swap; · iexact HS0
        ipureintro; exact View.read_writes_of_cover _ _ _ _ _ (scover1_B_0 c _ _ _ _ _ _ _ _ _ _ _ _ _ _ _ _ _ _ _ _ _ _ _)
      isplitl [HS1]
      · unfold owns; iexists _; isplitr
        swap; · iexact HS1
        ipureintro; exact View.read_writes_of_cover _ _ _ _ _ (scover1_B_1 c _ _ _ _ _ _ _ _ _ _ _ _ _ _ _ _ _ _ _ _ _ _ _)
      unfold owns; iexists _; isplitr
      swap; · iexact HS2
      ipureintro; exact View.read_writes_of_cover _ _ _ _ _ (scover1_B_2 c _ _ _ _ _ _ _ _ _ _ _ _ _ _ _ _ _ _ _ _ _ _ _)
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last point the invariant gives it back. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  exact PhiS1_any V c _ _

end Cert.Kernel.Hand

end
-- ==== Proof.FrameB.Launch.lean ====
/-
  The run of the whole program: a stretch of four host operations (the scale constant, its broadcast, the scaled query
  weights, the three weight matrices stacked), then region 0 (the projections), then region 1 (attention).
  The buffer contents at each boundary are a fold from the launch memory: after the host stretch; after region 0, its
  three output arrays at what its write-backs leave; after region 1, the result array at what ITS write-backs leave.
  Every final state has the result array and the four arguments at that last valuation.
-/
import proofs.«402268_j81295140979317_3_alg».proof.Proof.FrameB.Reg0
import proofs.«402268_j81295140979317_3_alg».proof.Proof.FrameB.Reg1
import proofs.«402268_j81295140979317_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => m (c, b)
/-- After the host stretch (region 0's entry). -/
abbrev W1 : Dev nD → Valuation τ sig (Elt F) := fun c => StableHlo.after hostOps0 (W0 m c)
/-- The same read at the TensorCore's references. -/
abbrev VA : (c : Dev nD) → (b : Ref sig .tc) → Buf (Elt F) ((c : Thread nD τ).loc b) := fun c b => W1 m c b
/-- At region 0's exit (region 1's entry): its arrays at what the pipeline leaves, every other buffer as entered. -/
def W2 (c : Dev nD) : Valuation τ sig (Elt F) :=
  Pipeline.withArrays spec0 c (W1 m c) fun w => (dat0 (VA m) c).arrAt w cfg0.N
theorem W2_arr (c : Dev nD) (w : Fin cfg0.W) :
    W2 m c (Proc.devRef .tc (Pipeline.arrRef spec0 w)) = (dat0 (VA m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VB : (c : Dev nD) → (b : Ref sig .tc) → Buf (Elt F) ((c : Thread nD τ).loc b) := fun c b => W2 m c b
theorem hF0 (c : Dev nD) (w : Fin cfg0.W) : (dat0 (VA m) c).arrAt w cfg0.N = VB m c (Pipeline.arrRef spec0 w) :=
  (W2_arr m c w).symm
theorem hrest0 (c : Dev nD) : ∀ b, b ∉ Finset.univ.image (Pipeline.arrRef spec0) → VB m c b = VA m c b :=
  fun b hb => W2_of_ne m c b fun w e => hb (Finset.mem_image.mpr ⟨w, Finset.mem_univ _, e⟩)

/-- At region 1's exit: the result array at what the pipeline leaves, every other buffer as entered. -/
def W3 (c : Dev nD) : Valuation τ sig (Elt F) :=
  Pipeline.withArrays spec1 c (W2 m c) fun w => (dat1 (VB m) c).arrAt w cfg1.N
theorem W3_arr (c : Dev nD) (w : Fin cfg1.W) :
    W3 m c (Proc.devRef .tc (Pipeline.arrRef spec1 w)) = (dat1 (VB m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VC : (c : Dev nD) → (b : Ref sig .tc) → Buf (Elt F) ((c : Thread nD τ).loc b) := fun c b => W3 m c b
theorem hF1 (c : Dev nD) (w : Fin cfg1.W) : (dat1 (VB m) c).arrAt w cfg1.N = VC m c (Pipeline.arrRef spec1 w) :=
  (W3_arr m c w).symm
theorem hrest1 (c : Dev nD) : ∀ b, b ∉ Finset.univ.image (Pipeline.arrRef spec1) → VC m c b = VB m c b :=
  fun b hb => W3_of_ne m c b fun w e => hb (Finset.mem_image.mpr ⟨w, Finset.mem_univ _, e⟩)

/-! ### The arguments end as launched: the host stretch writes none, no region writes one -/

theorem W1_of (c : Dev nD) (r : Ref sig .tc) (h : r ∉ hostOps0_W) : W1 m c (Proc.devRef .tc r) = m ((c : Thread nD τ).loc r) :=
  V1_of m c r h

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (VA m) c).arrAt_in 0 rfl _).trans (A_eq0 (VA m) c 0))
    _ = m ((c : Thread nD τ).loc main_arg0) := W1_of m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = m ((c : Thread nD τ).loc main_arg1) := W1_of m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_of m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_of m c main_arg3 (by decide)
/-- The result array ends at what region 1's write-backs leave. -/
theorem W3_main_v4 (c : Dev nD) : W3 m c (Proc.devRef .tc main_v4) = (dat1 (VB m) c).arrAt 3 cfg1.N := W3_arr m c 3

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's owes, at
    nothing. -/
abbrev R (c : Dev nD) : sProp 𝕄 := iprop((∃ r, prngReg c r) ∗ ∃ W, owes (c : Thread nD τ) (0 : CellTallies nD τ sig Unit) W)
/-- The host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W3; the generator register and
    the scoped rest go into the region's invariant as the class's and come back as the class's (the scratches' named
    contents forgotten at the end). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (VB m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segsH m) := (main_chain c).trans (by chain_rfl)

set_option backward.isDefEq.respectTransparency.types false in
/-- THE RUN: from any memory with zero counters every weakly fair execution of @main terminates, nothing faulting,
    and every final state has the result array at the last valuation and the four argument arrays as launched. -/
theorem run_main : θ_run defs (onTc (τ := τ) (main (F := F))) ⟨m, fun _ => 0, ρ⟩ (fun r => ∀ c : Dev nD,
      r.2.mem ((c.tc : Thread nD τ).loc main_v4) = W3 m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨h c _ (mem_uc main_v4 (by decide)),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c)⟩)

/-- The frame claim's post: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.Kernel.Hand

end
-- ==== Proof.FrameI.Reg0.lean ====
/-
  Region 0 — the fused projection — at the contents V its arrays hold when the region is entered.
  At grid point t = (b, s) the body reads the x block (rows s·2048 … of batch b, all 512 features) and the whole
  192×512 weight matrix, contracts the features, and stores columns 0–63, 64–127 and 128–191 of the product into the
  point's blocks of the three projected arrays. Each output's staging buffer after the body is therefore the one
  stored rectangle's payload over the two input blocks; the inputs are left as found.
-/
import proofs.«402268_j81295140979317_3_alg».proof.Proof.Gen.KernelIdeal.Launch
import proofs.«402268_j81295140979317_3_alg».proof.Proof.Gen.KernelIdeal.Skeleton
import proofs.«402268_j81295140979317_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's rectangles: each access is of a whole buffer -/

abbrev r0_x : Rect S1x2048x512 := Rect.unit (s := S1x2048x512) ![0, 0, 0] S1x2048x512.size inb_S1x2048x512_S1x2048x512_0_0_0
abbrev r0_w : Rect S192x512 := Rect.unit (s := S192x512) ![0, 0] S192x512.size inb_S192x512_S192x512_0_0
abbrev r0_o : Rect S1x2048x64 := Rect.unit (s := S1x2048x64) ![0, 0, 0] S1x2048x64.size inb_S1x2048x64_S1x2048x64_0_0_0

/-! ## What the body leaves in each output window's buffer -/

/-- Columns 0–63 of the product (the scaled queries), -/
def out0_2 (x0 : Vec F S1x2048x512 .f32) (x1 : Vec F S192x512 .f32) : Vec F S1x2048x64 .bf16 :=
  View.canon [⟨r0_o, k0_pay2 (View.ld x0 r0_x) (View.ld x1 r0_w)⟩]
/-- columns 64–127 (the keys), -/
def out0_3 (x0 : Vec F S1x2048x512 .f32) (x1 : Vec F S192x512 .f32) : Vec F S1x2048x64 .bf16 :=
  View.canon [⟨r0_o, k0_pay3 (View.ld x0 r0_x) (View.ld x1 r0_w)⟩]
/-- columns 128–191 (the values). -/
def out0_4 (x0 : Vec F S1x2048x512 .f32) (x1 : Vec F S192x512 .f32) : Vec F S1x2048x64 .bf16 :=
  View.canon [⟨r0_o, k0_pay4 (View.ld x0 r0_x) (View.ld x1 r0_w)⟩]

/-- One whole-buffer store covers the buffer. -/
theorem cover0_o (p0 : Vec F S1x2048x64 .bf16) (y : S1x2048x64.Idx) :
    ∃ pc ∈ ([⟨r0_o, p0⟩] : List (View.Piece (Elt F) S1x2048x64 .bf16)), y ∈ pc.1.set :=
  View.cover_of_tiled [⟨r0_o, p0⟩] S1x2048x64.size (by rfl) y

/-! ## The body's triple -/

set_option maxHeartbeats 4000000 in
/-- On whole staging memrefs, the inputs' at contents x0, x1 and the outputs' at anything, the body runs to the
    continuation holding the inputs' as they were and each output's at its stored payload. -/
theorem sound_kernel0 (c : Dev nD) (E : Set ℕ) (i : grid0.Coords)
    (arg2 : Memref sig .tc .vmem S1x2048x512 .f32) (harg2 : arg2.IsWhole) (arg3 : Memref sig .tc .vmem S192x512 .f32) (harg3 : arg3.IsWhole)
    (arg4 : Memref sig .tc .vmem S1x2048x64 .bf16) (harg4 : arg4.IsWhole) (arg5 : Memref sig .tc .vmem S1x2048x64 .bf16) (harg5 : arg5.IsWhole)
    (arg6 : Memref sig .tc .vmem S1x2048x64 .bf16) (harg6 : arg6.IsWhole)
    (x0 : Vec F S1x2048x512 .f32) (x1 : Vec F S192x512 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__proj_kernel i arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_o _)
  isplitl [H3]
  · iexists _; isplitr
    swap; · iexact H3
    ipureintro
    exact View.read_writes_eq_canon _ _ _ (cover0_o _)
  iexists _; isplitr
  swap; · iexact H4
  ipureintro
  exact View.read_writes_eq_canon _ _ _ (cover0_o _)

/-! ## The pipeline's proof data -/

/-- Pipeline 0's proof data on core c: the arrays as the region finds them; after the body at point t each input's
    buffer at its block and each output's at its payload over the two input blocks; the class's invariant (the scoped
    rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and the
    core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FrameI.Reg1a.lean ====
/-
  Region 1 — attention over key tiles — what its two control cases share, at the contents V its arrays hold when the
  region is entered. Grid point t = (b, qi, kv): the body resets the running maximum, sum and numerator when kv = 0
  (the even points), folds one tile of 2048 keys into them at every point, and at kv = 1 (the odd points) divides the
  numerator by the sum into the output block, which is idle — untouched and not written back — at the even points.
-/
import proofs.«402268_j81295140979317_3_alg».proof.Proof.Gen.KernelIdeal.Launch
import proofs.«402268_j81295140979317_3_alg».proof.Proof.Gen.KernelIdeal.Skeleton
import proofs.«402268_j81295140979317_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the query block is
    fetched at the even points only: its index does not move with kv). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, in closed form over the grid -/

/-- "kv = 0": the reset branch's condition, as the body's scalar chain computes it. -/
abbrev cond1_0 (i : grid1.Coords) : Prop := (Scalar.cmpi .ne (Scalar.extui (Scalar.cmpi .eq (BitVec.ofNat 32 (i 2).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)
/-- "kv = 1": the closing branch's condition. -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the even points the output window is idle and is not written back; at the odd points it is live. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem liveAt1_3_B : ∀ t : Fin cfg1.N, ¬cond1_0 (grid1.coords t) → cond1_1 (grid1.coords t) → cfg1.idle 3 (grid1.coords t) = false := by decide +kernel

/-! ## The memrefs the body is called with -/

abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .f32 := win1_3.stage (cfg1.slots t 3)
abbrev hs1_3 (t : Fin cfg1.N) : (ms1_3 t).IsWhole := hstage1_3 ((cfg1.slots t 3).cast nbuf1_3)
/-- The three scratch operands: the running maximum, the running sum, the running numerator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2
/-- Views through which the output block's and the scratches' contents are stated. -/
abbrev VO1_3 : View sig .tc .vmem S1x1024x64 .f32 := (Memref.whole cc1_stg3_0 : Memref sig .tc .vmem S1x1024x64 .f32).view
abbrev VS1_0 : View sig .tc .vmem S1024x1 .f32 := scM1_0.view
abbrev VS1_1 : View sig .tc .vmem S1024x1 .f32 := scM1_1.view
abbrev VS1_2 : View sig .tc .vmem S1024x64 .f32 := scM1_2.view

/-! ## The region's invariant: the scoped buffers no window of this region stages -/

/-- Region 0's nine staging buffers, each whole at some contents, beside T. -/
def restC0 (c : Dev nD) (T : sProp 𝕄) : sProp 𝕄 :=
  iprop((∃ d, owns (c : Thread nD τ) (Memref.whole cc0_stg0_0 : Memref sig .tc .vmem S1x2048x512 .f32) fullShare d)
    ∗ (∃ d, owns (c : Thread nD τ) (Memref.whole cc0_stg0_1 : Memref sig .tc .vmem S1x2048x512 .f32) fullShare d)
    ∗ (∃ d, owns (c : Thread nD τ) (Memref.whole cc0_stg1_0 : Memref sig .tc .vmem S192x512 .f32) fullShare d)
    ∗ (∃ d, owns (c : Thread nD τ) (Memref.whole cc0_stg2_0 : Memref sig .tc .vmem S1x2048x64 .bf16) fullShare d)
    ∗ (∃ d, owns (c : Thread nD τ) (Memref.whole cc0_stg2_1 : Memref sig .tc .vmem S1x2048x64 .bf16) fullShare d)
    ∗ (∃ d, owns (c : Thread nD τ) (Memref.whole cc0_stg3_0 : Memref sig .tc .vmem S1x2048x64 .bf16) fullShare d)
    ∗ (∃ d, owns (c : Thread nD τ) (Memref.whole cc0_stg3_1 : Memref sig .tc .vmem S1x2048x64 .bf16) fullShare d)
    ∗ (∃ d, owns (c : Thread nD τ) (Memref.whole cc0_stg4_0 : Memref sig .tc .vmem S1x2048x64 .bf16) fullShare d)
    ∗ (∃ d, owns (c : Thread nD τ) (Memref.whole cc0_stg4_1 : Memref sig .tc .vmem S1x2048x64 .bf16) fullShare d)
    ∗ T)

/-- The class's invariant with the scratch operands as memrefs owned at some contents: what the body obligation hands
    the body at the first point and takes back at the end. -/
theorem PhiA1_eq (c : Dev nD) :
    (Pipeline.ΦA spec1 c : sProp 𝕄)
      = iprop(restC0 c (iprop((∃ d, owns (c : Thread nD τ) scM1_0 fullShare d) ∗ (∃ d, owns (c : Thread nD τ) scM1_1 fullShare d)
          ∗ (∃ d, owns (c : Thread nD τ) scM1_2 fullShare d))) ∗ (∃ r, prngReg c r)) := by
  unfold Pipeline.ΦA restC0; rw [scopedRest1_eq]; simp only [scM1_0, scM1_1, scM1_2, owns_whole]; try rfl

end Cert.KernelIdeal.Hand

end
-- ==== Proof.FrameI.Run1A.lean ====
/-
  Region 1's body at an EVEN point (kv = 0): the three scratches are reset (−∞, 0, 0), one tile of keys is folded in,
  and the output block is left untouched. The pieces each scratch ends with are whatever the symbolic run finds.
-/
import proofs.«402268_j81295140979317_3_alg».proof.Proof.FrameI.Reg1a

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- What the body's stores leave in each scratch, as pieces (last first), at an even point, WITH the proof that on whole
    memrefs — the three inputs' at their contents, the output's at contents handed back untouched, the scratches' at
    anything — the body runs to the continuation holding the inputs' and the output's as they were and each scratch with
    its pieces written. -/
noncomputable def kernelRun1_A (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x2048x64 .bf16) (x2 : Vec F S1x2048x64 .bf16) :
    Σ' (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.FrameI.Run1B.lean ====
/-
  Region 1's body at an ODD point (kv = 1): no reset; the second tile of keys is folded into the running maximum, sum
  and numerator the even point before it left, and the numerator over the sum is stored into the output block.
-/
import proofs.«402268_j81295140979317_3_alg».proof.Proof.FrameI.Run1A

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- What the body's stores leave in the output block and in each scratch, as pieces (last first), at an odd point, WITH
    the proof that on whole memrefs — the inputs' at their contents, the output's at anything, the scratches' at the
    contents xs0, xs1, xs2 the point before left — the body runs to the continuation holding the inputs' as they were
    and the output's and each scratch's with its pieces written. -/
noncomputable def kernelRun1_B (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x2048x64 .bf16) (x2 : Vec F S1x2048x64 .bf16)
    (xs0 : Vec F S1024x1 .f32) (xs1 : Vec F S1024x1 .f32) (xs2 : Vec F S1024x64 .f32) :
    Σ' (L3 : List (View.Piece (Elt F) S1x1024x64 .f32)) (LS0 : List (View.Piece (Elt F) S1024x1 .f32)) (LS1 : List (View.Piece (Elt F) S1024x1 .f32)), { LS2 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.FrameI.Reg1.lean ====
/-
  Region 1 — attention over key tiles: what the output block and the three scratches (running maximum, running sum,
  running numerator) hold after each grid point, the region's invariant carrying the scratches from point to point,
  the proof data and the body obligation.
  After an even point (kv = 0) the scratches hold the first tile folded into (−∞, 0, 0); after the odd point that
  follows they hold the second tile folded into those, and the output block holds numerator over sum.
-/
import proofs.«402268_j81295140979317_3_alg».proof.Proof.FrameI.Run1B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves: the run's pieces read back -/

/-- The idle output block at an even point: a placeholder nothing consults (the block is neither written back there
    nor read at the next point). -/
def out1_A_3 : Vec F S1x1024x64 .f32 := VO1_3.read (Elt F) VO1_3.junk

def sout1_A_0 (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x2048x64 .bf16) (x2 : Vec F S1x2048x64 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).1)
def sout1_A_1 (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x2048x64 .bf16) (x2 : Vec F S1x2048x64 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.1)
def sout1_A_2 (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x2048x64 .bf16) (x2 : Vec F S1x2048x64 .bf16) : Vec F S1024x64 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.1)

/-- Each scratch's pieces at an even point tile it, so they cover it. -/
theorem scover1_A_0 (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x2048x64 .bf16) (x2 : Vec F S1x2048x64 .bf16) (y : S1024x1.Idx) :
    ∃ pc ∈ (kernelRun1_A c i arg3 harg3 arg4 harg4 arg5 harg5 arg6 harg6 arg7 harg7 arg8 harg8 arg9 harg9 hc0 hc1 x0 x1 x2).1, y ∈ pc.1.set :=
  View.cover_of_tiledL (kernelRun1_A c i arg3 harg3 arg4 harg4 arg5 harg5 arg6 harg6 arg7 harg7 arg8 harg8 arg9 harg9 hc0 hc1 x0 x1 x2).1 S1024x1.size (by sl_kernel_rfl) y
theorem scover1_A_1 (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x2048x64 .bf16) (x2 : Vec F S1x2048x64 .bf16) (y : S1024x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1024x1.size (by sl_kernel_rfl) y
theorem scover1_A_2 (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x2048x64 .bf16) (x2 : Vec F S1x2048x64 .bf16) (y : S1024x64.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1024x64.size (by sl_kernel_rfl) y

def out1_B_3 (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x2048x64 .bf16) (x2 : Vec F S1x2048x64 .bf16)
    (xs0 : Vec F S1024x1 .f32) (xs1 : Vec F S1024x1 .f32) (xs2 : Vec F S1024x64 .f32) : Vec F S1x1024x64 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)
def sout1_B_0 (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x2048x64 .bf16) (x2 : Vec F S1x2048x64 .bf16)
    (xs0 : Vec F S1024x1 .f32) (xs1 : Vec F S1024x1 .f32) (xs2 : Vec F S1024x64 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)
def sout1_B_1 (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x2048x64 .bf16) (x2 : Vec F S1x2048x64 .bf16)
    (xs0 : Vec F S1024x1 .f32) (xs1 : Vec F S1024x1 .f32) (xs2 : Vec F S1024x64 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)
def sout1_B_2 (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x2048x64 .bf16) (x2 : Vec F S1x2048x64 .bf16)
    (xs0 : Vec F S1024x1 .f32) (xs1 : Vec F S1024x1 .f32) (xs2 : Vec F S1024x64 .f32) : Vec F S1024x64 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

theorem cover1_B_3 (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x2048x64 .bf16) (x2 : Vec F S1x2048x64 .bf16)
    (xs0 : Vec F S1024x1 .f32) (xs1 : Vec F S1024x1 .f32) (xs2 : Vec F S1024x64 .f32) (y : S1x1024x64.Idx) :
    ∃ pc ∈ (kernelRun1_B c i arg3 harg3 arg4 harg4 arg5 harg5 arg6 harg6 arg7 harg7 arg8 harg8 arg9 harg9 hc0 hc1 x0 x1 x2 xs0 xs1 xs2).1, y ∈ pc.1.set :=
  View.cover_of_tiledL (kernelRun1_B c i arg3 harg3 arg4 harg4 arg5 harg5 arg6 harg6 arg7 harg7 arg8 harg8 arg9 harg9 hc0 hc1 x0 x1 x2 xs0 xs1 xs2).1 S1x1024x64.size (by sl_kernel_rfl) y
theorem scover1_B_0 (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x2048x64 .bf16) (x2 : Vec F S1x2048x64 .bf16)
    (xs0 : Vec F S1024x1 .f32) (xs1 : Vec F S1024x1 .f32) (xs2 : Vec F S1024x64 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1024x1.size (by sl_kernel_rfl) y
theorem scover1_B_1 (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x2048x64 .bf16) (x2 : Vec F S1x2048x64 .bf16)
    (xs0 : Vec F S1024x1 .f32) (xs1 : Vec F S1024x1 .f32) (xs2 : Vec F S1024x64 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1024x1.size (by sl_kernel_rfl) y
theorem scover1_B_2 (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x2048x64 .bf16) (x2 : Vec F S1x2048x64 .bf16)
    (xs0 : Vec F S1024x1 .f32) (xs1 : Vec F S1024x1 .f32) (xs2 : Vec F S1024x64 .f32) (y : S1024x64.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1024x64.size (by sl_kernel_rfl) y

/-! ## What the output block and the scratches hold after each point -/

/-- The four contents after a point: the output block, then the running maximum, sum and numerator. -/
abbrev Outs1 (F : FTy → Type) [FloatOps F] : Type := Vec F S1x1024x64 .f32 × Vec F S1024x1 .f32 × Vec F S1024x1 .f32 × Vec F S1024x64 .f32

theorem hcA0 (t : Fin cfg1.N) (h0 : t.val % 2 = 0) : cond1_0 (grid1.coords t) := (hcond1_0 t).mpr h0
theorem hcA1 (t : Fin cfg1.N) (h0 : t.val % 2 = 0) : ¬cond1_1 (grid1.coords t) := fun h => by have := (hcond1_1 t).mp h; omega
theorem hcB0 (t : Fin cfg1.N) (h1 : t.val % 2 = 1) : ¬cond1_0 (grid1.coords t) := fun h => by have := (hcond1_0 t).mp h; omega
theorem hcB1 (t : Fin cfg1.N) (h1 : t.val % 2 = 1) : cond1_1 (grid1.coords t) := (hcond1_1 t).mpr h1

/-- An even point: the reset case at the point's memrefs and input blocks. -/
def caseA (c : Dev nD) (t : Fin cfg1.N) (h0 : t.val % 2 = 0) : Outs1 F :=
  (out1_A_3,
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcA0 t h0) (hcA1 t h0) (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcA0 t h0) (hcA1 t h0) (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcA0 t h0) (hcA1 t h0) (iblk1 V c 0 t) (iblk1 V c 1 t) (iblk1 V c 2 t))

/-- An odd point: the closing case over the scratches the point before left. -/
def caseB (c : Dev nD) (t : Fin cfg1.N) (h1 : t.val % 2 = 1) (xs0 : Vec F S1024x1 .f32) (xs1 : Vec F S1024x1 .f32) (xs2 : Vec F S1024x64 .f32) : Outs1 F :=
  (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcB0 t h1) (hcB1 t h1) (iblk1 V c 0 t) (iblk1 V c 1 t) (iblk1 V c 2 t) xs0 xs1 xs2,
   sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcB0 t h1) (hcB1 t h1) (iblk1 V c 0 t) (iblk1 V c 1 t) (iblk1 V c 2 t) xs0 xs1 xs2,
   sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcB0 t h1) (hcB1 t h1) (iblk1 V c 0 t) (iblk1 V c 1 t) (iblk1 V c 2 t) xs0 xs1 xs2,
   sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcB0 t h1) (hcB1 t h1) (iblk1 V c 0 t) (iblk1 V c 1 t) (iblk1 V c 2 t) xs0 xs1 xs2)

/-- THE ACCUMULATION: by recursion on the point — an even point resets, an odd point folds into what the point before
    left. -/
def outsAt1 (c : Dev nD) : (n : ℕ) → n < cfg1.N → Outs1 F
  | 0, hn => caseA V c ⟨0, hn⟩ (Nat.zero_mod 2)
  | n + 1, hn =>
    if h0 : (n + 1) % 2 = 0 then caseA V c ⟨n + 1, hn⟩ h0
    else caseB V c ⟨n + 1, hn⟩ (by dsimp only; omega) (outsAt1 c n (Nat.lt_of_succ_lt hn)).2.1 (outsAt1 c n (Nat.lt_of_succ_lt hn)).2.2.1 (outsAt1 c n (Nat.lt_of_succ_lt hn)).2.2.2

theorem outsAt1_A (c : Dev nD) (t : Fin cfg1.N) (h0 : t.val % 2 = 0) : outsAt1 V c t.val t.isLt = caseA V c t h0 := by
  obtain ⟨n, hn⟩ := t
  cases n with
  | zero => rfl
  | succ n => exact dif_pos h0

theorem outsAt1_B (c : Dev nD) (t : Fin cfg1.N) (h1 : t.val % 2 = 1) :
    outsAt1 V c t.val t.isLt = caseB V c t h1 (outsAt1 V c (t.val - 1) (Nat.lt_of_le_of_lt (Nat.sub_le _ _) t.isLt)).2.1
      (outsAt1 V c (t.val - 1) (Nat.lt_of_le_of_lt (Nat.sub_le _ _) t.isLt)).2.2.1
      (outsAt1 V c (t.val - 1) (Nat.lt_of_le_of_lt (Nat.sub_le _ _) t.isLt)).2.2.2 := by
  obtain ⟨n, hn⟩ := t
  cases n with
  | zero => exfalso; dsimp only at h1; omega
  | succ n => exact dif_neg (by dsimp only at h1 ⊢; omega)

/-! ## The region's invariant -/

/-- Before the first point the class's invariant (every scratch at anything); afterwards the scoped rest with each
    scratch at what the point before left in it, and the generator register at some state. -/
def PhiS1 (c : Dev nD) : (n : ℕ) → n ≤ cfg1.N → sProp 𝕄
  | 0, _ => Pipeline.ΦA spec1 c
  | n + 1, hn => iprop(restC0 c (iprop(owns (c : Thread nD τ) scM1_0 fullShare (outsAt1 V c n hn).2.1
      ∗ owns (c : Thread nD τ) scM1_1 fullShare (outsAt1 V c n hn).2.2.1
      ∗ owns (c : Thread nD τ) scM1_2 fullShare (outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(restC0 c (iprop(owns (c : Thread nD τ) scM1_0 fullShare (outsAt1 V c n hn).2.1
      ∗ owns (c : Thread nD τ) scM1_1 fullShare (outsAt1 V c n hn).2.2.1
      ∗ owns (c : Thread nD τ) scM1_2 fullShare (outsAt1 V c n hn).2.2.2)) ∗ (∃ r, prngReg c r)) := rfl

theorem PhiS1_pos (c : Dev nD) (n : ℕ) (h : n ≤ cfg1.N) (hz : n ≠ 0) :
    PhiS1 V c n h = iprop(restC0 c (iprop(owns (c : Thread nD τ) scM1_0 fullShare (outsAt1 V c (n - 1) (by omega)).2.1
      ∗ owns (c : Thread nD τ) scM1_1 fullShare (outsAt1 V c (n - 1) (by omega)).2.2.1
      ∗ owns (c : Thread nD τ) scM1_2 fullShare (outsAt1 V c (n - 1) (by omega)).2.2.2)) ∗ (∃ r, prngReg c r)) := by
  cases n with
  | zero => exact absurd rfl hz
  | succ n => rfl

/-- At any point the invariant gives back the class's: the scratches' named contents are forgotten. -/
theorem PhiS1_any (c : Dev nD) (n : ℕ) (h : n ≤ cfg1.N) : PhiS1 V c n h ⊢ Pipeline.ΦA spec1 c := by
  cases n with
  | zero => exact Idealize.SL.BI.Entails.refl _
  | succ n =>
    rw [PhiS1_succ, PhiA1_eq]; unfold restC0
    iintro ⟨⟨R1, R2, R3, R4, R5, R6, R7, R8, R9, HS0, HS1, HS2⟩, Hg⟩
    isplitr [Hg]
    swap; · iexact Hg
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [HS0]; · iexists _; iexact HS0
    isplitl [HS1]; · iexists _; iexact HS1
    iexists _; iexact HS2

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
/-- The body at any point: the inputs' memrefs hold their blocks; the parity of the point says which case it is in; the
    invariant hands the body the scratches (at anything at an even point, at what the point before left at an odd one)
    and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 32 := lt_of_lt_of_eq t.isLt (show cfg1.N = 32 from N_1)
  by_cases h0 : t.val % 2 = 0
  · rw [Dat.leavesExact_idle (dat1 V c) 3 t (idleAt1_3_A t (hcA0 t h0) (hcA1 t h0)) (noFlush1_3_A t (hcA0 t h0) (hcA1 t h0))]
    rw [outsAt1_A V c t h0]
    unfold caseA sout1_A_0 sout1_A_1 sout1_A_2; (try dsimp only)
    refine (sep_mono (PhiS1_any V c _ _) .rfl).trans ?_
    rw [PhiA1_eq]; unfold restC0
    iintro ⟨⟨⟨R1, R2, R3, R4, R5, R6, R7, R8, R9, HS0, HS1, HS2⟩, Hg⟩, Ho, ⟨%d0, H0⟩, ⟨%d1, H1⟩, ⟨%d2, H2⟩, ⟨%d3, H3⟩⟩
    iapply ((kernelRun1_A c (grid1.coords t) _ _ _ _ _ _ _ _ _ _ _ _ _ _ (hcA0 t h0) (hcA1 t h0) (iblk1 V c 0 t) (iblk1 V c 1 t) (iblk1 V c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    isplitl [R1 R2 R3 R4 R5 R6 R7 R8 R9 HS0 HS1 HS2 Hg]
    · isplitr [Hg]
      swap; · iexact Hg
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [HS0]
      · unfold owns; iexists _; isplitr
        swap; · iexact HS0
        ipureintro; exact View.read_writes_of_cover _ _ _ _ _ (scover1_A_0 c _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _)
      unfold owns; iexists _; isplitr
      swap; · iexact HS2
      ipureintro; exact View.read_writes_of_cover _ _ _ _ _ (scover1_A_2 c _ _ _ _ _ _ _ _ _ _ _ _ _ _ _ _ _ _ _ _)
    isplitl [Ho]; · iexact Ho
    isplitl [H0]; · iexact H0
    isplitl [H1]; · iexact H1
    isplitl [H2]; · iexact H2
    iexists _; iexact H3
  · have h1 : t.val % 2 = 1 := by omega
    have hz : t.val ≠ 0 := by omega
    rw [show (dat1 V c).leavesExact 3 t = owns (c : Thread nD τ) (ms1_3 t) fullShare ((dat1 V c).after 3 t) from by
      unfold Dat.leavesExact; rw [liveAt1_3_B t (hcB0 t h1) (hcB1 t h1)], after1_3]
    rw [outsAt1_B V c t h1]
    unfold caseB out1_B_3 sout1_B_0 sout1_B_1 sout1_B_2; (try dsimp only)
    rw [PhiS1_castSucc V c t, PhiS1_pos V c _ _ hz]; unfold restC0
    iintro ⟨⟨⟨R1, R2, R3, R4, R5, R6, R7, R8, R9, HS0, HS1, HS2⟩, Hg⟩, Ho, ⟨%d0, H0⟩, ⟨%d1, H1⟩, ⟨%d2, H2⟩, ⟨%d3, H3⟩⟩
    iapply ((kernelRun1_B c (grid1.coords t) _ _ _ _ _ _ _ _ _ _ _ _ _ _ (hcB0 t h1) (hcB1 t h1) (iblk1 V c 0 t) (iblk1 V c 1 t) (iblk1 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [R1 R2 R3 R4 R5 R6 R7 R8 R9 HS0 HS1 HS2 Hg]
    · isplitr [Hg]
      swap; · iexact Hg
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [HS0]
      · unfold owns; iexists _; isplitr
        swap; · iexact HS0
        ipureintro; exact View.read_writes_of_cover _ _ _ _ _ (scover1_B_0 c _ _ _ _ _ _ _ _ _ _ _ _ _ _ _ _ _ _ _ _ _ _ _)
      isplitl [HS1]
      · unfold owns; iexists _; isplitr
        swap; · iexact HS1
        ipureintro; exact View.read_writes_of_cover _ _ _ _ _ (scover1_B_1 c _ _ _ _ _ _ _ _ _ _ _ _ _ _ _ _ _ _ _ _ _ _ _)
      unfold owns; iexists _; isplitr
      swap; · iexact HS2
      ipureintro; exact View.read_writes_of_cover _ _ _ _ _ (scover1_B_2 c _ _ _ _ _ _ _ _ _ _ _ _ _ _ _ _ _ _ _ _ _ _ _)
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last point the invariant gives it back. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  exact PhiS1_any V c _ _

end Cert.KernelIdeal.Hand

end
-- ==== Proof.FrameI.Launch.lean ====
/-
  The run of the whole program: a stretch of four host operations (the scale constant, its broadcast, the scaled query
  weights, the three weight matrices stacked), then region 0 (the projections), then region 1 (attention).
  The buffer contents at each boundary are a fold from the launch memory: after the host stretch; after region 0, its
  three output arrays at what its write-backs leave; after region 1, the result array at what ITS write-backs leave.
  Every final state has the result array and the four arguments at that last valuation.
-/
import proofs.«402268_j81295140979317_3_alg».proof.Proof.FrameI.Reg0
import proofs.«402268_j81295140979317_3_alg».proof.Proof.FrameI.Reg1
import proofs.«402268_j81295140979317_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => m (c, b)
/-- After the host stretch (region 0's entry). -/
abbrev W1 : Dev nD → Valuation τ sig (Elt F) := fun c => StableHlo.after hostOps0 (W0 m c)
/-- The same read at the TensorCore's references. -/
abbrev VA : (c : Dev nD) → (b : Ref sig .tc) → Buf (Elt F) ((c : Thread nD τ).loc b) := fun c b => W1 m c b
/-- At region 0's exit (region 1's entry): its arrays at what the pipeline leaves, every other buffer as entered. -/
def W2 (c : Dev nD) : Valuation τ sig (Elt F) :=
  Pipeline.withArrays spec0 c (W1 m c) fun w => (dat0 (VA m) c).arrAt w cfg0.N
theorem W2_arr (c : Dev nD) (w : Fin cfg0.W) :
    W2 m c (Proc.devRef .tc (Pipeline.arrRef spec0 w)) = (dat0 (VA m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VB : (c : Dev nD) → (b : Ref sig .tc) → Buf (Elt F) ((c : Thread nD τ).loc b) := fun c b => W2 m c b
theorem hF0 (c : Dev nD) (w : Fin cfg0.W) : (dat0 (VA m) c).arrAt w cfg0.N = VB m c (Pipeline.arrRef spec0 w) :=
  (W2_arr m c w).symm
theorem hrest0 (c : Dev nD) : ∀ b, b ∉ Finset.univ.image (Pipeline.arrRef spec0) → VB m c b = VA m c b :=
  fun b hb => W2_of_ne m c b fun w e => hb (Finset.mem_image.mpr ⟨w, Finset.mem_univ _, e⟩)

/-- At region 1's exit: the result array at what the pipeline leaves, every other buffer as entered. -/
def W3 (c : Dev nD) : Valuation τ sig (Elt F) :=
  Pipeline.withArrays spec1 c (W2 m c) fun w => (dat1 (VB m) c).arrAt w cfg1.N
theorem W3_arr (c : Dev nD) (w : Fin cfg1.W) :
    W3 m c (Proc.devRef .tc (Pipeline.arrRef spec1 w)) = (dat1 (VB m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VC : (c : Dev nD) → (b : Ref sig .tc) → Buf (Elt F) ((c : Thread nD τ).loc b) := fun c b => W3 m c b
theorem hF1 (c : Dev nD) (w : Fin cfg1.W) : (dat1 (VB m) c).arrAt w cfg1.N = VC m c (Pipeline.arrRef spec1 w) :=
  (W3_arr m c w).symm
theorem hrest1 (c : Dev nD) : ∀ b, b ∉ Finset.univ.image (Pipeline.arrRef spec1) → VC m c b = VB m c b :=
  fun b hb => W3_of_ne m c b fun w e => hb (Finset.mem_image.mpr ⟨w, Finset.mem_univ _, e⟩)

/-! ### The arguments end as launched: the host stretch writes none, no region writes one -/

theorem W1_of (c : Dev nD) (r : Ref sig .tc) (h : r ∉ hostOps0_W) : W1 m c (Proc.devRef .tc r) = m ((c : Thread nD τ).loc r) :=
  V1_of m c r h

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (VA m) c).arrAt_in 0 rfl _).trans (A_eq0 (VA m) c 0))
    _ = m ((c : Thread nD τ).loc main_arg0) := W1_of m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = m ((c : Thread nD τ).loc main_arg1) := W1_of m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_of m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_of m c main_arg3 (by decide)
/-- The result array ends at what region 1's write-backs leave. -/
theorem W3_main_v4 (c : Dev nD) : W3 m c (Proc.devRef .tc main_v4) = (dat1 (VB m) c).arrAt 3 cfg1.N := W3_arr m c 3

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's owes, at
    nothing. -/
abbrev R (c : Dev nD) : sProp 𝕄 := iprop((∃ r, prngReg c r) ∗ ∃ W, owes (c : Thread nD τ) (0 : CellTallies nD τ sig Unit) W)
/-- The host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W3; the generator register and
    the scoped rest go into the region's invariant as the class's and come back as the class's (the scratches' named
    contents forgotten at the end). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (VB m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segsH m) := (main_chain c).trans (by chain_rfl)

set_option backward.isDefEq.respectTransparency.types false in
/-- THE RUN: from any memory with zero counters every weakly fair execution of @main terminates, nothing faulting,
    and every final state has the result array at the last valuation and the four argument arrays as launched. -/
theorem run_main : θ_run defs (onTc (τ := τ) (main (F := F))) ⟨m, fun _ => 0, ρ⟩ (fun r => ∀ c : Dev nD,
      r.2.mem ((c.tc : Thread nD τ).loc main_v4) = W3 m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨h c _ (mem_uc main_v4 (by decide)),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c)⟩)

/-- The frame claim's post: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.KernelIdeal.Hand

end
-- ==== Proof.Spec.lean ====
/-
  The two arrangements of single-head attention this certificate joins, as functions of the four argument
  arrays over plain coordinates (batch b < 4, position i, j < 4096, feature e < 512, head coordinate d, c < 64),
  on the extended reals.

  Both start from the three projections  proj x w b i d = Σ_e x b i e · w d e.

  The reference scales the score AFTER the contraction,  s b i j = (Σ_d q b i d · k b j d) · 2⁻³, takes the row's
  maximum M, the weights e_j = exp (s_j − M), their sum L, and returns  Σ_j (e_j / L) · v b j c.

  The kernel scales the query weights BEFORE the projection,  q' = proj x (wq · 2⁻³), scores  s' = Σ_d q'·k, and
  walks the 4096 keys in two tiles of 2048 with a running maximum m, a running sum l and a running numerator acc
  (each rescaled by exp (m_old − m_new) when the maximum moves), from m = −∞, l = 0, acc = 0, and returns acc / l.

  On real inputs the two agree: the scale moves through both sums by distributivity, exp (m₁ − m₂) · exp (s − m₁)
  is exp (s − m₂), and  Σ_j (e_j / L) · v_j = (Σ_j e_j · v_j) / L  for a real L > 0.  That law is proved in the
  module beside this one; here are only the definitions.
-/
import Idealize.ShloMosaic.PureOps.Ideal
import Idealize.ShloMosaic.Lib.ValueIdx

noncomputable section

open scoped BigOperators

namespace Cert.Spec

open Idealize.ShloMosaic Idealize.ShloMosaic.ValueIdx

/-- The scale 2⁻³ as the word both programs carry; its value is never needed beyond its being a real number. -/
def c8 : EReal := Ideal.ofBits .f32 0x3E000000#32

/-- The input sequence, a weight matrix, a projected sequence: by coordinates. -/
abbrev Xs : Type := Fin 4 → Fin 4096 → Fin 512 → EReal
abbrev Ws : Type := Fin 64 → Fin 512 → EReal
abbrev Ps : Type := Fin 4 → Fin 4096 → Fin 64 → EReal

/-- A projection: position i of batch b against row d of the weights, contracted over the 512 features. -/
def proj (x : Xs) (w : Ws) : Ps := fun b i d => ∑ e : Fin 512, x b i e * w d e

/-! ## The reference's arrangement -/

/-- The score of query i against key j, scaled after the contraction. -/
def sR (q k : Ps) (b : Fin 4) (i j : Fin 4096) : EReal := (∑ d : Fin 64, q b i d * k b j d) * c8

/-- One row of softmax-weighted values: the scores' maximum, the weights, their sum, the weighted sum of v. -/
def softR (s : Fin 4096 → EReal) (v : Fin 4096 → EReal) : EReal :=
  ∑ j : Fin 4096, Ideal.div (Ideal.exp (s j - Finset.univ.fold max ⊥ s))
      (∑ j' : Fin 4096, Ideal.exp (s j' - Finset.univ.fold max ⊥ s)) * v j

/-- The reference's result. -/
def Rout (x : Xs) (wq wk wv : Ws) : Ps := fun b i c =>
  softR (fun j => sR (proj x wq) (proj x wk) b i j) (fun j => proj x wv b j c)

/-! ## The kernel's arrangement -/

/-- The score with the scale already inside the query. -/
def sK (q k : Ps) (b : Fin 4) (i j : Fin 4096) : EReal := ∑ d : Fin 64, q b i d * k b j d

/-- Key j of tile t (two tiles of 2048 keys). -/
def tile (t : Fin 2) (j : Fin 2048) : Fin 4096 := ⟨t.val * 2048 + j.val, by have := t.isLt; have := j.isLt; omega⟩

/-- The running maximum after a tile of scores s, from the maximum m before it. -/
def stepM (s : Fin 2048 → EReal) (m : EReal) : EReal := max m (Finset.univ.fold max ⊥ s)
/-- The running sum after the tile: the old sum rescaled, plus the tile's weights at the new maximum. -/
def stepL (s : Fin 2048 → EReal) (m l : EReal) : EReal :=
  Ideal.exp (m - stepM s m) * l + ∑ j : Fin 2048, Ideal.exp (s j - stepM s m)
/-- The running numerator after the tile, coordinate c. -/
def stepA (s : Fin 2048 → EReal) (v : Fin 2048 → EReal) (m a : EReal) : EReal :=
  Ideal.exp (m - stepM s m) * a + ∑ j : Fin 2048, Ideal.exp (s j - stepM s m) * v j

/-- One row of the kernel's result: two tiles from (−∞, 0, 0), then numerator over sum. -/
def flash (s : Fin 4096 → EReal) (v : Fin 4096 → EReal) : EReal :=
  let s0 := fun j => s (tile 0 j); let s1 := fun j => s (tile 1 j)
  let v0 := fun j => v (tile 0 j); let v1 := fun j => v (tile 1 j)
  let m1 := stepM s0 ⊥; let l1 := stepL s0 ⊥ 0; let a1 := stepA s0 v0 ⊥ 0
  Ideal.div (stepA s1 v1 m1 a1) (stepL s1 m1 l1)

/-- The kernel's result. -/
def Kout (x : Xs) (wq wk wv : Ws) : Ps := fun b i c =>
  flash (fun j => sK (proj x (fun d e => wq d e * c8)) (proj x wk) b i j) (fun j => proj x wv b j c)

/-! ## Arrays by coordinates -/

/-- A rank-3 array read by coordinates, a rank-2 array read by coordinates, and back. -/
def arr3 {n0 n1 n2 : Nat} (a : (⟨3, ![n0, n1, n2]⟩ : Shape).Idx → EReal) : Fin n0 → Fin n1 → Fin n2 → EReal :=
  fun p q r => a (ix3 p q r)
def arr2 {n0 n1 : Nat} (a : (⟨2, ![n0, n1]⟩ : Shape).Idx → EReal) : Fin n0 → Fin n1 → EReal :=
  fun p q => a (ix2 p q)
def unarr3 {n0 n1 n2 : Nat} (f : Fin n0 → Fin n1 → Fin n2 → EReal) : (⟨3, ![n0, n1, n2]⟩ : Shape).Idx → EReal :=
  fun j => f (j 0) (j 1) (j 2)

theorem unarr3_ix3 {n0 n1 n2 : Nat} (f : Fin n0 → Fin n1 → Fin n2 → EReal) (p : Fin n0) (q : Fin n1) (r : Fin n2) :
    unarr3 f (ix3 p q r) = f p q r := rfl

/-- An array all of whose entries are real numbers. -/
def AllReal {ι : Type} (a : ι → EReal) : Prop := ∀ i, ∃ r : ℝ, a i = (r : EReal)

end Cert.Spec

end
-- ==== Proof.PayIdeal.lean ====
/-
  The kernels' payloads read at an index on the extended reals.
  Projection kernel: entry (r, d) of each stored block is the contraction of row r of the x block with row d, 64 + d or
  128 + d of the stacked weight matrix.
  Attention kernel, query row r of the block, against one tile of 2048 keys with scores
  sc q k r j = Σ_d q r d · k j d: the new running maximum, sum and numerator are the specification's stepM, stepL,
  stepA at the old ones; the stored output is numerator over sum; the reset values are −∞, 0, 0.
-/
import proofs.«402268_j81295140979317_3_alg».proof.Proof.Spec
import proofs.«402268_j81295140979317_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.Spec

/-! ## The three contractions read at an index

Each contraction has one contracting axis; its contraction index is that axis's coordinate, and the two operand
indices at an output index (r, c) and a contraction coordinate e are read off axis by axis. -/

theorem lhsA_0 (i : S2048x192.Idx) (q : dot_S2048x512_S192x512_S2048x192_1_1_0_0_n_n.contr.Idx) :
    (dot_S2048x512_S192x512_S2048x192_1_1_0_0_n_n.lhsIdx i q 0).val = (i 0).val := by
  unfold DotDims.lhsIdx
  rw [dif_neg (show ¬(0 : Fin S2048x512.rank) ∈ dot_S2048x512_S192x512_S2048x192_1_1_0_0_n_n.lhsBatch by decide), dif_pos (show (0 : Fin S2048x512.rank) ∈ dot_S2048x512_S192x512_S2048x192_1_1_0_0_n_n.lhsNonContracting by decide)]
  rfl
theorem lhsA_1 (i : S2048x192.Idx) (q : dot_S2048x512_S192x512_S2048x192_1_1_0_0_n_n.contr.Idx) :
    (dot_S2048x512_S192x512_S2048x192_1_1_0_0_n_n.lhsIdx i q 1).val = (q ⟨0, by decide⟩).val :=
  dot_S2048x512_S192x512_S2048x192_1_1_0_0_n_n.lhsIdx_val_of_single rfl i q
theorem rhsA_0 (i : S2048x192.Idx) (q : dot_S2048x512_S192x512_S2048x192_1_1_0_0_n_n.contr.Idx) :
    (dot_S2048x512_S192x512_S2048x192_1_1_0_0_n_n.rhsIdx i q 0).val = (i 1).val := by
  unfold DotDims.rhsIdx
  rw [dif_neg (show ¬(0 : Fin S192x512.rank) ∈ dot_S2048x512_S192x512_S2048x192_1_1_0_0_n_n.rhsBatch by decide), dif_pos (show (0 : Fin S192x512.rank) ∈ dot_S2048x512_S192x512_S2048x192_1_1_0_0_n_n.rhsNonContracting by decide)]
  rfl
theorem rhsA_1 (i : S2048x192.Idx) (q : dot_S2048x512_S192x512_S2048x192_1_1_0_0_n_n.contr.Idx) :
    (dot_S2048x512_S192x512_S2048x192_1_1_0_0_n_n.rhsIdx i q 1).val = (q ⟨0, by decide⟩).val :=
  dot_S2048x512_S192x512_S2048x192_1_1_0_0_n_n.rhsIdx_val_of_single rfl i q

/-- The projection's contraction: entry (r, c) is row r of the left operand against row c of the right. -/
theorem mmA_apply (a : FVec Ideal S2048x512 .bf16) (b : FVec Ideal S192x512 .bf16) (r : Fin 2048) (c : Fin 192) :
    matmul dot_S2048x512_S192x512_S2048x192_1_1_0_0_n_n none a b (constant (F := Ideal) S2048x192 .f32 0x00000000#32) (ix2 r c)
      = ∑ e : Fin 512, a (ix2 r e) * b (ix2 c e) := by
  simp only [matmul]
  rw [Ideal.matmul_constant_zero_apply, ← Equiv.sum_comp (contrEquiv1 dot_S2048x512_S192x512_S2048x192_1_1_0_0_n_n 512 rfl rfl).symm]
  refine Finset.sum_congr rfl fun e _ => ?_
  have hk := contrEquiv1_symm_val dot_S2048x512_S192x512_S2048x192_1_1_0_0_n_n 512 rfl rfl e
  have el : dot_S2048x512_S192x512_S2048x192_1_1_0_0_n_n.lhsIdx (ix2 r c) ((contrEquiv1 dot_S2048x512_S192x512_S2048x192_1_1_0_0_n_n 512 rfl rfl).symm e) = ix2 r e := funext fun x => Fin.ext (by
    match x with
    | ⟨0, _⟩ => exact lhsA_0 _ _
    | ⟨1, _⟩ => exact (lhsA_1 _ _).trans hk)
  have er : dot_S2048x512_S192x512_S2048x192_1_1_0_0_n_n.rhsIdx (ix2 r c) ((contrEquiv1 dot_S2048x512_S192x512_S2048x192_1_1_0_0_n_n 512 rfl rfl).symm e) = ix2 c e := funext fun x => Fin.ext (by
    match x with
    | ⟨0, _⟩ => exact rhsA_0 _ _
    | ⟨1, _⟩ => exact (rhsA_1 _ _).trans hk)
  rw [el, er]

theorem lhsB_0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem lhsB_1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
theorem rhsB_0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem rhsB_1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

/-- The scores' contraction: entry (r, j) is query row r against key row j. -/
theorem mmB_apply (a : FVec Ideal S1024x64 .bf16) (b : FVec Ideal S2048x64 .bf16) (r : Fin 1024) (c : Fin 2048) :
    matmul dot_S1024x64_S2048x64_S1024x2048_1_1_0_0_n_n none a b (constant (F := Ideal) S1024x2048 .f32 0x00000000#32) (ix2 r c)
      = ∑ e : Fin 64, a (ix2 r e) * b (ix2 c e) := by
  simp only [matmul]
  rw [Ideal.matmul_constant_zero_apply, ← Equiv.sum_comp (contrEquiv1 dot_S1024x64_S2048x64_S1024x2048_1_1_0_0_n_n 64 rfl rfl).symm]
  refine Finset.sum_congr rfl fun e _ => ?_
  have hk := contrEquiv1_symm_val dot_S1024x64_S2048x64_S1024x2048_1_1_0_0_n_n 64 rfl rfl e
  have el : dot_S1024x64_S2048x64_S1024x2048_1_1_0_0_n_n.lhsIdx (ix2 r c) ((contrEquiv1 dot_S1024x64_S2048x64_S1024x2048_1_1_0_0_n_n 64 rfl rfl).symm e) = ix2 r e := funext fun x => Fin.ext (by
    match x with
    | ⟨0, _⟩ => exact lhsB_0 _ _
    | ⟨1, _⟩ => exact (lhsB_1 _ _).trans hk)
  have er : dot_S1024x64_S2048x64_S1024x2048_1_1_0_0_n_n.rhsIdx (ix2 r c) ((contrEquiv1 dot_S1024x64_S2048x64_S1024x2048_1_1_0_0_n_n 64 rfl rfl).symm e) = ix2 c e := funext fun x => Fin.ext (by
    match x with
    | ⟨0, _⟩ => exact rhsB_0 _ _
    | ⟨1, _⟩ => exact (rhsB_1 _ _).trans hk)
  rw [el, er]

theorem lhsC_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem lhsC_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem rhsC_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl
theorem rhsC_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q

/-- The weighted values' contraction: entry (r, c) is weight row r against value column c. -/
theorem mmC_apply (a : FVec Ideal S1024x2048 .bf16) (b : FVec Ideal S2048x64 .bf16) (r : Fin 1024) (c : Fin 64) :
    matmul dot_S1024x2048_S2048x64_S1024x64_1_0_0_1_n_n none a b (constant (F := Ideal) S1024x64 .f32 0x00000000#32) (ix2 r c)
      = ∑ e : Fin 2048, a (ix2 r e) * b (ix2 e c) := by
  simp only [matmul]
  rw [Ideal.matmul_constant_zero_apply, ← Equiv.sum_comp (contrEquiv1 dot_S1024x2048_S2048x64_S1024x64_1_0_0_1_n_n 2048 rfl rfl).symm]
  refine Finset.sum_congr rfl fun e _ => ?_
  have hk := contrEquiv1_symm_val dot_S1024x2048_S2048x64_S1024x64_1_0_0_1_n_n 2048 rfl rfl e
  have el : dot_S1024x2048_S2048x64_S1024x64_1_0_0_1_n_n.lhsIdx (ix2 r c) ((contrEquiv1 dot_S1024x2048_S2048x64_S1024x64_1_0_0_1_n_n 2048 rfl rfl).symm e) = ix2 r e := funext fun x => Fin.ext (by
    match x with
    | ⟨0, _⟩ => exact lhsC_0 _ _
    | ⟨1, _⟩ => exact (lhsC_1 _ _).trans hk)
  have er : dot_S1024x2048_S2048x64_S1024x64_1_0_0_1_n_n.rhsIdx (ix2 r c) ((contrEquiv1 dot_S1024x2048_S2048x64_S1024x64_1_0_0_1_n_n 2048 rfl rfl).symm e) = ix2 e c := funext fun x => Fin.ext (by
    match x with
    | ⟨0, _⟩ => exact (rhsC_0 _ _).trans hk
    | ⟨1, _⟩ => exact rhsC_1 _ _)
  rw [el, er]

/-! ## A column vector: a length-a vector stored as [a, 1], and an [a, 1] column spread over b columns -/

/-- An [a] vector cast to [a, 1] reads, at (p, u), the vector at p. -/
theorem vecToCol_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] column broadcast to [a, b] reads, at (p, c), the column at (p, 0). -/
theorem colToMat_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two row reductions, the exponential and the word of −∞ -/

/-- The exponential of a vector read at an index. -/
theorem expAt {s : Shape} {φ : FTy} (a : FVec Ideal s φ) (i : s.Idx) : exp a i = Ideal.exp (a i) := rfl

/-- The word 0xFF800000 is −∞. -/
theorem ninfWord : Ideal.ofBits .f32 0xFF800000#32 = ⊥ := by simp [Ideal.ofBits, Ideal.ieee]

/-- Row r of a [1024, 2048] matrix with the column coordinate j put back. -/
theorem lift_row (r : Fin 1024) (j : Fin 2048) : reduces_S1024x2048_S1024.lift (ix1 r) j = ix2 r j :=
  funext fun c => Fin.ext (by
    match c with
    | ⟨0, _⟩ => rfl
    | ⟨1, _⟩ => rfl)

/-- A row's maximum from −∞ is the fold of max over the row's 2048 entries. -/
theorem rowMax_apply (src : FVec Ideal S1024x2048 .f32) (r : Fin 1024) :
    multiReduction (F := Ideal) .maximumf [1] S1024 src 0xFF800000#32 reduces_S1024x2048_S1024 (.inl rfl) rfl (ix1 r)
      = Finset.univ.fold max ⊥ (fun j : Fin 2048 => src (ix2 r j)) := by
  refine (Ideal.multiReduction_maximumf_single src 0xFF800000#32 reduces_S1024x2048_S1024 (.inl rfl) rfl (ix1 r)).trans ?_
  show Finset.fold max (Ideal.ofBits .f32 0xFF800000#32) (src ∘ reduces_S1024x2048_S1024.lift (ix1 r)) (Finset.univ : Finset (Fin 2048)) = _
  rw [ninfWord]
  exact congrArg (fun f : Fin 2048 → EReal => Finset.univ.fold max ⊥ f) (funext fun j => congrArg src (lift_row r j))

/-- A row's sum is the sum of the row's 2048 entries. -/
theorem rowSum_apply (src : FVec Ideal S1024x2048 .f32) (r : Fin 1024) :
    multiReduction (F := Ideal) .add [1] S1024 src 0x00000000#32 reduces_S1024x2048_S1024 (.inl rfl) rfl (ix1 r)
      = ∑ j : Fin 2048, src (ix2 r j) := by
  refine (Ideal.multiReduction_add_single src 0x00000000#32 reduces_S1024x2048_S1024 (.inl rfl) rfl (ix1 r)).trans ?_
  exact Finset.sum_congr rfl fun j _ => congrArg src (lift_row r j)

/-! ## The projection kernel -/

/-- The stacked product before it is cut: entry (r, c) is row r of the x block against row c of the stacked weights. -/
theorem pay0_1 (x : Vec Ideal S1x2048x512 .f32) (w : Vec Ideal S192x512 .f32) (r : Fin 2048) (c : Fin 192) :
    k0_pay1 (F := Ideal) x w (ix2 r c) = ∑ e : Fin 512, x (ix3 (0 : Fin 1) r e) * w (ix2 c e) := by
  unfold k0_pay1
  refine (mmA_apply _ _ r c).trans ?_
  refine Finset.sum_congr rfl fun e _ => ?_
  rw [truncf_apply, truncf_apply, shapeCast_1ab_ab_apply, shapeCast_self]

/-- A block of 64 columns cut from column o of the stacked product, stored as one batch entry. -/
theorem pay0_cut (o : Nat) (P : FVec Ideal S2048x192 .f32) (h : S2048x192.Slices ![0, o] S2048x64) (r : Fin 2048) (d : Fin 64) :
    shapeCast S1x2048x64 (truncf .bf16 (extractStridedSlice S2048x64 ![0, o] P h) bitsLt_bf16_f32) shapeCasts_S2048x64_S1x2048x64
        (ix3 (0 : Fin 1) r d)
      = P (ix2 r ⟨o + d.val, Nat.lt_of_lt_of_le (Nat.add_lt_add_left d.isLt o) (h.2 1)⟩) := by
  rw [shapeCast_ab_1ab_apply, truncf_apply, slice2_axis1_eq]

theorem pay0_q (x : Vec Ideal S1x2048x512 .f32) (w : Vec Ideal S192x512 .f32) (r : Fin 2048) (d : Fin 64) :
    k0_pay2 (F := Ideal) x w (ix3 (0 : Fin 1) r d)
      = ∑ e : Fin 512, x (ix3 (0 : Fin 1) r e) * w (ix2 (⟨d.val, by omega⟩ : Fin 192) e) := by
  unfold k0_pay2
  refine (pay0_cut 0 _ _ r d).trans ?_
  rw [pay0_1]
  refine Finset.sum_congr rfl fun e _ => ?_
  congr 3
  exact Fin.ext (Nat.zero_add _)
theorem pay0_k (x : Vec Ideal S1x2048x512 .f32) (w : Vec Ideal S192x512 .f32) (r : Fin 2048) (d : Fin 64) :
    k0_pay3 (F := Ideal) x w (ix3 (0 : Fin 1) r d)
      = ∑ e : Fin 512, x (ix3 (0 : Fin 1) r e) * w (ix2 (⟨64 + d.val, by omega⟩ : Fin 192) e) := by
  unfold k0_pay3
  refine (pay0_cut 64 _ _ r d).trans ?_
  rw [pay0_1]
theorem pay0_v (x : Vec Ideal S1x2048x512 .f32) (w : Vec Ideal S192x512 .f32) (r : Fin 2048) (d : Fin 64) :
    k0_pay4 (F := Ideal) x w (ix3 (0 : Fin 1) r d)
      = ∑ e : Fin 512, x (ix3 (0 : Fin 1) r e) * w (ix2 (⟨128 + d.val, by omega⟩ : Fin 192) e) := by
  unfold k0_pay4
  refine (pay0_cut 128 _ _ r d).trans ?_
  rw [pay0_1]

/-! ## The attention kernel -/

/-- The scores of query row r of the block q against the keys of the tile k. -/
def sc (q : Vec Ideal S1x1024x64 .bf16) (k : Vec Ideal S1x2048x64 .bf16) (r : Fin 1024) : Fin 2048 → EReal :=
  fun j => ∑ d : Fin 64, q (ix3 (0 : Fin 1) r d) * k (ix3 (0 : Fin 1) j d)

/-- The score matrix at (r, j) is the score of query row r against key j. -/
theorem pay1_7 (q : Vec Ideal S1x1024x64 .bf16) (k : Vec Ideal S1x2048x64 .bf16) (r : Fin 1024) (j : Fin 2048) :
    k1_pay7 (F := Ideal) q k (ix2 r j) = sc q k r j := by
  unfold k1_pay7 sc
  refine (mmB_apply _ _ r j).trans ?_
  refine Finset.sum_congr rfl fun d _ => ?_
  rw [shapeCast_1ab_ab_apply, shapeCast_1ab_ab_apply]

/-- The new running maximum of row r. -/
theorem pay1_8 (q : Vec Ideal S1x1024x64 .bf16) (k : Vec Ideal S1x2048x64 .bf16) (mp : Vec Ideal S1024x1 .f32) (r : Fin 1024) :
    k1_pay8 (F := Ideal) q k mp (ix2 r (0 : Fin 1)) = stepM (sc q k r) (mp (ix2 r (0 : Fin 1))) := by
  unfold k1_pay8 stepM
  rw [maximumf_apply, vecToCol_apply, rowMax_apply]
  exact congrArg (max (mp (ix2 r (0 : Fin 1))))
    (congrArg (fun f : Fin 2048 → EReal => Finset.univ.fold max ⊥ f) (funext fun j => pay1_7 q k r j))

/-- The factor that rescales row r's old sum and numerator. -/
theorem pay1_9 (q : Vec Ideal S1x1024x64 .bf16) (k : Vec Ideal S1x2048x64 .bf16) (mp : Vec Ideal S1024x1 .f32) (r : Fin 1024) :
    k1_pay9 (F := Ideal) q k mp (ix2 r (0 : Fin 1))
      = Ideal.exp (mp (ix2 r (0 : Fin 1)) - stepM (sc q k r) (mp (ix2 r (0 : Fin 1)))) := by
  unfold k1_pay9
  rw [expAt, subf_apply, pay1_8]

/-- The weight of key j in row r at the new maximum. -/
theorem pay1_10 (q : Vec Ideal S1x1024x64 .bf16) (k : Vec Ideal S1x2048x64 .bf16) (mp : Vec Ideal S1024x1 .f32) (r : Fin 1024)
    (j : Fin 2048) :
    k1_pay10 (F := Ideal) q k mp (ix2 r j) = Ideal.exp (sc q k r j - stepM (sc q k r) (mp (ix2 r (0 : Fin 1)))) := by
  unfold k1_pay10
  rw [expAt, subf_apply, colToMat_apply, pay1_7, pay1_8]

theorem pay1_m (q : Vec Ideal S1x1024x64 .bf16) (k : Vec Ideal S1x2048x64 .bf16) (mp : Vec Ideal S1024x1 .f32) (r : Fin 1024) :
    k1_pay2 (F := Ideal) (k1_pay8 q k mp) (ix2 r (0 : Fin 1)) = stepM (sc q k r) (mp (ix2 r (0 : Fin 1))) := by
  unfold k1_pay2
  rw [shapeCast_self]
  exact pay1_8 q k mp r
theorem pay1_l (q : Vec Ideal S1x1024x64 .bf16) (k : Vec Ideal S1x2048x64 .bf16) (mp lp : Vec Ideal S1024x1 .f32) (r : Fin 1024) :
    k1_pay11 (F := Ideal) q k mp lp (ix2 r (0 : Fin 1)) = stepL (sc q k r) (mp (ix2 r (0 : Fin 1))) (lp (ix2 r (0 : Fin 1))) := by
  unfold k1_pay11 stepL
  rw [shapeCast_self, addf_apply, mulf_apply, vecToCol_apply, rowSum_apply, pay1_9]
  exact congrArg (_ + ·) (Finset.sum_congr rfl fun j _ => pay1_10 q k mp r j)

/-- The tile's weighted values of row r, coordinate c. -/
theorem pay1_12 (q : Vec Ideal S1x1024x64 .bf16) (k v : Vec Ideal S1x2048x64 .bf16) (mp : Vec Ideal S1024x1 .f32)
    (r : Fin 1024) (cc : Fin 64) :
    k1_pay12 (F := Ideal) q k v mp (ix2 r cc)
      = ∑ j : Fin 2048, Ideal.exp (sc q k r j - stepM (sc q k r) (mp (ix2 r (0 : Fin 1)))) * v (ix3 (0 : Fin 1) j cc) := by
  unfold k1_pay12
  refine (mmC_apply _ _ r cc).trans ?_
  refine Finset.sum_congr rfl fun j _ => ?_
  rw [truncf_apply, pay1_10, shapeCast_1ab_ab_apply]

/-- The old numerator of row r, coordinate c, rescaled. -/
theorem pay1_13 (q : Vec Ideal S1x1024x64 .bf16) (k : Vec Ideal S1x2048x64 .bf16) (mp : Vec Ideal S1024x1 .f32)
    (ap : Vec Ideal S1024x64 .f32) (r : Fin 1024) (cc : Fin 64) :
    k1_pay13 (F := Ideal) q k mp ap (ix2 r cc)
      = Ideal.exp (mp (ix2 r (0 : Fin 1)) - stepM (sc q k r) (mp (ix2 r (0 : Fin 1)))) * ap (ix2 r cc) := by
  unfold k1_pay13
  rw [mulf_apply, colToMat_apply, pay1_9]

theorem pay1_a (q : Vec Ideal S1x1024x64 .bf16) (k v : Vec Ideal S1x2048x64 .bf16) (mp : Vec Ideal S1024x1 .f32)
    (ap : Vec Ideal S1024x64 .f32) (r : Fin 1024) (cc : Fin 64) :
    k1_pay1 (F := Ideal) (k1_pay12 q k v mp) (k1_pay13 q k mp ap) (ix2 r cc)
      = stepA (sc q k r) (fun j => v (ix3 (0 : Fin 1) j cc)) (mp (ix2 r (0 : Fin 1))) (ap (ix2 r cc)) := by
  unfold k1_pay1 stepA
  rw [shapeCast_self, addf_apply, pay1_13, pay1_12]
theorem pay1_o (acc : Vec Ideal S1024x64 .f32) (l : Vec Ideal S1024x1 .f32) (r : Fin 1024) (cc : Fin 64) :
    k1_pay3 (F := Ideal) acc l (ix3 (0 : Fin 1) r cc) = Ideal.div (acc (ix2 r cc)) (l (ix2 r (0 : Fin 1))) := by
  unfold k1_pay3
  rw [shapeCast_ab_1ab_apply, divf_apply, colToMat_apply]
theorem pay1_m0 (r : Fin 1024) : k1_pay4 (F := Ideal) (ix2 r (0 : Fin 1)) = ⊥ := by
  unfold k1_pay4
  rw [shapeCast_self, broadcast_apply]
  exact ninfWord
theorem pay1_l0 (r : Fin 1024) : k1_pay5 (F := Ideal) (ix2 r (0 : Fin 1)) = 0 := by
  unfold k1_pay5
  rw [shapeCast_self, broadcast_apply]
  exact Ideal.ofBits_zero_f32
theorem pay1_a0 (r : Fin 1024) (cc : Fin 64) : k1_pay6 (F := Ideal) (ix2 r cc) = 0 := by
  unfold k1_pay6
  rw [shapeCast_self, broadcast_apply]
  exact Ideal.ofBits_zero_f32

end Cert.KernelIdeal.Pay

end
-- ==== Proof.Value0.lean ====
/-
  The three projected arrays after region 0, entry (b, i, d): row i of batch b of the input contracted, over the 512
  features, with row d (queries), 64 + d (keys) or 128 + d (values) of the stacked weight matrix the region finds.
  Position i lies in block s = i / 2048 at row i % 2048, written back at point t = b·2 + s.
-/
import proofs.«402268_j81295140979317_3_alg».proof.Proof.FrameI.Reg0
import proofs.«402268_j81295140979317_3_alg».proof.Proof.PayIdeal
import proofs.«402268_j81295140979317_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-! ## The block indices over the grid -/

theorem hz3 : (![0, 0, 0] : Fin 3 → Nat) = fun _ => 0 := funext fun a => by fin_cases a <;> rfl
theorem hz2 : (![0, 0] : Fin 2 → Nat) = fun _ => 0 := funext fun a => by fin_cases a <;> rfl

/-- At point t = b·2 + s the input block and the three output blocks sit at block index (b, s, 0) = (t / 2, t % 2, 0);
    the weight matrix is one block, at (0, 0). -/
theorem idx_facts0 : ∀ t : Fin cfg0.N,
    win0_0.index t (0 : Fin 3) = t.val / 2 ∧ win0_0.index t (1 : Fin 3) = t.val % 2 ∧ win0_0.index t (2 : Fin 3) = 0
    ∧ win0_1.index t (0 : Fin 2) = 0 ∧ win0_1.index t (1 : Fin 2) = 0
    ∧ win0_2.index t (0 : Fin 3) = t.val / 2 ∧ win0_2.index t (1 : Fin 3) = t.val % 2 ∧ win0_2.index t (2 : Fin 3) = 0
    ∧ win0_3.index t (0 : Fin 3) = t.val / 2 ∧ win0_3.index t (1 : Fin 3) = t.val % 2 ∧ win0_3.index t (2 : Fin 3) = 0
    ∧ win0_4.index t (0 : Fin 3) = t.val / 2 ∧ win0_4.index t (1 : Fin 3) = t.val % 2 ∧ win0_4.index t (2 : Fin 3) = 0 :=
  (by decide +kernel : ∀ t : Fin grid0.N, _)

/-! ## The input blocks as entries of their arrays -/

/-- Entry (0, r, e) of the input block at point t is entry (t / 2, (t % 2)·2048 + r, e) of the input. -/
theorem xblk_apply (c : Dev nD) (t : Fin cfg0.N) (x : S1x2048x512.Idx) (k : S4x4096x512.Idx)
    (hk0 : (k 0).val = t.val / 2) (hk1 : (k 1).val = t.val % 2 * 2048 + (x 1).val) (hk2 : (k 2).val = (x 2).val) :
    (iblk0 V c 0 t : Vec Ideal S1x2048x512 .f32) x = (V c main_arg0 : S4x4096x512.Idx → Elt Ideal .f32) k := by
  obtain ⟨e0, e1, e2, -⟩ := idx_facts0 t
  unfold iblk0
  rw [View.read_apply]
  show V c main_arg0 _ = V c main_arg0 _
  refine congrArg _ ?_
  funext a
  apply Fin.ext
  match a with
  | ⟨0, _⟩ => show win0_0.index t (0 : Fin 3) * 1 + 1 * (x 0).val = (k 0).val; have hx : (x 0).val < 1 := (x 0).isLt; omega
  | ⟨1, _⟩ => show win0_0.index t (1 : Fin 3) * 2048 + 1 * (x 1).val = (k 1).val; omega
  | ⟨2, _⟩ => show win0_0.index t (2 : Fin 3) * 512 + 1 * (x 2).val = (k 2).val; omega

/-- The weight block at every point is the whole stacked weight matrix. -/
theorem wblk_apply (c : Dev nD) (t : Fin cfg0.N) (x : S192x512.Idx) :
    (iblk0 V c 1 t : Vec Ideal S192x512 .f32) x = (V c main_v2 : S192x512.Idx → Elt Ideal .f32) x := by
  obtain ⟨-, -, -, e0, e1, -⟩ := idx_facts0 t
  unfold iblk0
  rw [View.read_apply]
  show V c main_v2 _ = V c main_v2 _
  refine congrArg _ ?_
  funext a
  apply Fin.ext
  match a with
  | ⟨0, _⟩ => show win0_1.index t (0 : Fin 2) * 192 + 1 * (x 0).val = (x 0).val; omega
  | ⟨1, _⟩ => show win0_1.index t (1 : Fin 2) * 512 + 1 * (x 1).val = (x 1).val; omega

/-! ## The projected array as one function of the input and the weights -/

/-- Entry (b, i, d) of the projection of the input against the rows ρ d of the stacked weights. -/
def projArr (c : Dev nD) (ρ : Fin 64 → Fin 192) : S4x4096x64.Idx → Elt Ideal .bf16 :=
  unarr3 (n0 := 4) (n1 := 4096) (n2 := 64) fun b i d =>
    ∑ e : Fin 512, arr3 (n0 := 4) (n1 := 4096) (n2 := 512) (V c main_arg0) b i e * arr2 (n0 := 192) (n1 := 512) (V c main_v2) (ρ d) e

/-- A stored block whose entry (0, r, d) contracts row r of the x block with row ρ d of the w block, the x block being
    rows (t % 2)·2048 … of batch t / 2 of the input and the w block the weights, is at each of its entries the
    projection's entry at batch t / 2, position (t % 2)·2048 + r. -/
theorem point_eq (c : Dev nD) (t : Fin cfg0.N) (ρ : Fin 64 → Fin 192) (p : Vec Ideal S1x2048x64 .bf16)
    (x0 : Vec Ideal S1x2048x512 .f32) (x1 : Vec Ideal S192x512 .f32)
    (hp : ∀ (r : Fin 2048) (d : Fin 64), p (ix3 (0 : Fin 1) r d) = ∑ e : Fin 512, x0 (ix3 (0 : Fin 1) r e) * x1 (ix2 (ρ d) e))
    (hx0 : ∀ (x : S1x2048x512.Idx) (k : S4x4096x512.Idx), (k 0).val = t.val / 2 → (k 1).val = t.val % 2 * 2048 + (x 1).val →
      (k 2).val = (x 2).val → x0 x = (V c main_arg0 : S4x4096x512.Idx → Elt Ideal .f32) k)
    (hx1 : ∀ x : S192x512.Idx, x1 x = (V c main_v2 : S192x512.Idx → Elt Ideal .f32) x)
    (y : S1x2048x64.Idx) (k : S4x4096x64.Idx)
    (hk0 : (k 0).val = t.val / 2) (hk1 : (k 1).val = t.val % 2 * 2048 + (y 1).val) (hk2 : (k 2).val = (y 2).val) :
    p y = projArr V c ρ k := by
  obtain ⟨a, r, d, rfl⟩ : ∃ a r d, y = ix3 a r d := ⟨_, _, _, eq_ix3 y⟩
  obtain ⟨kb, ki, kd, rfl⟩ : ∃ a r d, k = ix3 a r d := ⟨_, _, _, eq_ix3 k⟩
  obtain rfl : a = 0 := Subsingleton.elim _ _
  rw [hp]
  show _ = ∑ e : Fin 512, arr3 (n0 := 4) (n1 := 4096) (n2 := 512) (V c main_arg0) kb ki e * arr2 (n0 := 192) (n1 := 512) (V c main_v2) (ρ kd) e
  unfold arr3 arr2
  have hd : kd = d := Fin.ext hk2
  subst hd
  refine Finset.sum_congr rfl fun e _ => ?_
  rw [hx0 (ix3 0 r e) (ix3 kb ki e) hk0 hk1 rfl, hx1]

/-! ## The queries: window 2 -/

/-- What point t writes back is block t of the projection against rows 0 … 63 of the weights. -/
theorem flushed_q (c : Dev nD) (t : Fin cfg0.N) :
    (dat0 (F := Ideal) V c).flushed 2 t = ((cfg0.win 2).blk t).view.read (Elt Ideal) (projArr V c fun d => ⟨d.val, by omega⟩) := by
  show (cfg0.win 2).cut (grid0.coords t) ((dat0 V c).after 2 t) = _
  rw [after0_2]
  unfold out0_2
  rw [View.canon_unit_zero hz3]
  simp only [View.ld_unit_zero (S := S1x2048x512) hz3, View.ld_unit_zero (S := S192x512) hz2]
  obtain ⟨-, -, -, -, -, e0, e1, e2, -⟩ := idx_facts0 t
  funext y
  show k0_pay2 (F := Ideal) (iblk0 V c 0 t) (iblk0 V c 1 t) y
    = projArr V c (fun d : Fin 64 => (⟨d.val, by omega⟩ : Fin 192)) (((cfg0.win 2).blk t).view.emb y)
  refine point_eq V c t (fun d : Fin 64 => (⟨d.val, by omega⟩ : Fin 192)) (k0_pay2 (F := Ideal) (iblk0 V c 0 t) (iblk0 V c 1 t))
    (iblk0 V c 0 t) (iblk0 V c 1 t) (Pay.pay0_q _ _) (xblk_apply V c t) (wblk_apply V c t) y _ ?_ ?_ ?_
  · show win0_2.index t (0 : Fin 3) * 1 + 1 * (y 0).val = t.val / 2; have hy : (y 0).val < 1 := (y 0).isLt; omega
  · show win0_2.index t (1 : Fin 3) * 2048 + 1 * (y 1).val = t.val % 2 * 2048 + (y 1).val; omega
  · show win0_2.index t (2 : Fin 3) * 64 + 1 * (y 2).val = (y 2).val; omega

/-- An entry of the array is in point t's block iff each coordinate is in the block's range on its axis. -/
theorem mem_blk_q (t : Fin cfg0.N) (i : S4x4096x64.Idx) :
    i ∈ ((cfg0.win 2).blk t).view.set ↔ ∀ a : Fin 3, win0_2.index t a * S1x2048x64.size a ≤ (i a).val ∧ (i a).val < win0_2.index t a * S1x2048x64.size a + S1x2048x64.size a := by
  show i ∈ ((View.whole main_v3_0).slice (win0_2.rect t)).set ↔ _
  rw [View.set_slice_whole, Rect.mem_set_unit]
  exact Iff.rfl

/-- Entry (b, i, d) is in the block of point b·2 + i / 2048. -/
theorem cover_q (i : S4x4096x64.Idx) : ∃ t : Fin cfg0.N, (cfg0.win 2).flush t = true ∧ i ∈ ((cfg0.win 2).blk t).view.set := by
  have hN : cfg0.N = 8 := N_0
  have h0 : (i 0).val < 4 := (i 0).isLt
  have h1 : (i 1).val < 4096 := (i 1).isLt
  have h2 : (i 2).val < 64 := (i 2).isLt
  obtain ⟨t, ht⟩ : ∃ t : Fin cfg0.N, t.val = (i 0).val * 2 + (i 1).val / 2048 := ⟨⟨(i 0).val * 2 + (i 1).val / 2048, by rw [hN]; omega⟩, rfl⟩
  refine ⟨t, flush0_2 t, ?_⟩
  rw [mem_blk_q]
  obtain ⟨-, -, -, -, -, e0, e1, e2, -⟩ := idx_facts0 t
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 64 ≤ (i 2).val ∧ (i 2).val < win0_2.index t (2 : Fin 3) * 64 + 64; omega

/-- The array after the region is the projection against rows 0 … 63 of the weights. -/
theorem final_q (c : Dev nD) : (dat0 (F := Ideal) V c).arrAt 2 cfg0.N = projArr V c (fun d : Fin 64 => (⟨d.val, by omega⟩ : Fin 192)) :=
  (dat0 V c).arrAt_eq_of_cover 2 (projArr V c (fun d : Fin 64 => (⟨d.val, by omega⟩ : Fin 192))) (fun t _ => flushed_q V c t) cover_q

/-! ## The keys: window 3 -/

/-- What point t writes back is block t of the projection against rows 64 … 127 of the weights. -/
theorem flushed_k (c : Dev nD) (t : Fin cfg0.N) :
    (dat0 (F := Ideal) V c).flushed 3 t = ((cfg0.win 3).blk t).view.read (Elt Ideal) (projArr V c fun d => ⟨64 + d.val, by omega⟩) := by
  show (cfg0.win 3).cut (grid0.coords t) ((dat0 V c).after 3 t) = _
  rw [after0_3]
  unfold out0_3
  rw [View.canon_unit_zero hz3]
  simp only [View.ld_unit_zero (S := S1x2048x512) hz3, View.ld_unit_zero (S := S192x512) hz2]
  obtain ⟨-, -, -, -, -, -, -, -, e0, e1, e2, -⟩ := idx_facts0 t
  funext y
  show k0_pay3 (F := Ideal) (iblk0 V c 0 t) (iblk0 V c 1 t) y
    = projArr V c (fun d : Fin 64 => (⟨64 + d.val, by omega⟩ : Fin 192)) (((cfg0.win 3).blk t).view.emb y)
  refine point_eq V c t (fun d : Fin 64 => (⟨64 + d.val, by omega⟩ : Fin 192)) (k0_pay3 (F := Ideal) (iblk0 V c 0 t) (iblk0 V c 1 t))
    (iblk0 V c 0 t) (iblk0 V c 1 t) (Pay.pay0_k _ _) (xblk_apply V c t) (wblk_apply V c t) y _ ?_ ?_ ?_
  · show win0_3.index t (0 : Fin 3) * 1 + 1 * (y 0).val = t.val / 2; have hy : (y 0).val < 1 := (y 0).isLt; omega
  · show win0_3.index t (1 : Fin 3) * 2048 + 1 * (y 1).val = t.val % 2 * 2048 + (y 1).val; omega
  · show win0_3.index t (2 : Fin 3) * 64 + 1 * (y 2).val = (y 2).val; omega

/-- An entry of the array is in point t's block iff each coordinate is in the block's range on its axis. -/
theorem mem_blk_k (t : Fin cfg0.N) (i : S4x4096x64.Idx) :
    i ∈ ((cfg0.win 3).blk t).view.set ↔ ∀ a : Fin 3, win0_3.index t a * S1x2048x64.size a ≤ (i a).val ∧ (i a).val < win0_3.index t a * S1x2048x64.size a + S1x2048x64.size a := by
  show i ∈ ((View.whole main_v3_1).slice (win0_3.rect t)).set ↔ _
  rw [View.set_slice_whole, Rect.mem_set_unit]
  exact Iff.rfl

/-- Entry (b, i, d) is in the block of point b·2 + i / 2048. -/
theorem cover_k (i : S4x4096x64.Idx) : ∃ t : Fin cfg0.N, (cfg0.win 3).flush t = true ∧ i ∈ ((cfg0.win 3).blk t).view.set := by
  have hN : cfg0.N = 8 := N_0
  have h0 : (i 0).val < 4 := (i 0).isLt
  have h1 : (i 1).val < 4096 := (i 1).isLt
  have h2 : (i 2).val < 64 := (i 2).isLt
  obtain ⟨t, ht⟩ : ∃ t : Fin cfg0.N, t.val = (i 0).val * 2 + (i 1).val / 2048 := ⟨⟨(i 0).val * 2 + (i 1).val / 2048, by rw [hN]; omega⟩, rfl⟩
  refine ⟨t, flush0_3 t, ?_⟩
  rw [mem_blk_k]
  obtain ⟨-, -, -, -, -, -, -, -, e0, e1, e2, -⟩ := idx_facts0 t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 64 ≤ (i 2).val ∧ (i 2).val < win0_3.index t (2 : Fin 3) * 64 + 64; omega

/-- The array after the region is the projection against rows 64 … 127 of the weights. -/
theorem final_k (c : Dev nD) : (dat0 (F := Ideal) V c).arrAt 3 cfg0.N = projArr V c (fun d : Fin 64 => (⟨64 + d.val, by omega⟩ : Fin 192)) :=
  (dat0 V c).arrAt_eq_of_cover 3 (projArr V c (fun d : Fin 64 => (⟨64 + d.val, by omega⟩ : Fin 192))) (fun t _ => flushed_k V c t) cover_k

/-! ## The values: window 4 -/

/-- What point t writes back is block t of the projection against rows 128 … 191 of the weights. -/
theorem flushed_v (c : Dev nD) (t : Fin cfg0.N) :
    (dat0 (F := Ideal) V c).flushed 4 t = ((cfg0.win 4).blk t).view.read (Elt Ideal) (projArr V c fun d => ⟨128 + d.val, by omega⟩) := by
  show (cfg0.win 4).cut (grid0.coords t) ((dat0 V c).after 4 t) = _
  rw [after0_4]
  unfold out0_4
  rw [View.canon_unit_zero hz3]
  simp only [View.ld_unit_zero (S := S1x2048x512) hz3, View.ld_unit_zero (S := S192x512) hz2]
  obtain ⟨-, -, -, -, -, -, -, -, -, -, -, e0, e1, e2⟩ := idx_facts0 t
  funext y
  show k0_pay4 (F := Ideal) (iblk0 V c 0 t) (iblk0 V c 1 t) y
    = projArr V c (fun d : Fin 64 => (⟨128 + d.val, by omega⟩ : Fin 192)) (((cfg0.win 4).blk t).view.emb y)
  refine point_eq V c t (fun d : Fin 64 => (⟨128 + d.val, by omega⟩ : Fin 192)) (k0_pay4 (F := Ideal) (iblk0 V c 0 t) (iblk0 V c 1 t))
    (iblk0 V c 0 t) (iblk0 V c 1 t) (Pay.pay0_v _ _) (xblk_apply V c t) (wblk_apply V c t) y _ ?_ ?_ ?_
  · show win0_4.index t (0 : Fin 3) * 1 + 1 * (y 0).val = t.val / 2; have hy : (y 0).val < 1 := (y 0).isLt; omega
  · show win0_4.index t (1 : Fin 3) * 2048 + 1 * (y 1).val = t.val % 2 * 2048 + (y 1).val; omega
  · show win0_4.index t (2 : Fin 3) * 64 + 1 * (y 2).val = (y 2).val; omega

/-- An entry of the array is in point t's block iff each coordinate is in the block's range on its axis. -/
theorem mem_blk_v (t : Fin cfg0.N) (i : S4x4096x64.Idx) :
    i ∈ ((cfg0.win 4).blk t).view.set ↔ ∀ a : Fin 3, win0_4.index t a * S1x2048x64.size a ≤ (i a).val ∧ (i a).val < win0_4.index t a * S1x2048x64.size a + S1x2048x64.size a := by
  show i ∈ ((View.whole main_v3_2).slice (win0_4.rect t)).set ↔ _
  rw [View.set_slice_whole, Rect.mem_set_unit]
  exact Iff.rfl

/-- Entry (b, i, d) is in the block of point b·2 + i / 2048. -/
theorem cover_v (i : S4x4096x64.Idx) : ∃ t : Fin cfg0.N, (cfg0.win 4).flush t = true ∧ i ∈ ((cfg0.win 4).blk t).view.set := by
  have hN : cfg0.N = 8 := N_0
  have h0 : (i 0).val < 4 := (i 0).isLt
  have h1 : (i 1).val < 4096 := (i 1).isLt
  have h2 : (i 2).val < 64 := (i 2).isLt
  obtain ⟨t, ht⟩ : ∃ t : Fin cfg0.N, t.val = (i 0).val * 2 + (i 1).val / 2048 := ⟨⟨(i 0).val * 2 + (i 1).val / 2048, by rw [hN]; omega⟩, rfl⟩
  refine ⟨t, flush0_4 t, ?_⟩
  rw [mem_blk_v]
  obtain ⟨-, -, -, -, -, -, -, -, -, -, -, e0, e1, e2⟩ := idx_facts0 t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 64 ≤ (i 2).val ∧ (i 2).val < win0_4.index t (2 : Fin 3) * 64 + 64; omega

/-- The array after the region is the projection against rows 128 … 191 of the weights. -/
theorem final_v (c : Dev nD) : (dat0 (F := Ideal) V c).arrAt 4 cfg0.N = projArr V c (fun d : Fin 64 => (⟨128 + d.val, by omega⟩ : Fin 192)) :=
  (dat0 V c).arrAt_eq_of_cover 4 (projArr V c (fun d : Fin 64 => (⟨128 + d.val, by omega⟩ : Fin 192))) (fun t _ => flushed_v V c t) cover_v

/-! ## The three arrays by coordinates -/

theorem q_array (c : Dev nD) (b : Fin 4) (i : Fin 4096) (d : Fin 64) :
    arr3 (n0 := 4) (n1 := 4096) (n2 := 64) ((dat0 (F := Ideal) V c).arrAt 2 cfg0.N) b i d
      = ∑ e : Fin 512, arr3 (n0 := 4) (n1 := 4096) (n2 := 512) (V c main_arg0) b i e * arr2 (n0 := 192) (n1 := 512) (V c main_v2) (⟨d.val, by omega⟩ : Fin 192) e := by
  rw [final_q]
  rfl
theorem k_array (c : Dev nD) (b : Fin 4) (i : Fin 4096) (d : Fin 64) :
    arr3 (n0 := 4) (n1 := 4096) (n2 := 64) ((dat0 (F := Ideal) V c).arrAt 3 cfg0.N) b i d
      = ∑ e : Fin 512, arr3 (n0 := 4) (n1 := 4096) (n2 := 512) (V c main_arg0) b i e * arr2 (n0 := 192) (n1 := 512) (V c main_v2) (⟨64 + d.val, by omega⟩ : Fin 192) e := by
  rw [final_k]
  rfl
theorem v_array (c : Dev nD) (b : Fin 4) (i : Fin 4096) (d : Fin 64) :
    arr3 (n0 := 4) (n1 := 4096) (n2 := 64) ((dat0 (F := Ideal) V c).arrAt 4 cfg0.N) b i d
      = ∑ e : Fin 512, arr3 (n0 := 4) (n1 := 4096) (n2 := 512) (V c main_arg0) b i e * arr2 (n0 := 192) (n1 := 512) (V c main_v2) (⟨128 + d.val, by omega⟩ : Fin 192) e := by
  rw [final_v]
  rfl

end Cert.KernelIdeal.Hand

end
-- ==== Proof.Pieces1.lean ====
/-
  What the attention kernel's body leaves in the output block and the three scratches, named: each is one payload of
  the body's loads. At an even point (after the reset to −∞, 0, 0) the scratches hold the first tile folded into the
  reset values; at an odd point they hold the tile folded into what the point before left, and the output block holds
  numerator over sum.
-/
import proofs.«402268_j81295140979317_3_alg».proof.Proof.FrameI.Reg1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Every store and load of the body goes through the whole-shape rectangle: its offsets are all zero. -/
theorem pieces1_off2 : (![0, 0] : Fin 2 → Nat) = fun _ => 0 := funext fun a => by fin_cases a <;> rfl
/-- The same for a rank-three block. -/
theorem pieces1_off3 : (![0, 0, 0] : Fin 3 → Nat) = fun _ => 0 := funext fun a => by fin_cases a <;> rfl

/-! ## An even point -/

theorem sout1_A_0_eq (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (x0 : Vec F S1x1024x64 .bf16) (x1 : Vec F S1x2048x64 .bf16) (x2 : Vec F S1x2048x64 .bf16) :
    sout1_A_0 c i arg3 harg3 arg4 harg4 arg5 harg5 arg6 harg6 arg7 harg7 arg8 harg8 arg9 harg9 hc0 hc1 x0 x1 x2 = k1_pay2 (k1_pay8 x0 x1 (k1_pay4 (F := F))) := by
  unfold sout1_A_0
  rw [View.read_writes_eq_canon _ _ _ (scover1_A_0 c i arg3 harg3 arg4 harg4 arg5 harg5 arg6 harg6 arg7 harg7 arg8 harg8 arg9 harg9 hc0 hc1 x0 x1 x2)]
  unfold kernelRun1_A
  dsimp only
  sl_unfold_words
  rw [View.canon_cons_unit_zero (S := S1024x1) pieces1_off2]
  simp only [View.readAt_eq_ld, harg3.read_unread, harg4.read_unread, harg5.read_unread, harg7.read_unread, harg8.read_unread, harg9.read_unread,
    View.ld_unit_zero (S := S1024x1) pieces1_off2, View.ld_unit_zero (S := S1024x64) pieces1_off2, View.ld_unit_zero (S := S1x1024x64) pieces1_off3, View.ld_unit_zero (S := S1x2048x64) pieces1_off3,
    View.readCov_unit_zero (S := S1024x1) _ pieces1_off2, View.readCov_unit_zero (S := S1024x64) _ pieces1_off2]
theorem sout1_A_1_eq (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (x0 : Vec F S1x1024x64 .bf16) (x1 : Vec F S1x2048x64 .bf16) (x2 : Vec F S1x2048x64 .bf16) :
    sout1_A_1 c i arg3 harg3 arg4 harg4 arg5 harg5 arg6 harg6 arg7 harg7 arg8 harg8 arg9 harg9 hc0 hc1 x0 x1 x2 = k1_pay11 x0 x1 (k1_pay4 (F := F)) (k1_pay5 (F := F)) := by
  unfold sout1_A_1
  rw [View.read_writes_eq_canon _ _ _ (scover1_A_1 c i arg3 harg3 arg4 harg4 arg5 harg5 arg6 harg6 arg7 harg7 arg8 harg8 arg9 harg9 hc0 hc1 x0 x1 x2)]
  unfold kernelRun1_A
  dsimp only
  sl_unfold_words
  rw [View.canon_cons_unit_zero (S := S1024x1) pieces1_off2]
  simp only [View.readAt_eq_ld, harg3.read_unread, harg4.read_unread, harg5.read_unread, harg7.read_unread, harg8.read_unread, harg9.read_unread,
    View.ld_unit_zero (S := S1024x1) pieces1_off2, View.ld_unit_zero (S := S1024x64) pieces1_off2, View.ld_unit_zero (S := S1x1024x64) pieces1_off3, View.ld_unit_zero (S := S1x2048x64) pieces1_off3,
    View.readCov_unit_zero (S := S1024x1) _ pieces1_off2, View.readCov_unit_zero (S := S1024x64) _ pieces1_off2]
theorem sout1_A_2_eq (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (x0 : Vec F S1x1024x64 .bf16) (x1 : Vec F S1x2048x64 .bf16) (x2 : Vec F S1x2048x64 .bf16) :
    sout1_A_2 c i arg3 harg3 arg4 harg4 arg5 harg5 arg6 harg6 arg7 harg7 arg8 harg8 arg9 harg9 hc0 hc1 x0 x1 x2
      = k1_pay1 (k1_pay12 x0 x1 x2 (k1_pay4 (F := F))) (k1_pay13 x0 x1 (k1_pay4 (F := F)) (k1_pay6 (F := F))) := by
  unfold sout1_A_2
  rw [View.read_writes_eq_canon _ _ _ (scover1_A_2 c i arg3 harg3 arg4 harg4 arg5 harg5 arg6 harg6 arg7 harg7 arg8 harg8 arg9 harg9 hc0 hc1 x0 x1 x2)]
  unfold kernelRun1_A
  dsimp only
  sl_unfold_words
  rw [View.canon_cons_unit_zero (S := S1024x64) pieces1_off2]
  simp only [View.readAt_eq_ld, harg3.read_unread, harg4.read_unread, harg5.read_unread, harg7.read_unread, harg8.read_unread, harg9.read_unread,
    View.ld_unit_zero (S := S1024x1) pieces1_off2, View.ld_unit_zero (S := S1024x64) pieces1_off2, View.ld_unit_zero (S := S1x1024x64) pieces1_off3, View.ld_unit_zero (S := S1x2048x64) pieces1_off3,
    View.readCov_unit_zero (S := S1024x1) _ pieces1_off2, View.readCov_unit_zero (S := S1024x64) _ pieces1_off2]

/-! ## An odd point -/

theorem sout1_B_0_eq (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (x0 : Vec F S1x1024x64 .bf16) (x1 : Vec F S1x2048x64 .bf16) (x2 : Vec F S1x2048x64 .bf16) (xs0 : Vec F S1024x1 .f32) (xs1 : Vec F S1024x1 .f32) (xs2 : Vec F S1024x64 .f32) :
    sout1_B_0 c i arg3 harg3 arg4 harg4 arg5 harg5 arg6 harg6 arg7 harg7 arg8 harg8 arg9 harg9 hc0 hc1 x0 x1 x2 xs0 xs1 xs2 = k1_pay2 (k1_pay8 x0 x1 xs0) := by
  unfold sout1_B_0
  rw [View.read_writes_eq_canon _ _ _ (scover1_B_0 c i arg3 harg3 arg4 harg4 arg5 harg5 arg6 harg6 arg7 harg7 arg8 harg8 arg9 harg9 hc0 hc1 x0 x1 x2 xs0 xs1 xs2)]
  unfold kernelRun1_B
  dsimp only
  sl_unfold_words
  rw [View.canon_unit_zero (S := S1024x1) pieces1_off2]
  simp only [View.readAt_eq_ld, harg3.read_unread, harg4.read_unread, harg5.read_unread, harg7.read_unread, harg8.read_unread, harg9.read_unread,
    View.ld_unit_zero (S := S1024x1) pieces1_off2, View.ld_unit_zero (S := S1024x64) pieces1_off2, View.ld_unit_zero (S := S1x1024x64) pieces1_off3, View.ld_unit_zero (S := S1x2048x64) pieces1_off3]
theorem sout1_B_1_eq (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (x0 : Vec F S1x1024x64 .bf16) (x1 : Vec F S1x2048x64 .bf16) (x2 : Vec F S1x2048x64 .bf16) (xs0 : Vec F S1024x1 .f32) (xs1 : Vec F S1024x1 .f32) (xs2 : Vec F S1024x64 .f32) :
    sout1_B_1 c i arg3 harg3 arg4 harg4 arg5 harg5 arg6 harg6 arg7 harg7 arg8 harg8 arg9 harg9 hc0 hc1 x0 x1 x2 xs0 xs1 xs2 = k1_pay11 x0 x1 xs0 xs1 := by
  unfold sout1_B_1
  rw [View.read_writes_eq_canon _ _ _ (scover1_B_1 c i arg3 harg3 arg4 harg4 arg5 harg5 arg6 harg6 arg7 harg7 arg8 harg8 arg9 harg9 hc0 hc1 x0 x1 x2 xs0 xs1 xs2)]
  unfold kernelRun1_B
  dsimp only
  sl_unfold_words
  rw [View.canon_unit_zero (S := S1024x1) pieces1_off2]
  simp only [View.readAt_eq_ld, harg3.read_unread, harg4.read_unread, harg5.read_unread, harg7.read_unread, harg8.read_unread, harg9.read_unread,
    View.ld_unit_zero (S := S1024x1) pieces1_off2, View.ld_unit_zero (S := S1024x64) pieces1_off2, View.ld_unit_zero (S := S1x1024x64) pieces1_off3, View.ld_unit_zero (S := S1x2048x64) pieces1_off3]
theorem sout1_B_2_eq (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (x0 : Vec F S1x1024x64 .bf16) (x1 : Vec F S1x2048x64 .bf16) (x2 : Vec F S1x2048x64 .bf16) (xs0 : Vec F S1024x1 .f32) (xs1 : Vec F S1024x1 .f32) (xs2 : Vec F S1024x64 .f32) :
    sout1_B_2 c i arg3 harg3 arg4 harg4 arg5 harg5 arg6 harg6 arg7 harg7 arg8 harg8 arg9 harg9 hc0 hc1 x0 x1 x2 xs0 xs1 xs2 = k1_pay1 (k1_pay12 x0 x1 x2 xs0) (k1_pay13 x0 x1 xs0 xs2) := by
  unfold sout1_B_2
  rw [View.read_writes_eq_canon _ _ _ (scover1_B_2 c i arg3 harg3 arg4 harg4 arg5 harg5 arg6 harg6 arg7 harg7 arg8 harg8 arg9 harg9 hc0 hc1 x0 x1 x2 xs0 xs1 xs2)]
  unfold kernelRun1_B
  dsimp only
  sl_unfold_words
  rw [View.canon_unit_zero (S := S1024x64) pieces1_off2]
  simp only [View.readAt_eq_ld, harg3.read_unread, harg4.read_unread, harg5.read_unread, harg7.read_unread, harg8.read_unread, harg9.read_unread,
    View.ld_unit_zero (S := S1024x1) pieces1_off2, View.ld_unit_zero (S := S1024x64) pieces1_off2, View.ld_unit_zero (S := S1x1024x64) pieces1_off3, View.ld_unit_zero (S := S1x2048x64) pieces1_off3]
theorem out1_B_3_eq (c : Dev nD) (i : grid1.Coords) (arg3 : Memref sig .tc .vmem S1x1024x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (x0 : Vec F S1x1024x64 .bf16) (x1 : Vec F S1x2048x64 .bf16) (x2 : Vec F S1x2048x64 .bf16) (xs0 : Vec F S1024x1 .f32) (xs1 : Vec F S1024x1 .f32) (xs2 : Vec F S1024x64 .f32) :
    out1_B_3 c i arg3 harg3 arg4 harg4 arg5 harg5 arg6 harg6 arg7 harg7 arg8 harg8 arg9 harg9 hc0 hc1 x0 x1 x2 xs0 xs1 xs2
      = k1_pay3 (k1_pay1 (k1_pay12 x0 x1 x2 xs0) (k1_pay13 x0 x1 xs0 xs2)) (k1_pay11 x0 x1 xs0 xs1) := by
  unfold out1_B_3
  rw [View.read_writes_eq_canon _ _ _ (cover1_B_3 c i arg3 harg3 arg4 harg4 arg5 harg5 arg6 harg6 arg7 harg7 arg8 harg8 arg9 harg9 hc0 hc1 x0 x1 x2 xs0 xs1 xs2)]
  unfold kernelRun1_B
  dsimp only
  sl_unfold_words
  rw [View.canon_unit_zero (S := S1x1024x64) pieces1_off3]
  simp only [View.readAt_eq_ld, harg3.read_unread, harg4.read_unread, harg5.read_unread, harg7.read_unread, harg8.read_unread, harg9.read_unread,
    View.ld_unit_zero (S := S1024x1) pieces1_off2, View.ld_unit_zero (S := S1024x64) pieces1_off2, View.ld_unit_zero (S := S1x1024x64) pieces1_off3, View.ld_unit_zero (S := S1x2048x64) pieces1_off3,
    View.readCov_unit_zero (S := S1024x1) _ pieces1_off2, View.readCov_unit_zero (S := S1024x64) _ pieces1_off2]

end Cert.KernelIdeal.Hand

end
-- ==== Proof.Value1Step.lean ====
/-
  One odd grid point of the attention region, t = (b·4 + qi)·2 + 1, row r of the query block, coordinate c: what the
  body leaves in the output block is the kernel's online-softmax row for query qi·1024 + r of batch b — the even point
  before it folded key rows 0 … 2047 into (−∞, 0, 0), this point folds rows 2048 … 4095 into that and divides.
-/
import proofs.«402268_j81295140979317_3_alg».proof.Proof.FrameI.Reg1
import proofs.«402268_j81295140979317_3_alg».proof.Proof.Pieces1
import proofs.«402268_j81295140979317_3_alg».proof.Proof.PayIdeal
import proofs.«402268_j81295140979317_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-! ## The block index of each window at a grid point, decided over the grid -/

theorem idx1_0 : ∀ t : Fin cfg1.N, win1_0.index t (0 : Fin 3) = t.val / 8 ∧ win1_0.index t (1 : Fin 3) = t.val / 2 % 4 ∧ win1_0.index t (2 : Fin 3) = 0 :=
  (by decide +kernel : ∀ t : Fin grid1.N, _)
theorem idx1_1 : ∀ t : Fin cfg1.N, win1_1.index t (0 : Fin 3) = t.val / 8 ∧ win1_1.index t (1 : Fin 3) = t.val % 2 ∧ win1_1.index t (2 : Fin 3) = 0 :=
  (by decide +kernel : ∀ t : Fin grid1.N, _)
theorem idx1_2 : ∀ t : Fin cfg1.N, win1_2.index t (0 : Fin 3) = t.val / 8 ∧ win1_2.index t (1 : Fin 3) = t.val % 2 ∧ win1_2.index t (2 : Fin 3) = 0 :=
  (by decide +kernel : ∀ t : Fin grid1.N, _)
theorem idx1_3 : ∀ t : Fin cfg1.N, win1_3.index t (0 : Fin 3) = t.val / 8 ∧ win1_3.index t (1 : Fin 3) = t.val / 2 % 4 ∧ win1_3.index t (2 : Fin 3) = 0 :=
  (by decide +kernel : ∀ t : Fin grid1.N, _)

/-! ## The blocks the region finds, by coordinates -/

/-- The query, key and value blocks of a point, as vectors of their literal shapes. -/
abbrev qblk (c : Dev nD) (t : Fin cfg1.N) : Vec Ideal S1x1024x64 .bf16 := iblk1 V c 0 t
abbrev kblk (c : Dev nD) (t : Fin cfg1.N) : Vec Ideal S1x2048x64 .bf16 := iblk1 V c 1 t
abbrev vblk (c : Dev nD) (t : Fin cfg1.N) : Vec Ideal S1x2048x64 .bf16 := iblk1 V c 2 t

/-- Row r of the query block of point t is row (t / 2 % 4) · 1024 + r of batch t / 8. -/
theorem qblk_apply (c : Dev nD) (t : Fin cfg1.N) (r : Fin 1024) (d : Fin 64) (b : Fin 4) (i : Fin 4096)
    (hb : b.val = t.val / 8) (hi : i.val = t.val / 2 % 4 * 1024 + r.val) :
    qblk V c t (ix3 (0 : Fin 1) r d) = (V c main_v3_0 : S4x4096x64.Idx → EReal) (ix3 b i d) := by
  obtain ⟨e0, e1, e2⟩ := idx1_0 t
  unfold qblk iblk1
  rw [View.read_apply]
  show V c main_v3_0 _ = V c main_v3_0 _
  congr 1
  funext a
  apply Fin.ext
  match a with
  | ⟨0, _⟩ => show win1_0.index t (0 : Fin 3) * 1 + 1 * (0 : Fin 1).val = b.val; rw [e0, hb]; simp
  | ⟨1, _⟩ => show win1_0.index t (1 : Fin 3) * 1024 + 1 * r.val = i.val; rw [e1, hi]; omega
  | ⟨2, _⟩ => show win1_0.index t (2 : Fin 3) * 64 + 1 * d.val = d.val; rw [e2]; omega

/-- Row j of the key block of point t is row (t % 2) · 2048 + j of batch t / 8. -/
theorem kblk_apply (c : Dev nD) (t : Fin cfg1.N) (j : Fin 2048) (d : Fin 64) (b : Fin 4) (i : Fin 4096)
    (hb : b.val = t.val / 8) (hi : i.val = t.val % 2 * 2048 + j.val) :
    kblk V c t (ix3 (0 : Fin 1) j d) = (V c main_v3_1 : S4x4096x64.Idx → EReal) (ix3 b i d) := by
  obtain ⟨e0, e1, e2⟩ := idx1_1 t
  unfold kblk iblk1
  rw [View.read_apply]
  show V c main_v3_1 _ = V c main_v3_1 _
  congr 1
  funext a
  apply Fin.ext
  match a with
  | ⟨0, _⟩ => show win1_1.index t (0 : Fin 3) * 1 + 1 * (0 : Fin 1).val = b.val; rw [e0, hb]; simp
  | ⟨1, _⟩ => show win1_1.index t (1 : Fin 3) * 2048 + 1 * j.val = i.val; rw [e1, hi]; omega
  | ⟨2, _⟩ => show win1_1.index t (2 : Fin 3) * 64 + 1 * d.val = d.val; rw [e2]; omega

/-- Row j of the value block of point t is row (t % 2) · 2048 + j of batch t / 8. -/
theorem vblk_apply (c : Dev nD) (t : Fin cfg1.N) (j : Fin 2048) (d : Fin 64) (b : Fin 4) (i : Fin 4096)
    (hb : b.val = t.val / 8) (hi : i.val = t.val % 2 * 2048 + j.val) :
    vblk V c t (ix3 (0 : Fin 1) j d) = (V c main_v3_2 : S4x4096x64.Idx → EReal) (ix3 b i d) := by
  obtain ⟨e0, e1, e2⟩ := idx1_2 t
  unfold vblk iblk1
  rw [View.read_apply]
  show V c main_v3_2 _ = V c main_v3_2 _
  congr 1
  funext a
  apply Fin.ext
  match a with
  | ⟨0, _⟩ => show win1_2.index t (0 : Fin 3) * 1 + 1 * (0 : Fin 1).val = b.val; rw [e0, hb]; simp
  | ⟨1, _⟩ => show win1_2.index t (1 : Fin 3) * 2048 + 1 * j.val = i.val; rw [e1, hi]; omega
  | ⟨2, _⟩ => show win1_2.index t (2 : Fin 3) * 64 + 1 * d.val = d.val; rw [e2]; omega

/-! ## The closing point's payload over the reset point's, at an entry -/

/-- Numerator over sum after two tiles from (−∞, 0, 0): the closing point's payload, over the scratches the reset point
    leaves, read at row r and coordinate cc. -/
theorem odd_pay (q0 q1 : Vec Ideal S1x1024x64 .bf16) (k0 v0 k1 v1 : Vec Ideal S1x2048x64 .bf16) (r : Fin 1024) (cc : Fin 64) :
    k1_pay3 (F := Ideal)
        (k1_pay1 (k1_pay12 q1 k1 v1 (k1_pay2 (k1_pay8 q0 k0 (k1_pay4 (F := Ideal)))))
          (k1_pay13 q1 k1 (k1_pay2 (k1_pay8 q0 k0 (k1_pay4 (F := Ideal))))
            (k1_pay1 (k1_pay12 q0 k0 v0 (k1_pay4 (F := Ideal))) (k1_pay13 q0 k0 (k1_pay4 (F := Ideal)) (k1_pay6 (F := Ideal))))))
        (k1_pay11 q1 k1 (k1_pay2 (k1_pay8 q0 k0 (k1_pay4 (F := Ideal)))) (k1_pay11 q0 k0 (k1_pay4 (F := Ideal)) (k1_pay5 (F := Ideal))))
        (ix3 (0 : Fin 1) r cc)
      = Ideal.div
          (stepA (Pay.sc q1 k1 r) (fun j => v1 (ix3 (0 : Fin 1) j cc)) (stepM (Pay.sc q0 k0 r) ⊥)
            (stepA (Pay.sc q0 k0 r) (fun j => v0 (ix3 (0 : Fin 1) j cc)) ⊥ 0))
          (stepL (Pay.sc q1 k1 r) (stepM (Pay.sc q0 k0 r) ⊥) (stepL (Pay.sc q0 k0 r) ⊥ 0)) := by
  rw [Pay.pay1_o, Pay.pay1_a, Pay.pay1_l, Pay.pay1_m, Pay.pay1_l, Pay.pay1_a, Pay.pay1_m0, Pay.pay1_l0, Pay.pay1_a0]

/-! ## The output block after an odd point, as payloads of the two points' blocks -/

/-- The even point before an odd one. -/
abbrev predPt (t : Fin cfg1.N) : Fin cfg1.N := ⟨t.val - 1, Nat.lt_of_le_of_lt (Nat.sub_le _ _) t.isLt⟩

/-- What the output block holds after an odd point: the closing payload of that point's blocks over the scratches the
    even point before it left, which are the reset payloads of that point's blocks. -/
theorem out_odd (c : Dev nD) (t : Fin cfg1.N) (h1 : t.val % 2 = 1) :
    (outsAt1 V c t.val t.isLt).1
      = k1_pay3 (F := Ideal)
        (k1_pay1 (k1_pay12 (qblk V c t) (kblk V c t) (vblk V c t) (k1_pay2 (k1_pay8 (qblk V c (predPt t)) (kblk V c (predPt t)) (k1_pay4 (F := Ideal)))))
          (k1_pay13 (qblk V c t) (kblk V c t) (k1_pay2 (k1_pay8 (qblk V c (predPt t)) (kblk V c (predPt t)) (k1_pay4 (F := Ideal))))
            (k1_pay1 (k1_pay12 (qblk V c (predPt t)) (kblk V c (predPt t)) (vblk V c (predPt t)) (k1_pay4 (F := Ideal)))
              (k1_pay13 (qblk V c (predPt t)) (kblk V c (predPt t)) (k1_pay4 (F := Ideal)) (k1_pay6 (F := Ideal))))))
        (k1_pay11 (qblk V c t) (kblk V c t) (k1_pay2 (k1_pay8 (qblk V c (predPt t)) (kblk V c (predPt t)) (k1_pay4 (F := Ideal))))
          (k1_pay11 (qblk V c (predPt t)) (kblk V c (predPt t)) (k1_pay4 (F := Ideal)) (k1_pay5 (F := Ideal)))) := by
  have h0 : (predPt t).val % 2 = 0 := by show (t.val - 1) % 2 = 0; omega
  rw [outsAt1_B V c t h1]
  unfold caseB
  dsimp only
  rw [out1_B_3_eq]
  rw [outsAt1_A V c (predPt t) h0]
  unfold caseA
  dsimp only
  rw [sout1_A_0_eq, sout1_A_1_eq, sout1_A_2_eq]

/-! ## The scores and values of the two tiles, by coordinates -/

/-- The scores of row r of an odd point's query block against its key tile: the second tile's scores of the array row. -/
theorem sc_odd (c : Dev nD) (t : Fin cfg1.N) (h1 : t.val % 2 = 1) (r : Fin 1024) (b : Fin 4) (i : Fin 4096)
    (hb : b.val = t.val / 8) (hi : i.val = t.val / 2 % 4 * 1024 + r.val) :
    Pay.sc (qblk V c t) (kblk V c t) r
      = fun j => sK (arr3 (n0 := 4) (n1 := 4096) (n2 := 64) (V c main_v3_0)) (arr3 (n0 := 4) (n1 := 4096) (n2 := 64) (V c main_v3_1)) b i (tile 1 j) := by
  funext j
  unfold Pay.sc sK arr3
  refine Finset.sum_congr rfl fun d _ => ?_
  rw [qblk_apply V c t r d b i hb hi, kblk_apply V c t j d b (tile 1 j) hb (by show (1 : Fin 2).val * 2048 + j.val = _; rw [h1]; rfl)]

/-- The same row against the key tile of the even point before: the first tile's scores. -/
theorem sc_even (c : Dev nD) (t : Fin cfg1.N) (h1 : t.val % 2 = 1) (r : Fin 1024) (b : Fin 4) (i : Fin 4096)
    (hb : b.val = t.val / 8) (hi : i.val = t.val / 2 % 4 * 1024 + r.val) :
    Pay.sc (qblk V c (predPt t)) (kblk V c (predPt t)) r
      = fun j => sK (arr3 (n0 := 4) (n1 := 4096) (n2 := 64) (V c main_v3_0)) (arr3 (n0 := 4) (n1 := 4096) (n2 := 64) (V c main_v3_1)) b i (tile 0 j) := by
  have hp : (predPt t).val = t.val - 1 := rfl
  funext j
  unfold Pay.sc sK arr3
  refine Finset.sum_congr rfl fun d _ => ?_
  rw [qblk_apply V c (predPt t) r d b i (by rw [hp, hb]; omega) (by rw [hp, hi]; omega),
    kblk_apply V c (predPt t) j d b (tile 0 j) (by rw [hp, hb]; omega) (by show (0 : Fin 2).val * 2048 + j.val = _; rw [hp, show (t.val - 1) % 2 = 0 from by omega]; rfl)]

/-- Coordinate cc of an odd point's value tile: the second tile of the array's values. -/
theorem v_odd (c : Dev nD) (t : Fin cfg1.N) (h1 : t.val % 2 = 1) (cc : Fin 64) (b : Fin 4) (hb : b.val = t.val / 8) :
    (fun j : Fin 2048 => vblk V c t (ix3 (0 : Fin 1) j cc))
      = fun j => arr3 (n0 := 4) (n1 := 4096) (n2 := 64) (V c main_v3_2) b (tile 1 j) cc := by
  funext j
  unfold arr3
  exact vblk_apply V c t j cc b (tile 1 j) hb (by show (1 : Fin 2).val * 2048 + j.val = _; rw [h1]; rfl)

/-- And of the even point before: the first tile. -/
theorem v_even (c : Dev nD) (t : Fin cfg1.N) (h1 : t.val % 2 = 1) (cc : Fin 64) (b : Fin 4) (hb : b.val = t.val / 8) :
    (fun j : Fin 2048 => vblk V c (predPt t) (ix3 (0 : Fin 1) j cc))
      = fun j => arr3 (n0 := 4) (n1 := 4096) (n2 := 64) (V c main_v3_2) b (tile 0 j) cc := by
  have hp : (predPt t).val = t.val - 1 := rfl
  funext j
  unfold arr3
  exact vblk_apply V c (predPt t) j cc b (tile 0 j) (by rw [hp, hb]; omega) (by show (0 : Fin 2).val * 2048 + j.val = _; rw [hp, show (t.val - 1) % 2 = 0 from by omega]; rfl)

/-! ## The output block after an odd point, at an entry -/

/-- Row r, coordinate cc of the output block after the odd point t: the two-tile online-softmax row of query
    (t / 2 % 4) · 1024 + r of batch t / 8. -/
theorem after3_odd (c : Dev nD) (t : Fin cfg1.N) (h1 : t.val % 2 = 1) (r : Fin 1024) (cc : Fin 64) :
    (dat1 (F := Ideal) V c).after 3 t (ix3 (0 : Fin 1) r cc)
      = flash (fun j => sK (arr3 (n0 := 4) (n1 := 4096) (n2 := 64) (V c main_v3_0)) (arr3 (n0 := 4) (n1 := 4096) (n2 := 64) (V c main_v3_1))
            (⟨t.val / 8, by have := t.isLt; have hN : cfg1.N = 32 := N_1; omega⟩ : Fin 4) (⟨(t.val / 2 % 4) * 1024 + r.val, by omega⟩ : Fin 4096) j)
          (fun j => arr3 (n0 := 4) (n1 := 4096) (n2 := 64) (V c main_v3_2) (⟨t.val / 8, by have := t.isLt; have hN : cfg1.N = 32 := N_1; omega⟩ : Fin 4) j cc) := by
  rw [after1_3, out_odd V c t h1, odd_pay]
  rw [sc_odd V c t h1 r ⟨t.val / 8, by have := t.isLt; have hN : cfg1.N = 32 := N_1; omega⟩ ⟨(t.val / 2 % 4) * 1024 + r.val, by omega⟩ rfl rfl,
    sc_even V c t h1 r ⟨t.val / 8, by have := t.isLt; have hN : cfg1.N = 32 := N_1; omega⟩ ⟨(t.val / 2 % 4) * 1024 + r.val, by omega⟩ rfl rfl,
    v_odd V c t h1 cc ⟨t.val / 8, by have := t.isLt; have hN : cfg1.N = 32 := N_1; omega⟩ rfl,
    v_even V c t h1 cc ⟨t.val / 8, by have := t.isLt; have hN : cfg1.N = 32 := N_1; omega⟩ rfl]
  rfl

end Cert.KernelIdeal.Hand

end
-- ==== Proof.Value1Array.lean ====
/-
  The result array after region 1, entry (b, i, c): the kernel's row of online softmax — two tiles of keys folded from
  (−∞, 0, 0), numerator over sum — over the scores of query i of batch b against that batch's keys, weighting its
  values' coordinate c; the queries, keys and values being the three arrays the region finds.
  Query i lies in block qi = i / 1024 at row i % 1024; the block is written back at the odd point
  t = (b·4 + qi)·2 + 1, whose key and value tiles are rows 2048 … 4095, the even point before it having folded rows
  0 … 2047.
-/
import proofs.«402268_j81295140979317_3_alg».proof.Proof.FrameI.Reg1
import proofs.«402268_j81295140979317_3_alg».proof.Proof.Value1Step
import proofs.«402268_j81295140979317_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- The kernel's row of online softmax, by the result array's coordinates. -/
def outRow (c : Dev nD) : Fin 4 → Fin 4096 → Fin 64 → EReal := fun b i cc =>
  flash (fun j => sK (arr3 (n0 := 4) (n1 := 4096) (n2 := 64) (V c main_v3_0)) (arr3 (n0 := 4) (n1 := 4096) (n2 := 64) (V c main_v3_1)) b i j)
    (fun j => arr3 (n0 := 4) (n1 := 4096) (n2 := 64) (V c main_v3_2) b j cc)

/-- Entry (0, r, cc) of the block of point t lies at (t / 8, (t / 2 % 4)·1024 + r, cc) of the array: a block's
    coordinate is its index times its size plus the coordinate inside. -/
theorem out_block_emb (t : Fin cfg1.N) (r : Fin 1024) (cc : Fin 64) :
    ((cfg1.win 3).blk t).view.emb (ix3 (0 : Fin 1) r cc)
      = ix3 (⟨t.val / 8, by have := t.isLt; have hN : cfg1.N = 32 := N_1; omega⟩ : Fin 4) (⟨(t.val / 2 % 4) * 1024 + r.val, by omega⟩ : Fin 4096) cc := by
  obtain ⟨e0, e1, e2⟩ := idx1_3 t
  funext a; apply Fin.ext
  match a with
  | ⟨0, _⟩ => show win1_3.index t (0 : Fin 3) * 1 + 1 * (0 : Fin 1).val = t.val / 8; rw [e0]; simp
  | ⟨1, _⟩ => show win1_3.index t (1 : Fin 3) * 1024 + 1 * r.val = (t.val / 2 % 4) * 1024 + r.val; omega
  | ⟨2, _⟩ => show win1_3.index t (2 : Fin 3) * 64 + 1 * cc.val = cc.val; omega

/-- What an odd point leaves in the output block, entry by entry, is the row function at the entry's place in the array. -/
theorem after3_at (c : Dev nD) (t : Fin cfg1.N) (h1 : t.val % 2 = 1) (r : Fin 1024) (cc : Fin 64) :
    (dat1 (F := Ideal) V c).after 3 t (ix3 (0 : Fin 1) r cc)
      = unarr3 (n0 := 4) (n1 := 4096) (n2 := 64) (outRow V c) (((cfg1.win 3).blk t).view.emb (ix3 (0 : Fin 1) r cc)) := by
  rw [out_block_emb t r cc, unarr3_ix3]
  exact after3_odd V c t h1 r cc

/-- WHAT AN ODD POINT WRITES BACK is its block of the row function. -/
theorem flushed3_eq (c : Dev nD) (t : Fin cfg1.N) (hf : (cfg1.win 3).flush t = true) :
    (dat1 (F := Ideal) V c).flushed 3 t = ((cfg1.win 3).blk t).view.read (Elt Ideal) (unarr3 (n0 := 4) (n1 := 4096) (n2 := 64) (outRow V c)) := by
  have h1 : t.val % 2 = 1 := (flush1_3 t).mp hf
  show (cfg1.win 3).cut (grid1.coords t) ((dat1 (F := Ideal) V c).after 3 t) = _
  funext y
  have hy : y = ix3 (0 : Fin 1) (y 1) (y 2) := by
    funext a
    match a with
    | ⟨0, _⟩ => exact Subsingleton.elim (α := Fin 1) _ _
    | ⟨1, _⟩ => rfl
    | ⟨2, _⟩ => rfl
  rw [hy]
  exact after3_at V c t h1 (y 1) (y 2)

/-- An index of the array is in point t's block iff each coordinate is in the block's range on its axis. -/
theorem mem_blk3 (t : Fin cfg1.N) (i : S4x4096x64.Idx) :
    i ∈ ((cfg1.win 3).blk t).view.set ↔ ∀ a : Fin 3, win1_3.index t a * S1x1024x64.size a ≤ (i a).val ∧ (i a).val < win1_3.index t a * S1x1024x64.size a + S1x1024x64.size a := by
  show i ∈ ((View.whole main_v4).slice (win1_3.rect t)).set ↔ _
  rw [View.set_slice_whole, Rect.mem_set_unit]
  exact Iff.rfl

/-- Every entry (b, i, cc) of the array is in the block some odd point writes back: the point (b·4 + i / 1024)·2 + 1. -/
theorem cover3 (i : S4x4096x64.Idx) : ∃ t : Fin cfg1.N, (cfg1.win 3).flush t = true ∧ i ∈ ((cfg1.win 3).blk t).view.set := by
  have hN : cfg1.N = 32 := N_1
  have hi0 : (i 0).val < 4 := (i 0).isLt
  have hi1 : (i 1).val < 4096 := (i 1).isLt
  have hi2 : (i 2).val < 64 := (i 2).isLt
  obtain ⟨t, ht⟩ : ∃ t : Fin cfg1.N, t.val = ((i 0).val * 4 + (i 1).val / 1024) * 2 + 1 := ⟨⟨_, by omega⟩, rfl⟩
  obtain ⟨e0, e1, e2⟩ := idx1_3 t
  refine ⟨t, (flush1_3 t).mpr (by omega), ?_⟩
  rw [mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 64 ≤ (i 2).val ∧ (i 2).val < win1_3.index t (2 : Fin 3) * 64 + 64; omega

/-- THE ARRAY after the region: the odd points' blocks tile it, so it ends holding the row function everywhere. -/
theorem final3 (c : Dev nD) : (dat1 (F := Ideal) V c).arrAt 3 cfg1.N = unarr3 (n0 := 4) (n1 := 4096) (n2 := 64) (outRow V c) :=
  (dat1 (F := Ideal) V c).arrAt_eq_of_cover 3 (unarr3 (n0 := 4) (n1 := 4096) (n2 := 64) (outRow V c)) (fun t hf => flushed3_eq V c t hf) (fun i => cover3 i)

theorem out_array (c : Dev nD) (b : Fin 4) (i : Fin 4096) (cc : Fin 64) :
    arr3 (n0 := 4) (n1 := 4096) (n2 := 64) ((dat1 (F := Ideal) V c).arrAt 3 cfg1.N) b i cc
      = flash (fun j => sK (arr3 (n0 := 4) (n1 := 4096) (n2 := 64) (V c main_v3_0)) (arr3 (n0 := 4) (n1 := 4096) (n2 := 64) (V c main_v3_1)) b i j)
          (fun j => arr3 (n0 := 4) (n1 := 4096) (n2 := 64) (V c main_v3_2) b j cc) := by
  show (dat1 (F := Ideal) V c).arrAt 3 cfg1.N (ix3 b i cc) = _
  exact congrFun (final3 V c) (ix3 b i cc)

end Cert.KernelIdeal.Hand

end
-- ==== Proof.HostW.lean ====
/-
  The stacked weight matrix the host stretch leaves for region 0: rows 0–63 the query weights times 2⁻³, rows 64–127
  the key weights, rows 128–191 the value weights.
-/
import proofs.«402268_j81295140979317_3_alg».proof.Proof.Gen.KernelIdeal.Launch
import proofs.«402268_j81295140979317_3_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (m : (ℓ : Loc nD τ sig) → Buf (Elt Ideal) ℓ)

/-- A three-operand host operation's result: the function applied to the three operands' contents, each read at its
    own reference. -/
theorem nary3_result {x a b y : Ref sig .tc} {Val : EltTy → Type}
    (f : ((k : Fin 3) → ((![x, a, b] : Fin 3 → Ref sig .tc) k).ty.Contents Val) → y.ty.Contents Val) (hxs hy)
    (V : Valuation τ sig Val) :
    (StableHlo.nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl

/-- The stacked matrix as one term over the launch contents: the fold over the four operations is unfolded, the
    concatenation is read with its three operands at their own references, and each earlier operation is read at its
    result reference (and passed over at every other one). What is left is the concatenation of
    (query weights · broadcast constant), key weights, value weights. -/
local macro "stack_contents" : tactic =>
  `(tactic| (simp only [arr2, hostOps0, StableHlo.after_cons, StableHlo.after_nil]
             rw [nary3_result]
             repeat (first
               | rw [StableHlo.binary_result] | rw [StableHlo.unary_result] | rw [StableHlo.nullary_result]
               | (rw [StableHlo.binary_result_ne]; rotate_left; decide)
               | (rw [StableHlo.unary_result_ne]; rotate_left; decide)
               | (rw [StableHlo.nullary_result_ne]; rotate_left; decide))))

/-- Rows 0–63: row d of the stack lies in the first piece (0 ≤ d < 64), where the entry is the query weight times the
    constant broadcast to every index. -/
theorem hostW_q (c : Dev nD) (d : Fin 64) (e : Fin 512) :
    arr2 (n0 := 192) (n1 := 512) (StableHlo.after (hostOps0 (F := Ideal)) (fun b => m (c, b)) (Proc.devRef .tc main_v2)) (⟨d.val, by omega⟩ : Fin 192) e
      = arr2 (n0 := 64) (n1 := 512) (m ((c : Thread nD τ).loc main_arg1)) d e * c8 := by
  stack_contents
  refine (concatenate_apply_piece (0 : Fin S192x512.rank) _ _ _ 0 (by simp) S64x512 _ rfl rfl 0 rfl (ix2 d e) ?_ ?_).trans ?_
  · intro b hb
    fin_cases b
    · exact absurd rfl hb
    · rfl
  · exact Nat.zero_add _
  · show mulf _ _ (ix2 d e) = _
    rw [mulf_apply]
    rfl

/-- Rows 64–127: row 64 + d lies in the second piece (64 rows before it), at its row d. -/
theorem hostW_k (c : Dev nD) (d : Fin 64) (e : Fin 512) :
    arr2 (n0 := 192) (n1 := 512) (StableHlo.after (hostOps0 (F := Ideal)) (fun b => m (c, b)) (Proc.devRef .tc main_v2)) (⟨64 + d.val, by omega⟩ : Fin 192) e
      = arr2 (n0 := 64) (n1 := 512) (m ((c : Thread nD τ).loc main_arg2)) d e := by
  stack_contents
  refine (concatenate_apply_piece (0 : Fin S192x512.rank) _ _ _ 1 (by simp) S64x512 _ rfl rfl 64 rfl (ix2 d e) ?_ ?_).trans ?_
  · intro b hb
    fin_cases b
    · exact absurd rfl hb
    · rfl
  · rfl
  · rfl

/-- Rows 128–191: row 128 + d lies in the third piece (128 rows before it), at its row d. -/
theorem hostW_v (c : Dev nD) (d : Fin 64) (e : Fin 512) :
    arr2 (n0 := 192) (n1 := 512) (StableHlo.after (hostOps0 (F := Ideal)) (fun b => m (c, b)) (Proc.devRef .tc main_v2)) (⟨128 + d.val, by omega⟩ : Fin 192) e
      = arr2 (n0 := 64) (n1 := 512) (m ((c : Thread nD τ).loc main_arg3)) d e := by
  stack_contents
  refine (concatenate_apply_piece (0 : Fin S192x512.rank) _ _ _ 2 (by simp) S64x512 _ rfl rfl 128 rfl (ix2 d e) ?_ ?_).trans ?_
  · intro b hb
    fin_cases b
    · exact absurd rfl hb
    · rfl
  · rfl
  · rfl

end Cert.KernelIdeal.Hand

end
-- ==== Proof.KernelValue.lean ====
/-
  The idealized kernel's result array, entry by entry, is the kernel's arrangement of the specification at the four
  argument arrays: region 1 returns the online-softmax row over the three projected arrays; those are region 0's
  contractions of the input with the stacked weight matrix; and that matrix is the scaled query weights over the key
  weights over the value weights.
-/
import proofs.«402268_j81295140979317_3_alg».proof.Proof.FrameI.Launch
import proofs.«402268_j81295140979317_3_alg».proof.Proof.Value0
import proofs.«402268_j81295140979317_3_alg».proof.Proof.Value1Array
import proofs.«402268_j81295140979317_3_alg».proof.Proof.HostW
import proofs.«402268_j81295140979317_3_alg».proof.Proof.Spec

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (m : (ℓ : Loc nD τ sig) → Buf (Elt Ideal) ℓ) (ρ : Dev nD → PrngReg)

/-- Region 1 finds the three projected arrays at what region 0's write-backs left. -/
theorem VB_q (c : Dev nD) : VB m c main_v3_0 = (dat0 (VA m) c).arrAt 2 cfg0.N := W2_arr m c 2
theorem VB_k (c : Dev nD) : VB m c main_v3_1 = (dat0 (VA m) c).arrAt 3 cfg0.N := W2_arr m c 3
theorem VB_v (c : Dev nD) : VB m c main_v3_2 = (dat0 (VA m) c).arrAt 4 cfg0.N := W2_arr m c 4
/-- Region 0 finds the input as launched. -/
theorem VA_x (c : Dev nD) : VA m c main_arg0 = m ((c : Thread nD τ).loc main_arg0) := W1_of m c main_arg0 (by decide)

/-- The scaled queries, the keys and the values, by coordinates. -/
theorem q_entry (c : Dev nD) (b : Fin 4) (i : Fin 4096) (d : Fin 64) :
    arr3 (n0 := 4) (n1 := 4096) (n2 := 64) (VB m c main_v3_0) b i d
      = proj (arr3 (n0 := 4) (n1 := 4096) (n2 := 512) (m ((c : Thread nD τ).loc main_arg0)))
          (fun d e => arr2 (n0 := 64) (n1 := 512) (m ((c : Thread nD τ).loc main_arg1)) d e * c8) b i d := by
  rw [VB_q m c, q_array (VA m) c b i d, VA_x m c]
  unfold proj
  exact Finset.sum_congr rfl fun e _ => congrArg _ (hostW_q m c d e)
theorem k_entry (c : Dev nD) (b : Fin 4) (i : Fin 4096) (d : Fin 64) :
    arr3 (n0 := 4) (n1 := 4096) (n2 := 64) (VB m c main_v3_1) b i d
      = proj (arr3 (n0 := 4) (n1 := 4096) (n2 := 512) (m ((c : Thread nD τ).loc main_arg0)))
          (arr2 (n0 := 64) (n1 := 512) (m ((c : Thread nD τ).loc main_arg2))) b i d := by
  rw [VB_k m c, k_array (VA m) c b i d, VA_x m c]
  unfold proj
  exact Finset.sum_congr rfl fun e _ => congrArg _ (hostW_k m c d e)
theorem v_entry (c : Dev nD) (b : Fin 4) (i : Fin 4096) (d : Fin 64) :
    arr3 (n0 := 4) (n1 := 4096) (n2 := 64) (VB m c main_v3_2) b i d
      = proj (arr3 (n0 := 4) (n1 := 4096) (n2 := 512) (m ((c : Thread nD τ).loc main_arg0)))
          (arr2 (n0 := 64) (n1 := 512) (m ((c : Thread nD τ).loc main_arg3))) b i d := by
  rw [VB_v m c, v_array (VA m) c b i d, VA_x m c]
  unfold proj
  exact Finset.sum_congr rfl fun e _ => congrArg _ (hostW_v m c d e)

/-- The result array at the last valuation, entry (b, i, c). -/
theorem result_entry (c : Dev nD) (b : Fin 4) (i : Fin 4096) (cc : Fin 64) :
    arr3 (n0 := 4) (n1 := 4096) (n2 := 64) (W3 m c (Proc.devRef .tc main_v4)) b i cc
      = Kout (arr3 (n0 := 4) (n1 := 4096) (n2 := 512) (m ((c : Thread nD τ).loc main_arg0)))
          (arr2 (n0 := 64) (n1 := 512) (m ((c : Thread nD τ).loc main_arg1)))
          (arr2 (n0 := 64) (n1 := 512) (m ((c : Thread nD τ).loc main_arg2)))
          (arr2 (n0 := 64) (n1 := 512) (m ((c : Thread nD τ).loc main_arg3))) b i cc := by
  rw [W3_main_v4 m c, out_array (VB m) c b i cc]
  unfold Kout sK
  have hq : arr3 (n0 := 4) (n1 := 4096) (n2 := 64) (VB m c main_v3_0) = _ := funext fun b => funext fun i => funext fun d => q_entry m c b i d
  have hk : arr3 (n0 := 4) (n1 := 4096) (n2 := 64) (VB m c main_v3_1) = _ := funext fun b => funext fun i => funext fun d => k_entry m c b i d
  have hv : arr3 (n0 := 4) (n1 := 4096) (n2 := 64) (VB m c main_v3_2) = _ := funext fun b => funext fun i => funext fun d => v_entry m c b i d
  rw [hq, hk, hv]

/-- THE VALUE RUN: every weakly fair execution of @main terminates, nothing faulting, with the result array, read by
    coordinates, at the kernel's arrangement of the specification, and the four arguments unchanged. -/
theorem run_value : θ_run defs (onTc (τ := τ) (main (F := Ideal))) ⟨m, fun _ => 0, ρ⟩ (fun r => ∀ c : Dev nD,
      (∀ (b : Fin 4) (i : Fin 4096) (cc : Fin 64),
        arr3 (n0 := 4) (n1 := 4096) (n2 := 64) (r.2.mem ((c.tc : Thread nD τ).loc main_v4)) b i cc
          = Kout (arr3 (n0 := 4) (n1 := 4096) (n2 := 512) (m ((c.tc : Thread nD τ).loc main_arg0)))
              (arr2 (n0 := 64) (n1 := 512) (m ((c.tc : Thread nD τ).loc main_arg1)))
              (arr2 (n0 := 64) (n1 := 512) (m ((c.tc : Thread nD τ).loc main_arg2)))
              (arr2 (n0 := 64) (n1 := 512) (m ((c.tc : Thread nD τ).loc main_arg3))) b i cc)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨fun b i cc => by rw [(h c).1]; exact result_entry m c b i cc, (h c).2⟩) (run_main m ρ)

end Cert.KernelIdeal.Hand

end
-- ==== Proof.RefValue.lean ====
import proofs.«402268_j81295140979317_3_alg».proof.Proof.Spec
import proofs.«402268_j81295140979317_3_alg».proof.Proof.Gen.ReferenceIdeal.Run
import proofs.«402268_j81295140979317_3_alg».proof.Proof.Gen.ReferenceIdeal.Read

noncomputable section

open scoped BigOperators

namespace Cert.RefValue

open Idealize.ShloMosaic Idealize.ShloMosaic.ValueIdx Cert.ReferenceIdeal Cert.Spec

open Cert.ReferenceIdeal.Read Cert.ReferenceIdeal.Gen

/-- The word 0xFF800000 denotes −∞. -/
theorem ofBits_ninf : Ideal.ofBits .f32 0xFF800000#32 = (⊥ : EReal) := by
  simp [Ideal.ofBits, Ideal.ieee]

/-! ## The composed index functions at an index given by coordinates -/

theorem lidx0_ix (b : Fin 4) (i : Fin 4096) (d : Fin 64) (k : Fin 512) :
    lidx_main_v0 (ix3 b i d) k = ix3 b i k :=
  funext fun a => by match a with | ⟨0, _⟩ => rfl | ⟨1, _⟩ => rfl | ⟨2, _⟩ => rfl
theorem ridx0_ix (b : Fin 4) (i : Fin 4096) (d : Fin 64) (k : Fin 512) :
    ridx_main_v0 (ix3 b i d) k = ix2 d k :=
  funext fun a => by match a with | ⟨0, _⟩ => rfl | ⟨1, _⟩ => rfl
theorem lidx1_ix (b : Fin 4) (i : Fin 4096) (d : Fin 64) (k : Fin 512) :
    lidx_main_v1 (ix3 b i d) k = ix3 b i k :=
  funext fun a => by match a with | ⟨0, _⟩ => rfl | ⟨1, _⟩ => rfl | ⟨2, _⟩ => rfl
theorem ridx1_ix (b : Fin 4) (i : Fin 4096) (d : Fin 64) (k : Fin 512) :
    ridx_main_v1 (ix3 b i d) k = ix2 d k :=
  funext fun a => by match a with | ⟨0, _⟩ => rfl | ⟨1, _⟩ => rfl
theorem lidx2_ix (b : Fin 4) (i : Fin 4096) (d : Fin 64) (k : Fin 512) :
    lidx_main_v2 (ix3 b i d) k = ix3 b i k :=
  funext fun a => by match a with | ⟨0, _⟩ => rfl | ⟨1, _⟩ => rfl | ⟨2, _⟩ => rfl
theorem ridx2_ix (b : Fin 4) (i : Fin 4096) (d : Fin 64) (k : Fin 512) :
    ridx_main_v2 (ix3 b i d) k = ix2 d k :=
  funext fun a => by match a with | ⟨0, _⟩ => rfl | ⟨1, _⟩ => rfl
theorem lidx3_ix (b : Fin 4) (i j : Fin 4096) (k : Fin 64) :
    lidx_main_v3 (ix3 b i j) k = ix3 b i k :=
  funext fun a => by match a with | ⟨0, _⟩ => rfl | ⟨1, _⟩ => rfl | ⟨2, _⟩ => rfl
theorem ridx3_ix (b : Fin 4) (i j : Fin 4096) (k : Fin 64) :
    ridx_main_v3 (ix3 b i j) k = ix3 b j k :=
  funext fun a => by match a with | ⟨0, _⟩ => rfl | ⟨1, _⟩ => rfl | ⟨2, _⟩ => rfl
theorem idx9_10_ix (b : Fin 4) (i j : Fin 4096) :
    idx_main_v9 (idx_main_v10 (ix3 b i j)) = ix2 b i :=
  funext fun a => by match a with | ⟨0, _⟩ => rfl | ⟨1, _⟩ => rfl
theorem idx14_15_ix (b : Fin 4) (i j : Fin 4096) :
    idx_main_v14 (idx_main_v15 (ix3 b i j)) = ix2 b i :=
  funext fun a => by match a with | ⟨0, _⟩ => rfl | ⟨1, _⟩ => rfl
theorem idx13_ix (b : Fin 4) (i k : Fin 4096) :
    idx_main_v13 (ix2 b i) k = ix3 b i k :=
  funext fun a => by match a with | ⟨0, _⟩ => rfl | ⟨1, _⟩ => rfl | ⟨2, _⟩ => rfl
theorem lidx17_ix (b : Fin 4) (i : Fin 4096) (c : Fin 64) (k : Fin 4096) :
    lidx_main_v17 (ix3 b i c) k = ix3 b i k :=
  funext fun a => by match a with | ⟨0, _⟩ => rfl | ⟨1, _⟩ => rfl | ⟨2, _⟩ => rfl
theorem ridx17_ix (b : Fin 4) (i : Fin 4096) (c : Fin 64) (k : Fin 4096) :
    ridx_main_v17 (ix3 b i c) k = ix3 b k c :=
  funext fun a => by match a with | ⟨0, _⟩ => rfl | ⟨1, _⟩ => rfl | ⟨2, _⟩ => rfl

/-- The shape fact of the two reductions over the key axis, in the form that names the inserted index. -/
theorem reduces_d2 : S4x4096x4096.Reduces [2] S4x4096 := by decide

/-- The source index over (b, i) with k inserted on the reduced axis is (b, i, k). -/
theorem lift_ix (b : Fin 4) (i k : Fin 4096) :
    reduces_d2.lift (ix2 b i) k = ix3 b i k :=
  funext fun a => Fin.ext (by match a with | ⟨0, _⟩ => rfl | ⟨1, _⟩ => rfl | ⟨2, _⟩ => rfl)

section
variable (x0 : (⟨S4x4096x512, .f32⟩ : BufTy).Contents (Elt Ideal)) (x1 x2 x3 : (⟨S64x512, .f32⟩ : BufTy).Contents (Elt Ideal))

/-! ## The stages, each at an index given by coordinates -/

/-- The three projections at (b, i, d). -/
theorem v0_at (b : Fin 4) (i : Fin 4096) (d : Fin 64) :
    val_main_v0 (F := Ideal) x0 x1 (ix3 b i d) = proj (arr3 x0) (arr2 x1) b i d := by
  rw [val_main_v0_apply]
  simp only [lidx0_ix, ridx0_ix]
  rfl
theorem v1_at (b : Fin 4) (i : Fin 4096) (d : Fin 64) :
    val_main_v1 (F := Ideal) x0 x2 (ix3 b i d) = proj (arr3 x0) (arr2 x2) b i d := by
  rw [val_main_v1_apply]
  simp only [lidx1_ix, ridx1_ix]
  rfl
theorem v2_at (b : Fin 4) (i : Fin 4096) (d : Fin 64) :
    val_main_v2 (F := Ideal) x0 x3 (ix3 b i d) = proj (arr3 x0) (arr2 x3) b i d := by
  rw [val_main_v2_apply]
  simp only [lidx2_ix, ridx2_ix]
  rfl

/-- The scaled score of query i against key j. -/
theorem v5_at (b : Fin 4) (i j : Fin 4096) :
    val_main_v5 (F := Ideal) x0 x1 x2 (ix3 b i j) = sR (proj (arr3 x0) (arr2 x1)) (proj (arr3 x0) (arr2 x2)) b i j := by
  rw [val_main_v5_apply, val_main_v3_apply, val_main_v4_apply, val_main_cst_apply]
  simp only [lidx3_ix, ridx3_ix, v0_at, v1_at, Ideal.mulf_def, Ideal.ofBits_def]
  rfl

/-- The row's maximum, as the reduction computes it from −∞. -/
theorem v6_at (b : Fin 4) (i : Fin 4096) :
    val_main_v6 (F := Ideal) x0 x1 x2 (ix2 b i)
      = Finset.univ.fold max ⊥ (fun j => sR (proj (arr3 x0) (arr2 x1)) (proj (arr3 x0) (arr2 x2)) b i j) := by
  unfold val_main_v6
  rw [Host.reduce_eq_fold_single (FloatOps.maximumf (F := Ideal) (φ := .f32)) (val_main_v5 (F := Ideal) x0 x1 x2)
    (val_main_cst_0 (F := Ideal)) reducesTo_S4x4096x4096_S4x4096_d2 reduces_d2 h_S_ (ix2 b i),
    val_main_cst_0_apply, Ideal.ofBits_def, ofBits_ninf]
  have e : (val_main_v5 (F := Ideal) x0 x1 x2 ∘ reduces_d2.lift (ix2 b i))
      = fun j : Fin 4096 => sR (proj (arr3 x0) (arr2 x1)) (proj (arr3 x0) (arr2 x2)) b i j :=
    funext fun (j : Fin 4096) =>
      (congrArg (val_main_v5 (F := Ideal) x0 x1 x2) (lift_ix b i j)).trans (v5_at x0 x1 x2 b i j)
  rw [e]
  rfl

/-- The maximum with the broadcast −∞ changes nothing. -/
theorem v8_at (b : Fin 4) (i : Fin 4096) :
    val_main_v8 (F := Ideal) x0 x1 x2 (ix2 b i)
      = Finset.univ.fold max ⊥ (fun j => sR (proj (arr3 x0) (arr2 x1)) (proj (arr3 x0) (arr2 x2)) b i j) := by
  rw [val_main_v8_apply, val_main_v7_apply, val_main_cst_1_apply, v6_at, Ideal.maximumf_def, Ideal.ofBits_def, ofBits_ninf]
  exact max_bot_left _

/-- The weight of key j before normalization: the exponential of the score less the row's maximum. -/
theorem v12_at (b : Fin 4) (i j : Fin 4096) :
    val_main_v12 (F := Ideal) x0 x1 x2 (ix3 b i j)
      = Ideal.exp (sR (proj (arr3 x0) (arr2 x1)) (proj (arr3 x0) (arr2 x2)) b i j
          - Finset.univ.fold max ⊥ (fun j' => sR (proj (arr3 x0) (arr2 x1)) (proj (arr3 x0) (arr2 x2)) b i j')) := by
  rw [val_main_v12_apply, val_main_v11_apply, val_main_v10_apply, val_main_v9_apply, idx9_10_ix, v8_at, v5_at,
    Ideal.hostUnary_exp_def, Ideal.subf_def]

/-- The row's sum of weights; the reduction starts from zero. -/
theorem v13_at (b : Fin 4) (i : Fin 4096) :
    val_main_v13 (F := Ideal) x0 x1 x2 (ix2 b i)
      = ∑ j : Fin 4096, Ideal.exp (sR (proj (arr3 x0) (arr2 x1)) (proj (arr3 x0) (arr2 x2)) b i j
          - Finset.univ.fold max ⊥ (fun j' => sR (proj (arr3 x0) (arr2 x1)) (proj (arr3 x0) (arr2 x2)) b i j')) := by
  rw [val_main_v13_apply, val_main_cst_2_apply, Ideal.ofBits_def, Ideal.ofBits_zero_f32, zero_add]
  simp only [idx13_ix, v12_at]

/-- The normalized weight of key j. -/
theorem v16_at (b : Fin 4) (i j : Fin 4096) :
    val_main_v16 (F := Ideal) x0 x1 x2 (ix3 b i j)
      = Ideal.div
          (Ideal.exp (sR (proj (arr3 x0) (arr2 x1)) (proj (arr3 x0) (arr2 x2)) b i j
            - Finset.univ.fold max ⊥ (fun j' => sR (proj (arr3 x0) (arr2 x1)) (proj (arr3 x0) (arr2 x2)) b i j')))
          (∑ j'' : Fin 4096, Ideal.exp (sR (proj (arr3 x0) (arr2 x1)) (proj (arr3 x0) (arr2 x2)) b i j''
            - Finset.univ.fold max ⊥ (fun j' => sR (proj (arr3 x0) (arr2 x1)) (proj (arr3 x0) (arr2 x2)) b i j'))) := by
  rw [val_main_v16_apply, val_main_v15_apply, val_main_v14_apply, idx14_15_ix, v13_at, v12_at, Ideal.hostDivf_def]

end

/-- The reference's result, read at the index (b, i, c), is the reference's arrangement of the specification at
    the argument arrays read by coordinates. -/
theorem ref_value (x0 : (⟨S4x4096x512, .f32⟩ : BufTy).Contents (Elt Ideal)) (x1 x2 x3 : (⟨S64x512, .f32⟩ : BufTy).Contents (Elt Ideal))
    (b : Fin 4) (i : Fin 4096) (c : Fin 64) :
    Cert.ReferenceIdeal.Read.val_main_v17 (F := Ideal) x0 x1 x2 x3 (ix3 b i c)
      = Rout (arr3 x0) (arr2 x1) (arr2 x2) (arr2 x3) b i c := by
  rw [val_main_v17_apply]
  simp only [lidx17_ix, ridx17_ix, v16_at, v2_at]
  rfl

end Cert.RefValue

end
-- ==== Proof.LibSoftmax.lean ====
/-
  The algebra behind streaming softmax attention, over the extended reals with real-valued data.

  For a row of logits l and a column of values v over a finite, nonempty set of slots, and ANY real shift M,
      sum_s (exp (l s - M) / sum_s' exp (l s' - M)) * v s  =  (sum_s exp (l s) * v s) / (sum_s exp (l s)) :
  the factor exp (-M) is common to numerator and denominator and cancels, and the quotient by the (positive) total
  comes out of the sum.  The left side is the softmax with the row maximum subtracted; the right side is the form a
  streaming kernel accumulates, with no subtraction at all.  Every quantity must be a real number for this: on the
  extended reals distributivity and cancellation fail at the infinities.

  Also here: what it means for an extended real to be a real number and how that passes through sums, products and
  maxima; and a sum over m * n slots regrouped as m consecutive blocks of n.
-/
import Idealize.ShloMosaic.PureOps.Ideal

noncomputable section

namespace Cert.Attn

open Idealize.ShloMosaic

/-! ## Extended reals that are real numbers -/

/-- The extended real x is a real number (neither infinity). -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy; exact ⟨Max.max a b, (EReal.coe_strictMono.monotone.map_max (a := a) (b := b)).symm⟩

theorem IsReal.exp {x : EReal} (hx : IsReal x) : IsReal (Ideal.exp x) := by
  obtain ⟨a, rfl⟩ := hx; exact ⟨Real.exp a, rfl⟩

theorem IsReal.sum {ι : Type*} (s : Finset ι) (f : ι → EReal) (hf : ∀ i ∈ s, IsReal (f i)) : IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The running maximum, from minus infinity, of real numbers over a nonempty finite set is a real number. -/
theorem IsReal.fold_max {ι : Type*} (s : Finset ι) (hs : s.Nonempty) (f : ι → EReal) (hf : ∀ i ∈ s, IsReal (f i)) :
    IsReal (s.fold Max.max (⊥ : EReal) f) := by
  classical
  induction hs using Finset.Nonempty.cons_induction with
  | singleton a =>
    rw [Finset.fold_singleton, max_bot_right]
    exact hf a (Finset.mem_singleton_self a)
  | cons a s ha hs ih =>
    rw [Finset.fold_cons]
    exact (hf a (Finset.mem_cons_self a s)).max (ih fun i hi => hf i (Finset.mem_cons.2 (Or.inr hi)))

/-- Dividing by one changes nothing. -/
theorem div_one' (x : EReal) : Ideal.div x 1 = x := by
  have h := Ideal.div_coe (y := 1) one_ne_zero x
  rw [EReal.coe_one] at h
  rw [h]; norm_num

/-! ## The law -/

/-- The real identity: a common factor exp (-M) cancels, and the quotient by the total comes out of the sum. -/
theorem softmax_real {ι : Type*} [Fintype ι] [Nonempty ι] (l v : ι → ℝ) (M : ℝ) :
    ∑ s, Real.exp (l s - M) * (1 / ∑ s', Real.exp (l s' - M)) * v s
      = (∑ s, Real.exp (l s) * v s) * (1 / ∑ s, Real.exp (l s)) := by
  have hpos : 0 < ∑ s, Real.exp (l s) := Finset.sum_pos (fun s _ => Real.exp_pos _) Finset.univ_nonempty
  have hM : ∀ s, Real.exp (l s - M) = Real.exp (l s) * Real.exp (-M) := fun s => by
    rw [← Real.exp_add]; ring_nf
  have hZ : ∑ s', Real.exp (l s' - M) = (∑ s', Real.exp (l s')) * Real.exp (-M) := by
    rw [Finset.sum_mul]; exact Finset.sum_congr rfl fun s _ => hM s
  rw [Finset.sum_mul]
  refine Finset.sum_congr rfl fun s _ => ?_
  rw [hZ, hM s]
  have he : Real.exp (-M) ≠ 0 := (Real.exp_pos _).ne'
  have hp : (∑ s, Real.exp (l s)) ≠ 0 := hpos.ne'
  field_simp

/-- The law on the extended reals, for real-valued logits l, values v and shift M: the shifted, normalised weights
    (their total taken from zero) applied to the values give the quotient of the two unshifted sums. -/
theorem softmax_ereal {ι : Type*} [Fintype ι] [Nonempty ι] (l v : ι → EReal) (M : EReal)
    (hl : ∀ s, IsReal (l s)) (hv : ∀ s, IsReal (v s)) (hM : IsReal M) :
    ∑ s, Ideal.div (Ideal.exp (l s - M)) (0 + ∑ s', Ideal.exp (l s' - M)) * v s
      = Ideal.div (∑ s, Ideal.exp (l s) * v s) (∑ s, Ideal.exp (l s) * 1) := by
  classical
  choose lr hlr using hl
  choose vr hvr using hv
  obtain ⟨Mr, rfl⟩ := hM
  have hZpos : 0 < ∑ s', Real.exp (lr s' - Mr) := Finset.sum_pos (fun s _ => Real.exp_pos _) Finset.univ_nonempty
  have hDpos : 0 < ∑ s', Real.exp (lr s') := Finset.sum_pos (fun s _ => Real.exp_pos _) Finset.univ_nonempty
  have hE : ∀ s, Ideal.exp (l s - (Mr : EReal)) = ((Real.exp (lr s - Mr) : ℝ) : EReal) := fun s => by
    rw [hlr s, ← EReal.coe_sub]; rfl
  have hE0 : ∀ s, Ideal.exp (l s) = ((Real.exp (lr s) : ℝ) : EReal) := fun s => by rw [hlr s]; rfl
  have hZ : (0 : EReal) + ∑ s', Ideal.exp (l s' - (Mr : EReal)) = ((∑ s', Real.exp (lr s' - Mr) : ℝ) : EReal) := by
    rw [zero_add, coe_sum]; exact Finset.sum_congr rfl fun s _ => hE s
  have hN : ∑ s, Ideal.exp (l s) * v s = ((∑ s, Real.exp (lr s) * vr s : ℝ) : EReal) := by
    rw [coe_sum]; exact Finset.sum_congr rfl fun s _ => by rw [hE0 s, hvr s, EReal.coe_mul]
  have hD : ∑ s, Ideal.exp (l s) * 1 = ((∑ s, Real.exp (lr s) : ℝ) : EReal) := by
    rw [coe_sum]; exact Finset.sum_congr rfl fun s _ => by rw [hE0 s, mul_one]
  rw [hZ, hN, hD, Ideal.div_coe hDpos.ne', ← EReal.coe_mul, ← softmax_real lr vr Mr,
    coe_sum Finset.univ fun s => Real.exp (lr s - Mr) * (1 / ∑ s', Real.exp (lr s' - Mr)) * vr s]
  refine Finset.sum_congr rfl fun s _ => ?_
  rw [hE s, Ideal.div_coe hZpos.ne', hvr s, ← EReal.coe_mul, ← EReal.coe_mul]

end Cert.Attn

end
-- ==== Proof.Law.lean ====
import proofs.«402268_j81295140979317_3_alg».proof.Proof.Spec
import proofs.«402268_j81295140979317_3_alg».proof.Proof.LibSoftmax

noncomputable section

open scoped BigOperators

namespace Cert.Spec

open Idealize.ShloMosaic Cert.Attn

/-! ## The scale is a real number -/

/-- The word 0x3E000000 reads as the real number 1/8. -/
theorem c8_real : ∃ r : ℝ, c8 = (r : EReal) := by
  refine ⟨(1/8 : ℝ), ?_⟩
  simp [c8, Ideal.ofBits, Ideal.ieee, -EReal.coe_mul]; norm_num

namespace Law

/-! ## The two tiles partition the keys -/

/-- A sum over the 4096 keys is the sum over the first tile plus the sum over the second. -/
theorem sum_tiles {α : Type*} [AddCommMonoid α] (f : Fin 4096 → α) :
    ∑ j : Fin 4096, f j = ∑ j : Fin 2048, f (tile 0 j) + ∑ j : Fin 2048, f (tile 1 j) := by
  have h := Fin.sum_univ_add (a := 2048) (b := 2048) f
  rw [h]
  congr 1

/-! ## exp of a difference, on real data and from minus infinity -/

theorem exp_coe_sub (a b : ℝ) : Ideal.exp ((a : EReal) - (b : EReal)) = ((Real.exp (a - b) : ℝ) : EReal) := by
  rw [← EReal.coe_sub]; rfl

/-- Minus infinity less a real number is minus infinity, whose exponential is zero. -/
theorem exp_bot_sub (b : ℝ) : Ideal.exp ((⊥ : EReal) - (b : EReal)) = 0 := by
  rw [sub_eq_add_neg, EReal.bot_add]; rfl

/-! ## One step of the running maximum, sum and numerator, on real data -/

/-- From minus infinity the running maximum after a tile of real scores is a real number. -/
theorem stepM_bot_real (s : Fin 2048 → ℝ) : ∃ M : ℝ, stepM (fun j => (s j : EReal)) ⊥ = (M : EReal) := by
  unfold stepM; rw [max_bot_left]
  exact IsReal.fold_max Finset.univ Finset.univ_nonempty _ (fun j _ => IsReal.coe _)

/-- From a real maximum the running maximum after a tile of real scores is a real number. -/
theorem stepM_coe_real (s : Fin 2048 → ℝ) (m : ℝ) :
    ∃ M : ℝ, stepM (fun j => (s j : EReal)) (m : EReal) = (M : EReal) :=
  (IsReal.coe m).max (IsReal.fold_max Finset.univ Finset.univ_nonempty _ (fun j _ => IsReal.coe _))

/-- The first tile's sum: the old sum's factor exp (−∞ − M) is zero, so only the tile's weights remain. -/
theorem stepL_first (s : Fin 2048 → ℝ) (M : ℝ) (hM : stepM (fun j => (s j : EReal)) ⊥ = (M : EReal)) :
    stepL (fun j => (s j : EReal)) ⊥ 0 = ((∑ j, Real.exp (s j - M) : ℝ) : EReal) := by
  unfold stepL; rw [hM, exp_bot_sub, mul_zero, zero_add, coe_sum]
  exact Finset.sum_congr rfl fun j _ => exp_coe_sub _ _

/-- The first tile's numerator, likewise. -/
theorem stepA_first (s v : Fin 2048 → ℝ) (M : ℝ) (hM : stepM (fun j => (s j : EReal)) ⊥ = (M : EReal)) :
    stepA (fun j => (s j : EReal)) (fun j => (v j : EReal)) ⊥ 0
      = ((∑ j, Real.exp (s j - M) * v j : ℝ) : EReal) := by
  unfold stepA; rw [hM, exp_bot_sub, mul_zero, zero_add, coe_sum]
  exact Finset.sum_congr rfl fun j _ => by rw [exp_coe_sub, EReal.coe_mul]

/-- A later tile's sum from a real maximum m and a real sum l. -/
theorem stepL_next (s : Fin 2048 → ℝ) (m l M : ℝ)
    (hM : stepM (fun j => (s j : EReal)) (m : EReal) = (M : EReal)) :
    stepL (fun j => (s j : EReal)) (m : EReal) (l : EReal)
      = ((Real.exp (m - M) * l + ∑ j, Real.exp (s j - M) : ℝ) : EReal) := by
  unfold stepL; rw [hM, exp_coe_sub, EReal.coe_add, EReal.coe_mul, coe_sum]
  congr 1

/-- A later tile's numerator from a real maximum m and a real numerator a. -/
theorem stepA_next (s v : Fin 2048 → ℝ) (m a M : ℝ)
    (hM : stepM (fun j => (s j : EReal)) (m : EReal) = (M : EReal)) :
    stepA (fun j => (s j : EReal)) (fun j => (v j : EReal)) (m : EReal) (a : EReal)
      = ((Real.exp (m - M) * a + ∑ j, Real.exp (s j - M) * v j : ℝ) : EReal) := by
  unfold stepA; rw [hM, exp_coe_sub, EReal.coe_add, EReal.coe_mul, coe_sum]
  congr 1

/-! ## The two tiles together, over the reals -/

/-- The running sum after both tiles is exp (−M) times the plain sum of exponentials:
    exp (m − M) · exp (s − m) = exp (−M) · exp s  on the first tile,  exp (s − M) = exp (−M) · exp s  on the second. -/
theorem tiles_L (sr : Fin 4096 → ℝ) (m M : ℝ) :
    Real.exp (m - M) * (∑ j, Real.exp (sr (tile 0 j) - m)) + ∑ j, Real.exp (sr (tile 1 j) - M)
      = Real.exp (-M) * ∑ j, Real.exp (sr j) := by
  rw [sum_tiles (fun j => Real.exp (sr j)), mul_add, Finset.mul_sum, Finset.mul_sum, Finset.mul_sum]
  congr 1
  · refine Finset.sum_congr rfl fun j _ => ?_
    rw [← Real.exp_add, ← Real.exp_add]; congr 1; ring
  · refine Finset.sum_congr rfl fun j _ => ?_
    rw [← Real.exp_add]; congr 1; ring

/-- The running numerator after both tiles is exp (−M) times the plain weighted sum. -/
theorem tiles_A (sr vr : Fin 4096 → ℝ) (m M : ℝ) :
    Real.exp (m - M) * (∑ j, Real.exp (sr (tile 0 j) - m) * vr (tile 0 j))
        + ∑ j, Real.exp (sr (tile 1 j) - M) * vr (tile 1 j)
      = Real.exp (-M) * ∑ j, Real.exp (sr j) * vr j := by
  rw [sum_tiles (fun j => Real.exp (sr j) * vr j), mul_add, Finset.mul_sum, Finset.mul_sum, Finset.mul_sum]
  congr 1
  · refine Finset.sum_congr rfl fun j _ => ?_
    rw [← mul_assoc, ← mul_assoc, ← Real.exp_add, ← Real.exp_add]; congr 2; ring
  · refine Finset.sum_congr rfl fun j _ => ?_
    rw [← mul_assoc, ← Real.exp_add]; congr 2; ring

/-! ## Both arrangements as one quotient -/

/-- The kernel's row on real data: the common factor exp (−M) cancels between numerator and sum. -/
theorem flash_real (sr vr : Fin 4096 → ℝ) :
    flash (fun j => (sr j : EReal)) (fun j => (vr j : EReal))
      = Ideal.div ((∑ j, Real.exp (sr j) * vr j : ℝ) : EReal) ((∑ j, Real.exp (sr j) : ℝ) : EReal) := by
  obtain ⟨m, hm⟩ := stepM_bot_real (fun j => sr (tile 0 j))
  obtain ⟨M, hM⟩ := stepM_coe_real (fun j => sr (tile 1 j)) m
  have hD : 0 < ∑ j, Real.exp (sr j) := Finset.sum_pos (fun j _ => Real.exp_pos _) Finset.univ_nonempty
  have he : 0 < Real.exp (-M) := Real.exp_pos _
  unfold flash
  simp only []
  rw [hm, stepL_first _ m hm, stepA_first _ _ m hm, stepL_next _ m _ M hM, stepA_next _ _ m _ M hM,
    tiles_L, tiles_A, Ideal.div_coe (mul_pos he hD).ne', Ideal.div_coe hD.ne', ← EReal.coe_mul, ← EReal.coe_mul]
  rw [EReal.coe_eq_coe_iff]
  have he' := he.ne'
  have hD' := hD.ne'
  field_simp

/-- The reference's row on real data: the shift by the maximum cancels and the quotient comes out of the sum. -/
theorem softR_real (sr vr : Fin 4096 → ℝ) :
    softR (fun j => (sr j : EReal)) (fun j => (vr j : EReal))
      = Ideal.div ((∑ j, Real.exp (sr j) * vr j : ℝ) : EReal) ((∑ j, Real.exp (sr j) : ℝ) : EReal) := by
  have hF : IsReal (Finset.univ.fold max ⊥ fun j : Fin 4096 => (sr j : EReal)) :=
    IsReal.fold_max Finset.univ Finset.univ_nonempty _ (fun j _ => IsReal.coe _)
  have h := softmax_ereal (fun j : Fin 4096 => (sr j : EReal)) (fun j => (vr j : EReal)) _
    (fun j => IsReal.coe _) (fun j => IsReal.coe _) hF
  rw [zero_add] at h
  simp only [mul_one] at h
  unfold softR
  rw [h, coe_sum, coe_sum]
  congr 1

/-- On real scores and values the two-tile running form and the one-pass form agree. -/
theorem flash_eq_softR (s v : Fin 4096 → EReal) (hs : ∀ j, IsReal (s j)) (hv : ∀ j, IsReal (v j)) :
    flash s v = softR s v := by
  choose sr hsr using hs
  choose vr hvr using hv
  obtain rfl : s = fun j => (sr j : EReal) := funext hsr
  obtain rfl : v = fun j => (vr j : EReal) := funext hvr
  rw [flash_real, softR_real]

/-! ## Projections and scores on real data -/

/-- A projection of real data is the coercion of the real contraction. -/
theorem proj_coe (xr : Fin 4 → Fin 4096 → Fin 512 → ℝ) (wr : Fin 64 → Fin 512 → ℝ) (b : Fin 4) (i : Fin 4096)
    (d : Fin 64) :
    proj (fun b i e => (xr b i e : EReal)) (fun d e => (wr d e : EReal)) b i d
      = ((∑ e, xr b i e * wr d e : ℝ) : EReal) := by
  unfold proj; rw [coe_sum]
  exact Finset.sum_congr rfl fun e _ => (EReal.coe_mul _ _).symm

/-- Over the reals the scale moves from inside the query weights to outside the score, by distributivity twice. -/
theorem score_real (xr : Fin 4 → Fin 4096 → Fin 512 → ℝ) (qr kr : Fin 64 → Fin 512 → ℝ) (cr : ℝ) (b : Fin 4)
    (i j : Fin 4096) :
    ∑ d, (∑ e, xr b i e * (qr d e * cr)) * (∑ e, xr b j e * kr d e)
      = (∑ d, (∑ e, xr b i e * qr d e) * (∑ e, xr b j e * kr d e)) * cr := by
  rw [Finset.sum_mul]
  refine Finset.sum_congr rfl fun d _ => ?_
  have h : ∑ e, xr b i e * (qr d e * cr) = (∑ e, xr b i e * qr d e) * cr := by
    rw [Finset.sum_mul]; exact Finset.sum_congr rfl fun e _ => by ring
  rw [h]; ring

end Law

open Law

/-- On real inputs the kernel's arrangement (scale inside the query weights, two tiles of online softmax) and the
    reference's (scale after the contraction, one softmax over the row) are one function. -/
theorem Kout_eq_Rout (x : Xs) (wq wk wv : Ws)
    (hx : ∀ b i e, ∃ r : ℝ, x b i e = (r : EReal)) (hq : ∀ d e, ∃ r : ℝ, wq d e = (r : EReal))
    (hk : ∀ d e, ∃ r : ℝ, wk d e = (r : EReal)) (hv : ∀ d e, ∃ r : ℝ, wv d e = (r : EReal)) :
    Kout x wq wk wv = Rout x wq wk wv := by
  choose xr hxr using hx
  choose qr hqr using hq
  choose kr hkr using hk
  choose vr hvr using hv
  obtain ⟨cr, hcr⟩ := c8_real
  obtain rfl : x = fun b i e => (xr b i e : EReal) := by funext b i e; exact hxr b i e
  obtain rfl : wq = fun d e => (qr d e : EReal) := by funext d e; exact hqr d e
  obtain rfl : wk = fun d e => (kr d e : EReal) := by funext d e; exact hkr d e
  obtain rfl : wv = fun d e => (vr d e : EReal) := by funext d e; exact hvr d e
  have hqc : (fun d e => (qr d e : EReal) * c8) = fun d e => ((qr d e * cr : ℝ) : EReal) := by
    funext d e; rw [hcr, EReal.coe_mul]
  funext b i c
  unfold Kout Rout
  rw [hqc]
  have hS : ∀ j, sK (proj (fun b i e => (xr b i e : EReal)) fun d e => ((qr d e * cr : ℝ) : EReal))
        (proj (fun b i e => (xr b i e : EReal)) fun d e => (kr d e : EReal)) b i j
      = sR (proj (fun b i e => (xr b i e : EReal)) fun d e => (qr d e : EReal))
        (proj (fun b i e => (xr b i e : EReal)) fun d e => (kr d e : EReal)) b i j := by
    intro j
    unfold sK sR
    simp only [proj_coe]
    rw [hcr]
    simp only [← EReal.coe_mul]
    rw [← coe_sum, ← coe_sum, ← EReal.coe_mul, score_real]
  have hSr : ∀ j, IsReal (sR (proj (fun b i e => (xr b i e : EReal)) fun d e => (qr d e : EReal))
        (proj (fun b i e => (xr b i e : EReal)) fun d e => (kr d e : EReal)) b i j) := by
    intro j
    unfold sR
    simp only [proj_coe]
    rw [hcr]
    exact (IsReal.sum _ _ fun d _ => (IsReal.coe _).mul (IsReal.coe _)).mul (IsReal.coe _)
  simp only [hS]
  exact flash_eq_softR _ _ hSr (fun j => by rw [proj_coe]; exact IsReal.coe _)

end Cert.Spec

end
-- ==== Proof.Finite.lean ====
import proofs.«402268_j81295140979317_3_alg».proof.Proof.Spec
import proofs.«402268_j81295140979317_3_alg».proof.Pre_finite_inputs
import proofs.«402268_j81295140979317_3_alg».proof.Proof.Gen.Pre_finite_inputs
import Idealize.ShloMosaic.Lib.ReduceAll

/-
  Finiteness of the inputs. The precondition is the conjunction, over the four argument arrays, of "for every entry
  x, |x| < +∞", where |x| is max x (−x) on the extended reals and +∞ is the single-precision word 0x7F800000. A
  conjunction that is 1 has every conjunct 1; max x (−x) < +∞ fails at x = −∞ and at x = +∞; what remains is a real.
-/

noncomputable section

namespace Cert.Finite

open Idealize.ShloMosaic Idealize.ShloMosaic.ValueIdx Cert.Spec

/-- The shape of rank 0 has exactly one index. -/
instance subsingleton_scalar_idx : Subsingleton Cert.Pre_finite_inputs.S_.Idx :=
  ⟨fun a b => funext fun d => d.elim0⟩

/-- The single-precision word 0x7F800000 reads as +∞. -/
theorem inf_word : Ideal.ofBits .f32 0x7F800000#32 = (⊤ : EReal) := by
  simp [Ideal.ofBits, Ideal.ieee]

/-- An extended real whose absolute value max a (−a) lies strictly below +∞ is a real number: at −∞ and at +∞ the
    maximum is +∞ itself. -/
theorem real_of_abs_lt_top (a : EReal) (h : max a (-a) < ⊤) : ∃ r : ℝ, a = (r : EReal) := by
  induction a using EReal.rec with
  | bot => simp at h
  | coe r => exact ⟨r, rfl⟩
  | top => simp at h

/-- One entry: if the comparison |a| < +∞ comes out 1, then a is a real number. -/
theorem real_of_cmp (a : Ideal .f32)
    (h : FloatOps.cmpf .olt (FloatOps.hostAbsf a) (FloatOps.ofBits (F := Ideal) .f32 0x7F800000#32) = 1#1) :
    ∃ r : ℝ, (a : EReal) = (r : EReal) := by
  have h' : Ideal.cmp .olt (max (a : EReal) (-(a : EReal))) (Ideal.ofBits .f32 0x7F800000#32) = 1#1 := h
  rw [inf_word] at h'
  by_cases hlt : max (a : EReal) (-(a : EReal)) < ⊤
  · exact real_of_abs_lt_top a hlt
  · simp [Ideal.cmp, hlt] at h'

/-- One argument, for any shape: if the conjunction over all entries of "|x i| < +∞" (the +∞ word broadcast from a
    scalar, the conjunction a reduction by "and" over all axes into the scalar shape) is 1, every entry of x is real. -/
theorem allReal_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32) (init : IVec Cert.Pre_finite_inputs.S_ 1) (j : Cert.Pre_finite_inputs.S_.Idx)
    (e : Host.reduce IntOp.andi
          (cmpf .olt (Host.absf x)
            (broadcastInDim s ![] hb (constant Cert.Pre_finite_inputs.S_ .f32 0x7F800000#32))) init hr hu j = 1#1) :
    AllReal x := by
  intro i
  exact real_of_cmp (x i) (Host.reduce_andi_all _ init hr hu j e i)

/-- The precondition "every entry of every argument is finite", read at the extended reals: every entry of each of
    the four argument arrays is a real number. -/
theorem real_of_pre [Cert.Pre_finite_inputs.Facts]
    (a0 : (⟨Cert.Pre_finite_inputs.S4x4096x512, .f32⟩ : BufTy).Contents (Elt Ideal))
    (a1 a2 a3 : (⟨Cert.Pre_finite_inputs.S64x512, .f32⟩ : BufTy).Contents (Elt Ideal))
    (h : Cert.Pre_finite_inputs.fn (F := Ideal) a0 a1 a2 a3 = fun _ => 1#1) :
    AllReal a0 ∧ AllReal a1 ∧ AllReal a2 ∧ AllReal a3 := by
  have h0 := congrFun h ValueIdx.ix0
  dsimp only [Cert.Pre_finite_inputs.fn, Cert.Pre_finite_inputs.fn_part1, andi] at h0
  obtain ⟨h012, e3⟩ := IntOp.andi_eq_one.1 h0
  obtain ⟨h01, e2⟩ := IntOp.andi_eq_one.1 h012
  obtain ⟨e0, e1⟩ := IntOp.andi_eq_one.1 h01
  exact ⟨allReal_of_all _ _ _ a0 _ _ e0, allReal_of_all _ _ _ a1 _ _ e1, allReal_of_all _ _ _ a2 _ _ e2,
    allReal_of_all _ _ _ a3 _ _ e3⟩

end Cert.Finite

end
-- ==== Proof.lean ====
/-
  The certificate: a fused query/key/value projection followed by single-head attention over key tiles with an online
  softmax (the kernel) against projections, scaled scores, a row softmax and a weighted sum of values (the reference).

  Frames. Each program runs to the end from any memory, faults nowhere and leaves its four argument arrays unchanged:
  for the kernel, at the word level and on the extended reals alike, by running the host stretch, the projection
  region and the attention region in turn, the attention region's running maximum, sum and numerator carried from each
  even grid point to the odd one after it; for the reference, by its run read back.

  Values, on the extended reals, under the precondition that every input entry is finite (hence a real number).
  The kernel's result at (b, i, c) is  acc / l  after two tiles of 2048 keys folded from (−∞, 0, 0) over the scores
  Σ_d (Σ_e x·(wq·2⁻³))·(Σ_e x·wk); the reference's is  Σ_j (exp (s_j − M) / Σ exp (s − M)) · v_j  over the scores
  (Σ_d (Σ_e x·wq)·(Σ_e x·wk))·2⁻³. On reals the scale moves through both sums, the rescaling exp (m₁ − m₂) turns the
  first tile's weights into the weights at the final maximum, and a sum of quotients by one positive real is the
  quotient of the sum: the two results are one function of the arguments.

  The idealization rewrote nothing, so its preservation claim has no conjunct.
-/
import proofs.«402268_j81295140979317_3_alg».proof.Defs
import proofs.«402268_j81295140979317_3_alg».proof.Proof.Gen.Kernel
import proofs.«402268_j81295140979317_3_alg».proof.Proof.Gen.KernelIdeal
import proofs.«402268_j81295140979317_3_alg».proof.Proof.Gen.ReferenceIdeal
import proofs.«402268_j81295140979317_3_alg».proof.Proof.Gen.Pre_finite_inputs
import proofs.«402268_j81295140979317_3_alg».proof.Proof.Gen.ReferenceIdeal.Run
import proofs.«402268_j81295140979317_3_alg».proof.Proof.Gen.ReferenceIdeal.Read
import proofs.«402268_j81295140979317_3_alg».proof.Proof.FrameB.Launch
import proofs.«402268_j81295140979317_3_alg».proof.Proof.FrameI.Launch
import proofs.«402268_j81295140979317_3_alg».proof.Proof.KernelValue
import proofs.«402268_j81295140979317_3_alg».proof.Proof.RefValue
import proofs.«402268_j81295140979317_3_alg».proof.Proof.Law
import proofs.«402268_j81295140979317_3_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem Cert.Spec

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the kernel's arrangement of the specification, read at the (shared)
    arguments: the kernel's by its value run, the reference's by its run read stage by stage and the law that joins the
    two arrangements on real inputs. -/
theorem algebraic : Cert.algebraic_KernelIdeal_ReferenceIdeal := by
  intro m ρ m' ρ' hpre hagree
  refine ⟨fun c => unarr3 (Kout (arr3 (n0 := 4) (n1 := 4096) (n2 := 512) (m ((c.tc : Thread Cert.KernelIdeal.nD Cert.KernelIdeal.τ).loc Cert.KernelIdeal.main_arg0)))
      (arr2 (n0 := 64) (n1 := 512) (m ((c.tc : Thread Cert.KernelIdeal.nD Cert.KernelIdeal.τ).loc Cert.KernelIdeal.main_arg1)))
      (arr2 (n0 := 64) (n1 := 512) (m ((c.tc : Thread Cert.KernelIdeal.nD Cert.KernelIdeal.τ).loc Cert.KernelIdeal.main_arg2)))
      (arr2 (n0 := 64) (n1 := 512) (m ((c.tc : Thread Cert.KernelIdeal.nD Cert.KernelIdeal.τ).loc Cert.KernelIdeal.main_arg3)))), ?_, ?_⟩
  · refine (θ_run Cert.KernelIdeal.defs _ _).mono (fun r h c => ⟨?_, (h c).2⟩) (Cert.KernelIdeal.Hand.run_value m ρ)
    funext j
    obtain ⟨b, i, cc, rfl⟩ : ∃ (b : Fin 4) (i : Fin 4096) (cc : Fin 64), j = ix3 b i cc := ⟨j 0, j 1, j 2, eq_ix3 j⟩
    exact (h c).1 b i cc
  · refine (θ_run Cert.ReferenceIdeal.defs _ _).mono (fun r h c => ⟨?_, (h c).2⟩) (Cert.ReferenceIdeal.Value.run (F := Ideal) m' ρ')
    obtain ⟨h0, h1, h2, h3⟩ := Cert.Finite.real_of_pre _ _ _ _ (hpre c)
    rw [(h c).1, Cert.ReferenceIdeal.Read.val_main_v17_eq, (hagree c).1, (hagree c).2.1, (hagree c).2.2.1, (hagree c).2.2.2]
    funext j
    obtain ⟨b, i, cc, rfl⟩ : ∃ (b : Fin 4) (i : Fin 4096) (cc : Fin 64), j = ix3 b i cc := ⟨j 0, j 1, j 2, eq_ix3 j⟩
    rw [Cert.RefValue.ref_value]
    exact (congrFun (congrFun (congrFun (Kout_eq_Rout _ _ _ _ (fun b i e => h0 (ix3 b i e)) (fun d e => h1 (ix2 d e))
      (fun d e => h2 (ix2 d e)) (fun d e => h3 (ix2 d e))) b) i) cc).symm

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, trivial, Cert.Proof.algebraic⟩

end
